-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x8192 : Shape := ⟨3, ![8, 2048, 8192]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x2048 .f32) (main_arg1 : FVec F S8x2048x8192 .f32) (main_arg2 : IVec S8192 32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 32 := constantI S_ 32 8#32
  let main_v11 : IVec S8192 32 := broadcastInDim S8192 ![] bcast_S_S8192 main_c_3
  let main_v12 : IVec S8192 1 := cmpi .slt main_arg2 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x2048 : Shape := ⟨2, ![8192, 2048]⟩
abbrev S8x2048x8192 : Shape := ⟨3, ![8, 2048, 8192]⟩
abbrev S8192 : Shape := ⟨1, ![8192]⟩
abbrev S_ : Shape := ⟨0, ![]⟩
abbrev S8192x1 : Shape := ⟨2, ![8192, 1]⟩
abbrev S8 : Shape := ⟨1, ![8]⟩
abbrev S1x8192 : Shape := ⟨2, ![1, 8192]⟩
abbrev S8x1 : Shape := ⟨2, ![8, 1]⟩
abbrev S8x8192 : Shape := ⟨2, ![8, 8192]⟩
abbrev S1 : Shape := ⟨1, ![1]⟩
abbrev S9 : Shape := ⟨1, ![9]⟩
abbrev S10240 : Shape := ⟨1, ![10240]⟩
abbrev S10240x1 : Shape := ⟨2, ![10240, 1]⟩
abbrev S10240x2048 : Shape := ⟨2, ![10240, 2048]⟩
abbrev S40 : Shape := ⟨1, ![40]⟩
abbrev S1x8 : Shape := ⟨2, ![1, 8]⟩
abbrev S40x1 : Shape := ⟨2, ![40, 1]⟩
abbrev S40x8 : Shape := ⟨2, ![40, 8]⟩
abbrev S10240x8192 : Shape := ⟨2, ![10240, 8192]⟩
abbrev S256x2048 : Shape := ⟨2, ![256, 2048]⟩
abbrev S1x2048x1024 : Shape := ⟨3, ![1, 2048, 1024]⟩
abbrev S256x1024 : Shape := ⟨2, ![256, 1024]⟩
abbrev S2048x1024 : Shape := ⟨2, ![2048, 1024]⟩
abbrev S8192x8192 : Shape := ⟨2, ![8192, 8192]⟩

abbrev nBuf : Space → Nat
  | .hbm => 174
  | .vmem => 6
  | .smem => 2
  | _ => 0

abbrev hbmTy0_0 (i : Nat) : BufTy := match i % 128 with
  | 0 => ⟨S8192x2048, .f32⟩
  | 1 => ⟨S8x2048x8192, .f32⟩
  | 2 => ⟨S8192, .i32⟩
  | 3 => ⟨S_, .i32⟩
  | 4 => ⟨S_, .i32⟩
  | 5 => ⟨S_, .i32⟩
  | 6 => ⟨S8192, .i32⟩
  | 7 => ⟨S8192, .i32⟩
  | 8 => ⟨S_, .i32⟩
  | 9 => ⟨S8192, .i32⟩
  | 10 => ⟨S8192, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192, .i32⟩
  | 23 => ⟨S8, .i32⟩
  | 24 => ⟨S1x8192, .i32⟩
  | 25 => ⟨S8x1, .i32⟩
  | 26 => ⟨S8x8192, .i32⟩
  | 27 => ⟨S8x8192, .i32⟩
  | 28 => ⟨S8x8192, .i1⟩
  | 29 => ⟨S8x8192, .i32⟩
  | 30 => ⟨S_, .i32⟩
  | 31 => ⟨S8, .i32⟩
  | 32 => ⟨S_, .i32⟩
  | 33 => ⟨S1, .i32⟩
  | 34 => ⟨S_, .i32⟩
  | 35 => ⟨S_, .i32⟩
  | 36 => ⟨S8, .i32⟩
  | 37 => ⟨S9, .i32⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S_, .i32⟩
  | 45 => ⟨S_, .i32⟩
  | 46 => ⟨S8, .i32⟩
  | 47 => ⟨S8, .i32⟩
  | 48 => ⟨S8, .i32⟩
  | 49 => ⟨S_, .i32⟩
  | 50 => ⟨S8, .i32⟩
  | 51 => ⟨S8, .i1⟩
  | 52 => ⟨S8, .i32⟩
  | 53 => ⟨S8, .i32⟩
  | 54 => ⟨S_, .i32⟩
  | 55 => ⟨S8, .i32⟩
  | 56 => ⟨S8, .i1⟩
  | 57 => ⟨S8, .i1⟩
  | 58 => ⟨S_, .i32⟩
  | 59 => ⟨S8, .i32⟩
  | 60 => ⟨S8, .i32⟩
  | 61 => ⟨S8, .i32⟩
  | 62 => ⟨S_, .i32⟩
  | 63 => ⟨S8, .i32⟩
  | 64 => ⟨S8, .i32⟩
  | 65 => ⟨S_, .i32⟩
  | 66 => ⟨S_, .i32⟩
  | 67 => ⟨S8, .i32⟩
  | 68 => ⟨S9, .i32⟩
  | 69 => ⟨S8192, .i32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192, .i32⟩
  | 79 => ⟨S8192, .i32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192, .i32⟩
  | 89 => ⟨S8192, .i32⟩
  | 90 => ⟨S_, .i32⟩
  | 91 => ⟨S8192, .i32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192, .i32⟩
  | 101 => ⟨S_, .i32⟩
  | 102 => ⟨S10240, .i32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S10240, .i32⟩
  | 112 => ⟨S_, .i1⟩
  | 113 => ⟨S10240, .i1⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S_, .i1⟩
  | 123 => ⟨S8192, .i1⟩
  | 124 => ⟨S10240, .i1⟩
  | 125 => ⟨S8192x2048, .bf16⟩
  | 126 => ⟨S10240x1, .i1⟩
  | 127 => ⟨S_, .i32⟩
  | _ => ⟨S8192x2048, .f32⟩

abbrev hbmTy0_1 (i : Nat) : BufTy := match i % 128 with
  | 0 => ⟨S10240, .i32⟩
  | 1 => ⟨S10240, .i1⟩
  | 2 => ⟨S_, .i32⟩
  | 3 => ⟨S10240, .i32⟩
  | 4 => ⟨S10240, .i32⟩
  | 5 => ⟨S10240, .i32⟩
  | 6 => ⟨S10240x1, .i32⟩
  | 7 => ⟨S10240x2048, .bf16⟩
  | 8 => ⟨S_, .bf16⟩
  | 9 => ⟨S10240x2048, .i1⟩
  | 10 => ⟨S10240x2048, .bf16⟩
  | 11 => ⟨S10240x2048, .bf16⟩
  | 12 => ⟨S40, .i32⟩
  | 13 => ⟨S_, .i32⟩
  | 14 => ⟨S40, .i32⟩
  | 15 => ⟨S40, .i32⟩
  | 16 => ⟨S8, .i32⟩
  | 17 => ⟨S1x8, .i32⟩
  | 18 => ⟨S40x1, .i32⟩
  | 19 => ⟨S40x8, .i32⟩
  | 20 => ⟨S40x8, .i32⟩
  | 21 => ⟨S40x8, .i1⟩
  | 22 => ⟨S40x8, .i32⟩
  | 23 => ⟨S_, .i32⟩
  | 24 => ⟨S40, .i32⟩
  | 25 => ⟨S_, .i32⟩
  | 26 => ⟨S_, .i32⟩
  | 27 => ⟨S_, .i32⟩
  | 28 => ⟨S40, .i32⟩
  | 29 => ⟨S40, .i32⟩
  | 30 => ⟨S_, .i32⟩
  | 31 => ⟨S40, .i32⟩
  | 32 => ⟨S1, .i32⟩
  | 33 => ⟨S_, .i32⟩
  | 34 => ⟨S40, .i32⟩
  | 35 => ⟨S40, .i1⟩
  | 36 => ⟨S10240x8192, .f32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S8192x8192, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S256x1024, .f32⟩
  | .local _ .vmem, ⟨5, _⟩ => ⟨S256x1024, .f32⟩
  | .local _ .smem, ⟨0, _⟩ => ⟨S40, .i32⟩
  | .local _ .smem, ⟨1, _⟩ => ⟨S40, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1_0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_call2_call0_c : Ref sig .tc := ⟨.hbm, 34, rfl⟩
abbrev main_call2_call0_v0 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_v5 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_c : Ref sig .tc := ⟨.hbm, 54, rfl⟩
abbrev main_call3_v9 : Ref sig .tc := ⟨.hbm, 55, rfl⟩
abbrev main_call3_v10 : Ref sig .tc := ⟨.hbm, 56, rfl⟩
abbrev main_call3_v11 : Ref sig .tc := ⟨.hbm, 57, rfl⟩
abbrev main_call3_c_0 : Ref sig .tc := ⟨.hbm, 58, rfl⟩
abbrev main_call3_v12 : Ref sig .tc := ⟨.hbm, 59, rfl⟩
abbrev main_call3_v13 : Ref sig .tc := ⟨.hbm, 60, rfl⟩
abbrev main_v24 : Ref sig .tc := ⟨.hbm, 61, rfl⟩
abbrev main_c_8 : Ref sig .tc := ⟨.hbm, 62, rfl⟩
abbrev main_v25 : Ref sig .tc := ⟨.hbm, 63, rfl⟩
abbrev main_v26 : Ref sig .tc := ⟨.hbm, 64, rfl⟩
abbrev main_call4_call0_c : Ref sig .tc := ⟨.hbm, 65, rfl⟩
abbrev main_call4_call0_v0 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_c_9 : Ref sig .tc := ⟨.hbm, 70, rfl⟩
abbrev main_v30 : Ref sig .tc := ⟨.hbm, 71, rfl⟩
abbrev main_v31 : Ref sig .tc := ⟨.hbm, 72, rfl⟩
abbrev main_c_10 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_11 : Ref sig .tc := ⟨.hbm, 80, rfl⟩
abbrev main_v38 : Ref sig .tc := ⟨.hbm, 81, rfl⟩
abbrev main_v39 : Ref sig .tc := ⟨.hbm, 82, rfl⟩
abbrev main_c_12 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_c_13 : Ref sig .tc := ⟨.hbm, 90, rfl⟩
abbrev main_v46 : Ref sig .tc := ⟨.hbm, 91, rfl⟩
abbrev main_c_14 : Ref sig .tc := ⟨.hbm, 92, rfl⟩
abbrev main_v47 : Ref sig .tc := ⟨.hbm, 93, rfl⟩
abbrev main_v48 : Ref sig .tc := ⟨.hbm, 94, rfl⟩
abbrev main_c_15 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_16 : Ref sig .tc := ⟨.hbm, 101, rfl⟩
abbrev main_v54 : Ref sig .tc := ⟨.hbm, 102, rfl⟩
abbrev main_c_17 : Ref sig .tc := ⟨.hbm, 103, rfl⟩
abbrev main_v55 : Ref sig .tc := ⟨.hbm, 104, rfl⟩
abbrev main_v56 : Ref sig .tc := ⟨.hbm, 105, rfl⟩
abbrev main_c_18 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_c_19 : Ref sig .tc := ⟨.hbm, 112, rfl⟩
abbrev main_v62 : Ref sig .tc := ⟨.hbm, 113, rfl⟩
abbrev main_c_20 : Ref sig .tc := ⟨.hbm, 114, rfl⟩
abbrev main_v63 : Ref sig .tc := ⟨.hbm, 115, rfl⟩
abbrev main_v64 : Ref sig .tc := ⟨.hbm, 116, rfl⟩
abbrev main_c_21 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_c_22 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_23 : Ref sig .tc := ⟨.hbm, 127, rfl⟩
abbrev main_v73 : Ref sig .tc := ⟨.hbm, 128, rfl⟩
abbrev main_v74 : Ref sig .tc := ⟨.hbm, 129, rfl⟩
abbrev main_c_24 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst : Ref sig .tc := ⟨.hbm, 136, rfl⟩
abbrev main_call5_v0 : Ref sig .tc := ⟨.hbm, 137, rfl⟩
abbrev main_call5_v1 : Ref sig .tc := ⟨.hbm, 138, rfl⟩
abbrev main_v80 : Ref sig .tc := ⟨.hbm, 139, rfl⟩
abbrev main_v81 : Ref sig .tc := ⟨.hbm, 140, rfl⟩
abbrev main_c_25 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_c_26 : Ref sig .tc := ⟨.hbm, 151, rfl⟩
abbrev main_v91 : Ref sig .tc := ⟨.hbm, 152, rfl⟩
abbrev main_c_27 : Ref sig .tc := ⟨.hbm, 153, rfl⟩
abbrev main_c_28 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_call6_v3 : Ref sig .tc := ⟨.hbm, 158, rfl⟩
abbrev main_call6_v4 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v98 : Ref sig .tc := ⟨.hbm, 164, rfl⟩
abbrev main_c_29 : Ref sig .tc := ⟨.hbm, 165, rfl⟩
abbrev main_v99 : Ref sig .tc := ⟨.hbm, 166, rfl⟩
abbrev main_v100 : Ref sig .tc := ⟨.hbm, 167, rfl⟩
abbrev main_c_30 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v92 : Ref sig .tc := ⟨.smem, 0, rfl⟩
abbrev main_v97 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_v92.idx, main_v97.idx], fun | 0 => main_v92.names | 1 => main_v97.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v5 : Index := Scalar.indexCast arg1
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8_S8x1_0 : S8.BroadcastsInDim S8x1 (![0] : Fin 1 → Fin S8x1.rank)
  bcast_S1x8192_S8x8192_0_1 : S1x8192.BroadcastsInDim S8x8192 (![0, 1] : Fin 2 → Fin S8x8192.rank)
  bcast_S8x1_S8x8192_0_1 : S8x1.BroadcastsInDim S8x8192 (![0, 1] : Fin 2 → Fin S8x8192.rank)
  natLt_1_32 : 1 < 32
  reducesTo_S8x8192_S8_d1 : S8x8192.ReducesTo [1] S8
  h_S_ : 0 < S_.numel
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  concatenates_S1_S8_S9_d0 : Shape.Concatenates [S1, S8] S9 0
  bcast_S_S8 : S_.BroadcastsInDim S8 (![] : Fin 0 → Fin S8.rank)
  bcast_S_S10240 : S_.BroadcastsInDim S10240 (![] : Fin 0 → Fin S10240.rank)
  bitsLt_bf16_f32 : FTy.bits .bf16 < FTy.bits .f32
  bcast_S10240_S10240x1_0 : S10240.BroadcastsInDim S10240x1 (![0] : Fin 1 → Fin S10240x1.rank)
  bcast_S10240x1_S10240x2048_0_1 : S10240x1.BroadcastsInDim S10240x2048 (![0, 1] : Fin 2 → Fin S10240x2048.rank)
  bcast_S_S10240x2048 : S_.BroadcastsInDim S10240x2048 (![] : Fin 0 → Fin S10240x2048.rank)
  bcast_S_S40 : S_.BroadcastsInDim S40 (![] : Fin 0 → Fin S40.rank)
  slices_S9_S8_1 : S9.Slices ![1] S8
  bcast_S8_S1x8_1 : S8.BroadcastsInDim S1x8 (![1] : Fin 1 → Fin S1x8.rank)
  bcast_S40_S40x1_0 : S40.BroadcastsInDim S40x1 (![0] : Fin 1 → Fin S40x1.rank)
  bcast_S1x8_S40x8_0_1 : S1x8.BroadcastsInDim S40x8 (![0, 1] : Fin 2 → Fin S40x8.rank)
  bcast_S40x1_S40x8_0_1 : S40x1.BroadcastsInDim S40x8 (![0, 1] : Fin 2 → Fin S40x8.rank)
  reducesTo_S40x8_S40_d1 : S40x8.ReducesTo [1] S40
  slices_S9_S1_8 : S9.Slices ![8] S1
  shapeCasts_S1_S_ : S1.ShapeCasts S_
  numel1_S1 : S1.numel = 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1024_S256x1024_0_0 : ∀ a, (![0, 0] : Fin 2 → Nat) a + S256x1024.size a ≤ S256x1024.size a
  h_S256x1024 : 0 < S256x1024.numel
  gather_S8192_S8192x1_S8192_n_0_n_n_0_1_1_wf : GatherDims.WF S8192 S8192x1 S8192 [] [0] [] [0] [] 1 ![1]
  gather_S9_S8192x1_S8192_n_0_n_n_0_1_1_wf : GatherDims.WF S9 S8192x1 S8192 [] [0] [] [0] [] 1 ![1]
  scatter_S8192_S8192x1_S8192_n_0_0_1_wf : ScatterDims.WF S8192 S8192x1 S8192 [] [0] [0] 1
  scatter_S10240_S8192x1_S8192_n_0_0_1_wf : ScatterDims.WF S10240 S8192x1 S8192 [] [0] [0] 1
  gather_S8192x2048_S10240x1_S10240x2048_1_0_n_n_0_1_12048_wf : GatherDims.WF S8192x2048 S10240x1 S10240x2048 [1] [0] [] [0] [] 1 ![1, 2048]
  dot_S256x2048_S2048x1024_S256x1024_1_0_0_1_n_n_wf : DotDims.WF S256x2048 S2048x1024 S256x1024 [1] [0] [0] [1] [] []
  gather_S10240x8192_S8192x1_S8192x8192_1_0_n_n_0_1_18192_wf : GatherDims.WF S10240x8192 S8192x1 S8192x8192 [1] [0] [] [0] [] 1 ![1, 8192]
  hrank0 : 0 < grid0.rank
  k0_off1_inb : ∀ i : grid0.Coords, ∀ a, (k0_off1 i) a + S1.size a ≤ S40.size a
  k0_off2_inb : ∀ i : grid0.Coords, ∀ a, (k0_off2 i) a + S1.size a ≤ S40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S10240x2048.size a
  hwx0_0 : ∀ i : grid0.Coords, EltTy.bits .bf16 = 32 ∨ (Rect.block (s := S10240x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S10240x8192.size a
  hwx0_2 : ∀ i : grid0.Coords, EltTy.bits .f32 = 32 ∨ (Rect.block (s := S10240x8192) S256x1024.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S9_S8192x1_S8192_n_0_n_n_0_1_1 : GatherDims S9 S8192x1 S8192 where
  offsetDims := []
  collapsedSliceDims := [0]
  operandBatchingDims := []
  startIndicesBatchingDims := []
  startIndexMap := [0]
  indexVectorDim := 1
  sliceSizes := ![1]
  wf := gather_S9_S8192x1_S8192_n_0_n_n_0_1_1_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def scatter_S10240_S8192x1_S8192_n_0_0_1 : ScatterDims S10240 S8192x1 S8192 where
  updateWindowDims := []
  insertedWindowDims := [0]
  scatterDimsToOperandDims := [0]
  indexVectorDim := 1
  wf := scatter_S10240_S8192x1_S8192_n_0_0_1_wf
def gather_S8192x2048_S10240x1_S10240x2048_1_0_n_n_0_1_12048 : GatherDims S8192x2048 S10240x1 S10240x2048 where
  offsetDims := [1]
  collapsedSliceDims := [0]
  operandBatchingDims := []
  startIndicesBatchingDims := []
  startIndexMap := [0]
  indexVectorDim := 1
  sliceSizes := ![1, 2048]
  wf := gather_S8192x2048_S10240x1_S10240x2048_1_0_n_n_0_1_12048_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def gather_S10240x8192_S8192x1_S8192x8192_1_0_n_n_0_1_18192 : GatherDims S10240x8192 S8192x1 S8192x8192 where
  offsetDims := [1]
  collapsedSliceDims := [0]
  operandBatchingDims := []
  startIndicesBatchingDims := []
  startIndexMap := [0]
  indexVectorDim := 1
  sliceSizes := ![1, 8192]
  wf := gather_S10240x8192_S8192x1_S8192x8192_1_0_n_n_0_1_18192_wf

abbrev spec0_0 : Pipeline.WinSpec sig grid0.rank :=
  Pipeline.WinSpec.ofSpec (Memref.whole main_v80) S256x2048.size reads0_0 false false 2 stage0_0 sem0_0 nbuf0_0 hstage0_0

abbrev spec0_1 : Pipeline.WinSpec sig grid0.rank :=
  Pipeline.WinSpec.ofSpec (Memref.whole main_arg1) S1x2048x1024.size reads0_1 false false 2 stage0_1 sem0_1 nbuf0_1 hstage0_1

abbrev spec0_2 : Pipeline.WinSpec sig grid0.rank :=
  Pipeline.WinSpec.ofSpec (Memref.whole main_v98) S256x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x1024.size a ≤ S8x2048x8192.size a), EltTy.bits .f32 = 32 ∨ (Rect.block (s := S8x2048x8192) S1x2048x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 (pf.atD 1 (k0_off1 i)) == 1#1) && !(k0_cond2 (pf.atD 1 (k0_off2 i)) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8192x2048 : Shape := ⟨2, ![8192, 2048]⟩
abbrev S8x2048x8192 : Shape := ⟨3, ![8, 2048, 8192]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1x2048x8192 : Shape := ⟨3, ![1, 2048, 8192]⟩
abbrev S2048x8192 : Shape := ⟨2, ![2048, 8192]⟩

abbrev nBuf : Space → Nat
  | .hbm => 109
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x8192, .f32⟩
  | .hbm, ⟨2, _⟩ => ⟨S8192, .i32⟩
  | .hbm, ⟨3, _⟩ => ⟨S_, .f32⟩
  | .hbm, ⟨4, _⟩ => ⟨S8192x8192, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S8192x1, .i1⟩
  | .hbm, ⟨9, _⟩ => ⟨S_, .i32⟩
  | .hbm, ⟨10, _⟩ => ⟨S_, .f32⟩
  | .hbm, ⟨11, _⟩ => ⟨S8192x2048, .i1⟩
  | .hbm, ⟨12, _⟩ => ⟨S8192x2048, .f32⟩
  | .hbm, ⟨13, _⟩ => ⟨S8192x2048, .f32⟩
  | .hbm, ⟨14, _⟩ => ⟨S1x2048x8192, .f32⟩
  | .hbm, ⟨15, _⟩ => ⟨S2048x8192, .f32⟩
  | .hbm, ⟨16, _⟩ => ⟨S8192x8192, .f32⟩
  | .hbm, ⟨17, _⟩ => ⟨S8192x8192, .f32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192x1, .i1⟩
  | .hbm, ⟨22, _⟩ => ⟨S_, .i32⟩
  | .hbm, ⟨23, _⟩ => ⟨S_, .f32⟩
  | .hbm, ⟨24, _⟩ => ⟨S8192x2048, .i1⟩
  | .hbm, ⟨25, _⟩ => ⟨S8192x2048, .f32⟩
  | .hbm, ⟨26, _⟩ => ⟨S8192x2048, .f32⟩
  | .hbm, ⟨27, _⟩ => ⟨S1x2048x8192, .f32⟩
  | .hbm, ⟨28, _⟩ => ⟨S2048x8192, .f32⟩
  | .hbm, ⟨29, _⟩ => ⟨S8192x8192, .f32⟩
  | .hbm, ⟨30, _⟩ => ⟨S8192x8192, .f32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S8192x1, .i1⟩
  | .hbm, ⟨35, _⟩ => ⟨S_, .i32⟩
  | .hbm, ⟨36, _⟩ => ⟨S_, .f32⟩
  | .hbm, ⟨37, _⟩ => ⟨S8192x2048, .i1⟩
  | .hbm, ⟨38, _⟩ => ⟨S8192x2048, .f32⟩
  | .hbm, ⟨39, _⟩ => ⟨S8192x2048, .f32⟩
  | .hbm, ⟨40, _⟩ => ⟨S1x2048x8192, .f32⟩
  | .hbm, ⟨41, _⟩ => ⟨S2048x8192, .f32⟩
  | .hbm, ⟨42, _⟩ => ⟨S8192x8192, .f32⟩
  | .hbm, ⟨43, _⟩ => ⟨S8192x8192, .f32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S8192x1, .i1⟩
  | .hbm, ⟨48, _⟩ => ⟨S_, .i32⟩
  | .hbm, ⟨49, _⟩ => ⟨S_, .f32⟩
  | .hbm, ⟨50, _⟩ => ⟨S8192x2048, .i1⟩
  | .hbm, ⟨51, _⟩ => ⟨S8192x2048, .f32⟩
  | .hbm, ⟨52, _⟩ => ⟨S8192x2048, .f32⟩
  | .hbm, ⟨53, _⟩ => ⟨S1x2048x8192, .f32⟩
  | .hbm, ⟨54, _⟩ => ⟨S2048x8192, .f32⟩
  | .hbm, ⟨55, _⟩ => ⟨S8192x8192, .f32⟩
  | .hbm, ⟨56, _⟩ => ⟨S8192x8192, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S8192x1, .i1⟩
  | .hbm, ⟨61, _⟩ => ⟨S_, .i32⟩
  | .hbm, ⟨62, _⟩ => ⟨S_, .f32⟩
  | .hbm, ⟨63, _⟩ => ⟨S8192x2048, .i1⟩
  | .hbm, ⟨64, _⟩ => ⟨S8192x2048, .f32⟩
  | .hbm, ⟨65, _⟩ => ⟨S8192x2048, .f32⟩
  | .hbm, ⟨66, _⟩ => ⟨S1x2048x8192, .f32⟩
  | .hbm, ⟨67, _⟩ => ⟨S2048x8192, .f32⟩
  | .hbm, ⟨68, _⟩ => ⟨S8192x8192, .f32⟩
  | .hbm, ⟨69, _⟩ => ⟨S8192x8192, .f32⟩
  | .hbm, ⟨70, _⟩ => ⟨S_, .i32⟩
  | .hbm, ⟨71, _⟩ => ⟨S8192, .i32⟩
  | .hbm, ⟨72, _⟩ => ⟨S8192, .i1⟩
  | .hbm, ⟨73, _⟩ => ⟨S8192x1, .i1⟩
  | .hbm, ⟨74, _⟩ => ⟨S_, .i32⟩
  | .hbm, ⟨75, _⟩ => ⟨S_, .f32⟩
  | .hbm, ⟨76, _⟩ => ⟨S8192x2048, .i1⟩
  | .hbm, ⟨77, _⟩ => ⟨S8192x2048, .f32⟩
  | .hbm, ⟨78, _⟩ => ⟨S8192x2048, .f32⟩
  | .hbm, ⟨79, _⟩ => ⟨S1x2048x8192, .f32⟩
  | .hbm, ⟨80, _⟩ => ⟨S2048x8192, .f32⟩
  | .hbm, ⟨81, _⟩ => ⟨S8192x8192, .f32⟩
  | .hbm, ⟨82, _⟩ => ⟨S8192x8192, .f32⟩
  | .hbm, ⟨83, _⟩ => ⟨S_, .i32⟩
  | .hbm, ⟨84, _⟩ => ⟨S8192, .i32⟩
  | .hbm, ⟨85, _⟩ => ⟨S8192, .i1⟩
  | .hbm, ⟨86, _⟩ => ⟨S8192x1, .i1⟩
  | .hbm, ⟨87, _⟩ => ⟨S_, .i32⟩
  | .hbm, ⟨88, _⟩ => ⟨S_, .f32⟩
  | .hbm, ⟨89, _⟩ => ⟨S8192x2048, .i1⟩
  | .hbm, ⟨90, _⟩ => ⟨S8192x2048, .f32⟩
  | .hbm, ⟨91, _⟩ => ⟨S8192x2048, .f32⟩
  | .hbm, ⟨92, _⟩ => ⟨S1x2048x8192, .f32⟩
  | .hbm, ⟨93, _⟩ => ⟨S2048x8192, .f32⟩
  | .hbm, ⟨94, _⟩ => ⟨S8192x8192, .f32⟩
  | .hbm, ⟨95, _⟩ => ⟨S8192x8192, .f32⟩
  | .hbm, ⟨96, _⟩ => ⟨S_, .i32⟩
  | .hbm, ⟨97, _⟩ => ⟨S8192, .i32⟩
  | .hbm, ⟨98, _⟩ => ⟨S8192, .i1⟩
  | .hbm, ⟨99, _⟩ => ⟨S8192x1, .i1⟩
  | .hbm, ⟨100, _⟩ => ⟨S_, .i32⟩
  | .hbm, ⟨101, _⟩ => ⟨S_, .f32⟩
  | .hbm, ⟨102, _⟩ => ⟨S8192x2048, .i1⟩
  | .hbm, ⟨103, _⟩ => ⟨S8192x2048, .f32⟩
  | .hbm, ⟨104, _⟩ => ⟨S8192x2048, .f32⟩
  | .hbm, ⟨105, _⟩ => ⟨S1x2048x8192, .f32⟩
  | .hbm, ⟨106, _⟩ => ⟨S2048x8192, .f32⟩
  | .hbm, ⟨107, _⟩ => ⟨S8192x8192, .f32⟩
  | .hbm, ⟨108, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_10 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_12 : Ref sig .tc := ⟨.hbm, 87, rfl⟩
abbrev main_call6_v0 : Ref sig .tc := ⟨.hbm, 88, rfl⟩
abbrev main_call6_v1 : Ref sig .tc := ⟨.hbm, 89, rfl⟩
abbrev main_call6_v2 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_13 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_14 : Ref sig .tc := ⟨.hbm, 100, rfl⟩
abbrev main_call7_v0 : Ref sig .tc := ⟨.hbm, 101, rfl⟩
abbrev main_call7_v1 : Ref sig .tc := ⟨.hbm, 102, rfl⟩
abbrev main_call7_v2 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  slices_S8x2048x8192_S1x2048x8192_0_0_0 : S8x2048x8192.Slices ![0, 0, 0] S1x2048x8192
  shapeCasts_S1x2048x8192_S2048x8192 : S1x2048x8192.ShapeCasts S2048x8192
  slices_S8x2048x8192_S1x2048x8192_1_0_0 : S8x2048x8192.Slices ![1, 0, 0] S1x2048x8192
  slices_S8x2048x8192_S1x2048x8192_2_0_0 : S8x2048x8192.Slices ![2, 0, 0] S1x2048x8192
  slices_S8x2048x8192_S1x2048x8192_3_0_0 : S8x2048x8192.Slices ![3, 0, 0] S1x2048x8192
  slices_S8x2048x8192_S1x2048x8192_4_0_0 : S8x2048x8192.Slices ![4, 0, 0] S1x2048x8192
  slices_S8x2048x8192_S1x2048x8192_5_0_0 : S8x2048x8192.Slices ![5, 0, 0] S1x2048x8192
  slices_S8x2048x8192_S1x2048x8192_6_0_0 : S8x2048x8192.Slices ![6, 0, 0] S1x2048x8192
  slices_S8x2048x8192_S1x2048x8192_7_0_0 : S8x2048x8192.Slices ![7, 0, 0] S1x2048x8192
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.KitK.lean ====
/-
  The one pallas_call of this program between its two stretches of host operations: what the region finds in
  every buffer (the contents after the host operations before it), the two prefetched tables read off that, the
  pipeline at those tables, each window's block at a grid point, and @main reduced to the region continued by
  the host operations after it.
-/
import proofs.«416672_j52793738003186_2_alg».proof.Proof.Gen.Kernel.Launch
import proofs.«416672_j52793738003186_2_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

/-- Core `c`'s buffer contents when the region is entered: the launch contents after the host operations before it. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩)
    (fun c => (main_chain c).trans rfl)

/-! ## The prefetched tables -/

/-- The two tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The pipeline's side condition on the tables: the weight block a row tile selects lies inside the weight array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S40 .i32 := Memref.whole main_v92
abbrev htbM0_0 : tbM0_0.IsWhole := Memref.isWhole_whole _
abbrev tbM0_1 : Memref sig .tc .smem S40 .i32 := Memref.whole main_v97
abbrev htbM0_1 : tbM0_1.IsWhole := Memref.isWhole_whole _

/-- A table's buffer on core `c`, and it held at half the full share: the body reads it, the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-- The kernel body at point `t`, on what the pipeline calls it with. -/
abbrev bodyAt0 (a : (pcfg0 (F := F)).Adm) (t : Fin (cfg0 a).N) : Prog (TpuEff nD τ sig (Elt F) Λ₀ .tc) PUnit :=
  cc0__grouped_matmul_kernel (grid0.coords t) (Memref.whole main_v92) (Memref.isWhole_whole _) (Memref.whole main_v97) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-- The output window is written back at every point, whatever the tables hold (its index map reads none). -/
theorem flush0_2 (a : (pcfg0 (F := F)).Adm) : ∀ t : Fin (cfg0 a).N, ((cfg0 a).win 2).flush t = true :=
  (by decide +kernel : ∀ t : Fin grid0.N, Pipeline.Window.flushOf grid0 true cc0_transform_2 t = true)

/-- The word of the second table (which row tiles hold tokens) that the body reads at point `t`. -/
def vword (hO : Ok m) (t : Fin (cfgM m hO).N) : BitVec 32 := (tbl m).atD 1 (k0_off1 ((cfgM m hO).grid.coords t))

/-! ## The host operations after the region -/

/-- A buffer that bypasses the region (unscoped, no window's array, no table) may be touched by the later operations. -/
theorem mem_tail_rest (b : Ref sig .tc) (hs : b.isScoped = false) (ha : ∀ w, (spec0 w).arr.view.ref ≠ b) (hp : ∀ k, pre0.ref k ≠ b) :
    (Proc.devRef .tc b : DevRef τ sig) ∈ Pipeline.tailRefs sig pre0 spec0 := by
  unfold Pipeline.tailRefs
  refine Finset.mem_map_of_mem _ (Finset.mem_union.mpr (Or.inr ?_))
  unfold Pipeline.restRefsP
  refine Finset.mem_sdiff.mpr ⟨Pipeline.mem_restRefs_of b hs ha, ?_⟩
  simp only [Finset.mem_image, Finset.mem_univ, true_and, not_exists]
  exact hp
/-- A window's array may be read by the later operations. -/
theorem mem_tail_arr (w : Fin 3) : (Proc.devRef .tc (Pipeline.arrRef spec0 w) : DevRef τ sig) ∈ Pipeline.tailRefs sig pre0 spec0 := by
  unfold Pipeline.tailRefs
  exact Finset.mem_map_of_mem _ (Finset.mem_union.mpr (Or.inl (Finset.mem_image.mpr ⟨w, Finset.mem_univ _, rfl⟩)))

/-- The operations after the region touch only the padded output and buffers that bypass the region. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    intro b hb
    simp only [StableHlo.nullary_bufs, StableHlo.unary_bufs, StableHlo.binary_bufs, StableHlo.ternary_bufs, Finset.mem_insert, Finset.mem_singleton] at hb
    rcases hb with rfl | rfl | rfl | rfl <;>
      first
        | exact mem_tail_rest _ (by rfl) (by decide) (by decide)
        | exact mem_tail_arr 2
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, Finset.mem_singleton] <;> exact StableHlo.devRef_ne_of_ne (by decide)

end Cert.Kernel.Hand

end
-- ==== Proof.BodyK.lean ====
/-
  The kernel body of the grouped matrix product at a generic grid point. At point (j, i) the body reads the word
  v = tile_valid[i] of the second prefetched table. If v ≠ 0 it stores, over the whole output block, the product of
  the x block with the weight block the first table selects (the weight block rounded to bf16 first, the sum
  started from zero); if v = 0 it stores zeros over the whole output block. Exactly one of the two holds for every
  word, so the output window is idle at no point. From the two runs of the body follow what the output block holds
  after each point, the pipeline's proof data, and the body obligation at every point.
-/
import proofs.«416672_j52793738003186_2_alg».proof.Proof.KitK
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The two branch conditions -/

/-- The first branch is taken exactly when the table word is not zero. -/
theorem k0_cond1_iff (v : BitVec 32) : k0_cond1 v = 1#1 ↔ v ≠ 0#32 := by
  unfold k0_cond1 Scalar.cmpi IntOp.cmpi Scalar.extui
  by_cases h : v = 0#32
  · subst h; decide
  · have hb : (v != 0#32) = true := bne_iff_ne.mpr h
    simp only [hb]
    exact ⟨fun _ => h, fun _ => by decide⟩

/-- The second branch is taken exactly when the table word is zero. -/
theorem k0_cond2_iff (v : BitVec 32) : k0_cond2 v = 1#1 ↔ v = 0#32 := by
  unfold k0_cond2 Scalar.cmpi IntOp.cmpi Scalar.extui
  by_cases h : v = 0#32
  · subst h; decide
  · have hb : (v == 0#32) = false := beq_eq_false_iff_ne.mpr h
    simp only [hb]
    exact ⟨fun hh => absurd hh (by decide), fun hh => absurd hh h⟩

/-- The two input windows are never idle; the output window is never idle either, since at every point one of the
    two branches stores the whole block. -/
theorem idle0_0 (pf : pre0.Contents (Elt F)) (i : grid0.Coords) : idle0 pf 0 i = false := rfl
theorem idle0_1 (pf : pre0.Contents (Elt F)) (i : grid0.Coords) : idle0 pf 1 i = false := rfl
theorem idle0_2 (pf : pre0.Contents (Elt F)) (i : grid0.Coords) : idle0 pf 2 i = false := by
  show (!(k0_cond1 (pf.atD 1 (k0_off1 i)) == 1#1) && !(k0_cond2 (pf.atD 1 (k0_off2 i)) == 1#1)) = false
  have e : pf.atD 1 (k0_off2 i) = pf.atD 1 (k0_off1 i) := rfl
  rw [e]
  by_cases h : pf.atD 1 (k0_off1 i) = 0#32
  · have h2 : k0_cond2 (pf.atD 1 (k0_off1 i)) = 1#1 := (k0_cond2_iff _).mpr h
    rw [h2]; simp
  · have h1 : k0_cond1 (pf.atD 1 (k0_off1 i)) = 1#1 := (k0_cond1_iff _).mpr h
    rw [h1]; simp

/-! ## The word the body branches on -/

/-- The word of the second table the body loads at grid point `i`, read through the load's own rectangle off the
    held contents `xt1`. -/
abbrev wordAt (c : Dev nD) (i : grid0.Coords) (xt1 : TbBuf0 (F := F) c tbM0_1) : BitVec 32 :=
  tbM0_1.view.readAt (Elt F) (Rect.unit (s := S40) (k0_off1 i) S1.size (k0_off1_inb i)).toLoadRect xt1 (Shape.Idx.first (numel1_S1.symm ▸ Nat.one_pos))

/-- Read off the tables' contents, that word is the contents' element at the load's offsets. -/
theorem wordAt_eq_atD (c : Dev nD) (i : grid0.Coords) (pf : pre0.Contents (Elt F)) :
    wordAt c i (pf 1) = pf.atD 1 (k0_off1 i) := by
  have h1 : ∀ a : Fin 1, k0_off1 i a + 1 ≤ S40.size a := Fin.forall_fin_one.mpr (k0_off1_inb i 0)
  have h : ∀ a : Fin (pre0.ref 1).ty.shape.rank, k0_off1 i a + 1 ≤ (pre0.ref 1).ty.shape.size a := h1
  unfold Pipeline.Prefetch.Contents.atD
  rw [dif_pos h]
  show pf 1 ((Rect.unit (s := S40) (k0_off1 i) S1.size (k0_off1_inb i)).emb (Shape.Idx.first _)) = pf 1 (fun a => ⟨k0_off1 i a, h a⟩)
  congr 1

/-! ## Loads and stores through the whole-block rectangle -/

theorem zeros2 : (![0, 0] : Fin 2 → Nat) = fun _ => 0 := by funext a; fin_cases a <;> rfl
theorem zeros3 : (![0, 0, 0] : Fin 3 → Nat) = fun _ => 0 := by funext a; fin_cases a <;> rfl

/-- A load of a whole memref through its whole-block rectangle reads the contents it is held at. -/
theorem readAt_whole_unread {κ : Kind} {sp : Space} {S : Shape} {e : EltTy} (M : Memref sig κ sp S e) (hM : M.IsWhole)
    {off : Fin S.rank → Nat} (h : off = fun _ => 0) (inb : ∀ a, off a + S.size a ≤ S.size a) (X : S.Idx → Elt F e) :
    M.view.readAt (Elt F) (Rect.unit off S.size inb).toLoadRect (hM.unread X) = X :=
  (View.readAt_eq_ld M.view (hM.unread X) (Rect.unit off S.size inb)).trans
    ((congrArg (fun Y => View.ld Y (Rect.unit off S.size inb)) (hM.read_unread X)).trans (View.ld_unit_zero h inb X))

/-- After one store through the whole-block rectangle a buffer reads the stored payload, whatever it held before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-! ## The body on any whole staging memrefs -/

/-- Where the table word is not zero the body stores the product of the x block with the weight block over the whole
    output block, and leaves everything else as it was. -/
theorem kernelRun_live (c : Dev nD) (i : grid0.Coords)
    (arg4 : Memref sig .tc .vmem S256x2048 .bf16) (harg4 : arg4.IsWhole)
    (arg5 : Memref sig .tc .vmem S1x2048x1024 .f32) (harg5 : arg5.IsWhole)
    (arg6 : Memref sig .tc .vmem S256x1024 .f32) (harg6 : arg6.IsWhole)
    (x0 : Vec F S256x2048 .bf16) (w0 : Vec F S1x2048x1024 .f32)
    (xt0 : TbBuf0 (F := F) c tbM0_0) (xt1 : TbBuf0 (F := F) c tbM0_1)
    (hv : wordAt c i xt1 ≠ 0#32) (E : Set ℕ) (K : PUnit → sProp 𝕄) :
    iprop(owns (c : Thread nD τ) arg4 fullShare x0 ∗ owns (c : Thread nD τ) arg5 fullShare w0 ∗ (∃ d, owns (c : Thread nD τ) arg6 fullShare d)
        ∗ tbPt0 c tbM0_0 xt0 ∗ tbPt0 c tbM0_1 xt1
        ∗ (iprop(owns (c : Thread nD τ) arg4 fullShare x0 ∗ owns (c : Thread nD τ) arg5 fullShare w0
            ∗ owns (c : Thread nD τ) arg6 fullShare (k0_pay1 w0 x0) ∗ tbPt0 c tbM0_0 xt0 ∗ tbPt0 c tbM0_1 xt1) -∗ K ⟨⟩))
      ⊢ wp frame (wpE (defs₀ (F := F)) Variants.none c none) E (cc0__grouped_matmul_kernel i tbM0_0 htbM0_0 tbM0_1 htbM0_1 arg4 harg4 arg5 harg5 arg6 harg6) K := by
  have hc1 : k0_cond1 (wordAt c i xt1) = 1#1 := (k0_cond1_iff _).mpr hv
  have hc2 : ¬ k0_cond2 (tbM0_1.view.readAt (Elt F) (Rect.unit (s := S40) (k0_off2 i) S1.size (k0_off2_inb i)).toLoadRect xt1 (Shape.Idx.first (numel1_S1.symm ▸ Nat.one_pos))) = 1#1 :=
    fun h => hv ((k0_cond2_iff _).mp h)
  simp only [cc0__grouped_matmul_kernel_eq_skeleton]; unfold cc0__grouped_matmul_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    rw [readAt_whole_unread arg5 harg5 zeros3, readAt_whole_unread arg4 harg4 zeros2]
    exact read_writes_whole arg6.view f2 zeros2 _ _
  isplitl [HT0]; · iexact HT0
  iexact HT1

/-- Where the table word is zero the body stores zeros over the whole output block, and leaves everything else as it
    was. -/
theorem kernelRun_skip (c : Dev nD) (i : grid0.Coords)
    (arg4 : Memref sig .tc .vmem S256x2048 .bf16) (harg4 : arg4.IsWhole)
    (arg5 : Memref sig .tc .vmem S1x2048x1024 .f32) (harg5 : arg5.IsWhole)
    (arg6 : Memref sig .tc .vmem S256x1024 .f32) (harg6 : arg6.IsWhole)
    (x0 : Vec F S256x2048 .bf16) (w0 : Vec F S1x2048x1024 .f32)
    (xt0 : TbBuf0 (F := F) c tbM0_0) (xt1 : TbBuf0 (F := F) c tbM0_1)
    (hv : wordAt c i xt1 = 0#32) (E : Set ℕ) (K : PUnit → sProp 𝕄) :
    iprop(owns (c : Thread nD τ) arg4 fullShare x0 ∗ owns (c : Thread nD τ) arg5 fullShare w0 ∗ (∃ d, owns (c : Thread nD τ) arg6 fullShare d)
        ∗ tbPt0 c tbM0_0 xt0 ∗ tbPt0 c tbM0_1 xt1
        ∗ (iprop(owns (c : Thread nD τ) arg4 fullShare x0 ∗ owns (c : Thread nD τ) arg5 fullShare w0
            ∗ owns (c : Thread nD τ) arg6 fullShare (k0_pay2 (F := F)) ∗ tbPt0 c tbM0_0 xt0 ∗ tbPt0 c tbM0_1 xt1) -∗ K ⟨⟩))
      ⊢ wp frame (wpE (defs₀ (F := F)) Variants.none c none) E (cc0__grouped_matmul_kernel i tbM0_0 htbM0_0 tbM0_1 htbM0_1 arg4 harg4 arg5 harg5 arg6 harg6) K := by
  have hc1 : ¬ k0_cond1 (wordAt c i xt1) = 1#1 := fun h => (k0_cond1_iff _).mp h hv
  have hc2 : k0_cond2 (tbM0_1.view.readAt (Elt F) (Rect.unit (s := S40) (k0_off2 i) S1.size (k0_off2_inb i)).toLoadRect xt1 (Shape.Idx.first (numel1_S1.symm ▸ Nat.one_pos))) = 1#1 :=
    (k0_cond2_iff _).mpr hv
  simp only [cc0__grouped_matmul_kernel_eq_skeleton]; unfold cc0__grouped_matmul_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    exact read_writes_whole arg6.view f2 zeros2 _ _
  isplitl [HT0]; · iexact HT0
  iexact HT1

/-! ## What the output block holds after each point -/

/-- The word of the second table at point `t`, as the body reads it off the tables' contents. -/
theorem wordAt_tbl (hO : Ok m) (c : Dev nD) (t : Fin (cfgM m hO).N) :
    wordAt c ((cfgM m hO).grid.coords t) (tbl m 1) = vword m hO t := by
  unfold vword; exact wordAt_eq_atD c _ (tbl m)

/-- The two input blocks at point `t`, at the types the body loads them at. -/
abbrev xblk (hO : Ok m) (c : Dev nD) (t : Fin (cfgM m hO).N) : Vec F S256x2048 .bf16 := iblk m hO c 0 t
abbrev wblk (hO : Ok m) (c : Dev nD) (t : Fin (cfgM m hO).N) : Vec F S1x2048x1024 .f32 := iblk m hO c 1 t

/-- What the body leaves in the output block at point `t`: the product of the x block with the selected weight block
    where the row tile holds tokens, zeros where it holds none. -/
def outAt0 (hO : Ok m) (c : Dev nD) (t : Fin (cfgM m hO).N) : Vec F S256x1024 .f32 :=
  if vword m hO t ≠ 0 then k0_pay1 (wblk m hO c t) (xblk m hO c t) else k0_pay2

/-! ## The pipeline's proof data -/

/-- The proof data of the pipeline on core `c`: the arrays as the region finds them; after the body at point `t` each
    input's buffer at its block and the output's at `outAt0`; the invariant the scoped rest and the tables' halves;
    nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt0 m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt0 m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: the inputs' memrefs hold their blocks; the table word decides which of the two runs
    applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outAt0
  by_cases hv : vword m hO t = 0
  · rw [if_neg (not_not.mpr hv)]
    iintro ⟨⟨HΦ, ⟨HT0, HT1⟩⟩, Ho, ⟨%d0, H0⟩, ⟨%d1, H1⟩, ⟨%d2, H2⟩⟩
    iapply (kernelRun_skip c (grid0.coords t) _ _ _ _ _ _ (iblk m hO c 0 t) (iblk m hO c 1 t) (tbl m 0) (tbl m 1) ((wordAt_tbl m hO c t).trans hv) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2
  · rw [if_pos hv]
    iintro ⟨⟨HΦ, ⟨HT0, HT1⟩⟩, Ho, ⟨%d0, H0⟩, ⟨%d1, H1⟩, ⟨%d2, H2⟩⟩
    iapply (kernelRun_live c (grid0.coords t) _ _ _ _ _ _ (iblk m hO c 0 t) (iblk m hO c 1 t) (tbl m 0) (tbl m 1) (fun h => hv ((wordAt_tbl m hO c t).symm.trans h)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2

/-- The library's body obligation, at every point: the output window is idle nowhere. -/
theorem body_obligation (hO : Ok m) (c : Dev nD) : BodyObligation (dats (F := F) m hO 0 c) (defs₀ (F := F)) Variants.none () Set.univ := fun t => by
  rw [bigSep_W0, bigSep_W0]
  have hi2 : (cfgM m hO).idle (2 : Fin 3) ((cfgM m hO).grid.coords t) = false := idle0_2 (tbl m) _
  rw [hi2]
  exact sound_body m hO c t

end Cert.Kernel.Hand

end
-- ==== Proof.ArgsKeptK.lean ====
/-
  No host operation before the region writes an argument array: the region finds the three arguments as launched.
-/
import proofs.«416672_j52793738003186_2_alg».proof.Proof.KitK

set_option maxRecDepth 16384
set_option maxHeartbeats 4000000

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

theorem Vkept_arg0 (c : Dev nD) : V m c main_arg0 = m ((c : Thread nD τ).loc main_arg0) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl
theorem Vkept_arg1 (c : Dev nD) : V m c main_arg1 = m ((c : Thread nD τ).loc main_arg1) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl
theorem Vkept_arg2 (c : Dev nD) : V m c main_arg2 = m ((c : Thread nD τ).loc main_arg2) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl

end Cert.Kernel.Hand

end
-- ==== Proof.RunK.lean ====
/-
  The run of the program: host operations, the one region, host operations. From the region's proof data and
  body obligation the library's frame run gives, after the last host operation, every window's array at what the
  write-backs left and every other buffer at what the later operations compute; read at the three argument arrays
  this is the frame claim, and read at the result buffer it is the final gather of the padded output's rows.
-/
import proofs.«416672_j52793738003186_2_alg».proof.Proof.BodyK
import proofs.«416672_j52793738003186_2_alg».proof.Proof.ArgsKeptK

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every buffer holds after the host operations that follow the region. -/
abbrev afterAll (hO : Ok m) (c : Dev nD) (b : Ref sig .tc) : Buf (Elt F) ((c : Thread nD τ).loc b) :=
  Pipeline.afterTail pcfgs (fun _ => adm m hO) (dats m hO) 0 (V0 m) [hostOps1] c b

set_option backward.isDefEq.respectTransparency.types false in
/-- Every weakly fair execution of @main terminates; at the end each window's array holds what the library computes
    from the proof data and every other unscoped buffer what the later host operations leave. -/
theorem run_main (hO : Ok m) : θ_run defs (onTc (τ := τ) (main (F := F))) (s₀ m ρ)
    (Pipeline.FramePost (Pipeline.pin pcfgs fun _ => adm m hO) (dats m hO) 0 (afterAll m hO)) :=
  Pipeline.θ_run_frameP_around pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- No host operation after the region writes the first argument. -/
theorem tail_arg0 (hO : Ok m) (c : Dev nD) : afterAll m hO c main_arg0 = m ((c : Thread nD τ).loc main_arg0) := by
  unfold afterAll Pipeline.afterTail
  rw [StableHlo.after_of_forall_not_mem (b := Proc.devRef .tc main_arg0) _ _ (List.forall_iff_forall_mem.mp (by
      simp only [hostOps1, List.flatten_cons, List.flatten_nil, List.append_nil, List.Forall, StableHlo.nullary_writes, StableHlo.unary_writes, StableHlo.binary_writes, StableHlo.ternary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact Vkept_arg0 m c
/-- Nor the index array. -/
theorem tail_arg2 (hO : Ok m) (c : Dev nD) : afterAll m hO c main_arg2 = m ((c : Thread nD τ).loc main_arg2) := by
  unfold afterAll Pipeline.afterTail
  rw [StableHlo.after_of_forall_not_mem (b := Proc.devRef .tc main_arg2) _ _ (List.forall_iff_forall_mem.mp (by
      simp only [hostOps1, List.flatten_cons, List.flatten_nil, List.append_nil, List.Forall, StableHlo.nullary_writes, StableHlo.unary_writes, StableHlo.binary_writes, StableHlo.ternary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact Vkept_arg2 m c

/-- The rows the final gather takes: each token's padded row, a negative word wrapped as jnp indexing does. -/
def outIdx (c : Dev nD) : IVec S8192x1 32 :=
  broadcastInDim S8192x1 ![0] bcast_S8192_S8192x1_0
    (select (cmpi .slt (V m c main_v53 : IVec S8192 32) (broadcastInDim S8192 ![] bcast_S_S8192 (constantI S_ 32 0#32)))
      (addi (V m c main_v53 : IVec S8192 32) (broadcastInDim S8192 ![] bcast_S_S8192 (constantI S_ 32 10240#32)))
      (V m c main_v53 : IVec S8192 32))

/-- The result buffer after the run: the gather of the padded output's rows at `outIdx`. -/
theorem tail_out (hO : Ok m) (c : Dev nD) : afterAll m hO c main_v105
    = Host.gather gather_S10240x8192_S8192x1_S8192x8192_1_0_n_n_0_1_18192 ((dats m hO 0 c).arrAt 2 (cfgM m hO).N) (outIdx m c) := by
  unfold afterAll Pipeline.afterTail outIdx
  generalize hW : Pipeline.withArrays _ c (V0 m c) _ = W
  have h98 : W (Proc.devRef .tc main_v98) = (dats m hO 0 c).arrAt 2 (cfgM m hO).N := by
    rw [← hW]; exact Pipeline.withArrays_arr _ (launch0 (F := F)).win.arr_inj c _ _ 2
  have h53 : W (Proc.devRef .tc main_v53) = V m c main_v53 := by
    rw [← hW]; exact Pipeline.withArrays_of_ne _ c _ _ main_v53 (by exact (by decide : ∀ w, Pipeline.arrRef spec0 w ≠ main_v53))
  simp only [hostOps1, List.flatten_cons, List.flatten_nil, List.append_nil]
  after_results_simp
  rw [h98, h53]
  all_goals rfl

/-- THE FRAME: every weakly fair execution terminates, nothing faults, and the three argument arrays end as launched
    — under the tables' side condition. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of (win := spec0) main_arg0 (by decide) (by decide))).trans (tail_arg0 m hO c),
     ((h c).1 1).trans (((dats m hO 0 c).arrAt_in 1 rfl _).trans ((A_eq m hO c 1).trans (Vkept_arg1 m c))),
     ((h c).2 main_arg2 (Pipeline.mem_restRefs_of (win := spec0) main_arg2 (by decide) (by decide))).trans (tail_arg2 m hO c)⟩)
    (run_main m ρ hO)

/-- The same run read also at the result buffer. -/
theorem run_out (hO : Ok m) : θ_run defs (onTc (τ := τ) (main (F := F))) ⟨m, fun _ => 0, ρ⟩ (fun r => ∀ c : Dev nD,
      r.2.mem ((c.tc : Thread nD τ).loc main_v105)
          = Host.gather gather_S10240x8192_S8192x1_S8192x8192_1_0_n_n_0_1_18192 ((dats m hO 0 c).arrAt 2 (cfgM m hO).N) (outIdx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v105 (Pipeline.mem_restRefs_of (win := spec0) main_v105 (by decide) (by decide))).trans (tail_out m hO c),
     ((h c).2 main_arg0 (Pipeline.mem_restRefs_of (win := spec0) main_arg0 (by decide) (by decide))).trans (tail_arg0 m hO c),
     ((h c).1 1).trans (((dats m hO 0 c).arrAt_in 1 rfl _).trans ((A_eq m hO c 1).trans (Vkept_arg1 m c))),
     ((h c).2 main_arg2 (Pipeline.mem_restRefs_of (win := spec0) main_arg2 (by decide) (by decide))).trans (tail_arg2 m hO c)⟩)
    (run_main m ρ hO)

end Cert.Kernel.Hand

end
-- ==== Proof.OkTidK.lean ====
/-
  The pipeline's side condition on the tables from a bound on the first table's words: a row tile whose expert id
  is below 8 selects a weight block inside the weight array (8 experts, blocks of one expert, all 2048 rows and
  1024 of the 8192 columns).
-/
import proofs.«416672_j52793738003186_2_alg».proof.Proof.KitK

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- If every word of the tile-expert table is below 8, every window whose index map reads it has its block inside
    its array at every grid point: expert `e < 8` gives `(e + 1) * 1 ≤ 8`, the row block is whole, and column tile
    `i₀ < 8` gives `(i₀ + 1) * 1024 ≤ 8192`; the elements are word-wide. -/
theorem ok_of_tid (h : ∀ j : (pre0.ref 0).ty.shape.Idx, ((tbl m 0 j : (Elt F) (pre0.ref 0).ty.elt) : BitVec 32).toNat < 8) : Ok m := by
  intro i
  refine ⟨fun a => ?_, Or.inl rfl⟩
  have hi0 : (i 0).val < 8 := (i 0).isLt
  have ht := h ((Rect.unit (s := S40) (k0_off1 i) S1.size (k0_off1_inb i)).emb (Shape.Idx.first (numel1_S1.symm ▸ Nat.one_pos)))
  match a with
  | ⟨0, h0⟩ =>
    have e : cc0_transform_1 k0_off1_inb numel1_S1 (tbl m) i ⟨0, h0⟩
        = ((tbl m 0 ((Rect.unit (s := S40) (k0_off1 i) S1.size (k0_off1_inb i)).emb (Shape.Idx.first (numel1_S1.symm ▸ Nat.one_pos))) : BitVec 32)).toNat := rfl
    show (cc0_transform_1 k0_off1_inb numel1_S1 (tbl m) i ⟨0, h0⟩ + 1) * 1 ≤ 8
    rw [e]
    omega
  | ⟨1, h1⟩ =>
    show (0 + 1) * 2048 ≤ 2048
    decide
  | ⟨2, h2⟩ =>
    show ((BitVec.ofNat 32 (i 0).val).toNat + 1) * 1024 ≤ 8192
    rw [BitVec.toNat_ofNat, Nat.mod_eq_of_lt (by omega)]
    omega

end Cert.Kernel.Hand

end
-- ==== Proof.HostEqsCK.lean ====
import proofs.«416672_j52793738003186_2_alg».proof.Proof.KitK

set_option maxRecDepth 16384
set_option maxHeartbeats 4000000

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-! What the region finds in each buffer a host operation before it wrote: that operation's function of what it
    finds in the operation's operand buffers. -/

theorem V_main_call5_v0 (c : Dev nD) : V m c main_call5_v0 = ((broadcastInDim S10240x2048 ![0, 1] bcast_S10240x1_S10240x2048_0_1) : (⟨S10240x1, .i1⟩ : BufTy).Contents (Elt F) → (⟨S10240x2048, .i1⟩ : BufTy).Contents (Elt F)) (V m c main_v72) := by
  simp only [V, V0, prefixOps, List.flatten_cons, List.flatten_nil, List.append_nil, StableHlo.after_append]
  generalize StableHlo.after (hostOps0_9 (F := F)) _ = W
  simp only [hostOps0_10, hostOps0_11, hostOps0_12, hostOps0_13]
  after_results_simp
  all_goals rfl

theorem V_main_call5_v1 (c : Dev nD) : V m c main_call5_v1 = ((broadcastInDim S10240x2048 ![] bcast_S_S10240x2048) : (⟨S_, .bf16⟩ : BufTy).Contents (Elt F) → (⟨S10240x2048, .bf16⟩ : BufTy).Contents (Elt F)) (V m c main_cst) := by
  simp only [V, V0, prefixOps, List.flatten_cons, List.flatten_nil, List.append_nil, StableHlo.after_append]
  generalize StableHlo.after (hostOps0_9 (F := F)) _ = W
  simp only [hostOps0_10, hostOps0_11, hostOps0_12, hostOps0_13]
  after_results_simp
  all_goals rfl

theorem V_main_v80 (c : Dev nD) : V m c main_v80 = (select : (⟨S10240x2048, .i1⟩ : BufTy).Contents (Elt F) → (⟨S10240x2048, .bf16⟩ : BufTy).Contents (Elt F) → (⟨S10240x2048, .bf16⟩ : BufTy).Contents (Elt F) → (⟨S10240x2048, .bf16⟩ : BufTy).Contents (Elt F)) (V m c main_call5_v0) (V m c main_v79) (V m c main_call5_v1) := by
  simp only [V, V0, prefixOps, List.flatten_cons, List.flatten_nil, List.append_nil, StableHlo.after_append]
  generalize StableHlo.after (hostOps0_9 (F := F)) _ = W
  simp only [hostOps0_10, hostOps0_11, hostOps0_12, hostOps0_13]
  after_results_simp
  all_goals rfl

theorem V_main_v81 (c : Dev nD) : V m c main_v81 = (iotaInDim S40 32 0) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_c_25 (c : Dev nD) : V m c main_c_25 = (constantI S_ 32 256#32) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v82 (c : Dev nD) : V m c main_v82 = (broadcastInDim S40 ![] bcast_S_S40 : (⟨S_, .i32⟩ : BufTy).Contents (Elt F) → (⟨S40, .i32⟩ : BufTy).Contents (Elt F)) (V m c main_c_25) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v83 (c : Dev nD) : V m c main_v83 = (muli : (⟨S40, .i32⟩ : BufTy).Contents (Elt F) → (⟨S40, .i32⟩ : BufTy).Contents (Elt F) → (⟨S40, .i32⟩ : BufTy).Contents (Elt F)) (V m c main_v81) (V m c main_v82) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v84 (c : Dev nD) : V m c main_v84 = ((extractStridedSlice S8 ![1] · slices_S9_S8_1) : (⟨S9, .i32⟩ : BufTy).Contents (Elt F) → (⟨S8, .i32⟩ : BufTy).Contents (Elt F)) (V m c main_v28) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v85 (c : Dev nD) : V m c main_v85 = (broadcastInDim S1x8 ![1] bcast_S8_S1x8_1 : (⟨S8, .i32⟩ : BufTy).Contents (Elt F) → (⟨S1x8, .i32⟩ : BufTy).Contents (Elt F)) (V m c main_v84) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v86 (c : Dev nD) : V m c main_v86 = (broadcastInDim S40x1 ![0] bcast_S40_S40x1_0 : (⟨S40, .i32⟩ : BufTy).Contents (Elt F) → (⟨S40x1, .i32⟩ : BufTy).Contents (Elt F)) (V m c main_v83) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v87 (c : Dev nD) : V m c main_v87 = (broadcastInDim S40x8 ![0, 1] bcast_S1x8_S40x8_0_1 : (⟨S1x8, .i32⟩ : BufTy).Contents (Elt F) → (⟨S40x8, .i32⟩ : BufTy).Contents (Elt F)) (V m c main_v85) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v88 (c : Dev nD) : V m c main_v88 = (broadcastInDim S40x8 ![0, 1] bcast_S40x1_S40x8_0_1 : (⟨S40x1, .i32⟩ : BufTy).Contents (Elt F) → (⟨S40x8, .i32⟩ : BufTy).Contents (Elt F)) (V m c main_v86) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v89 (c : Dev nD) : V m c main_v89 = (cmpi .sle : (⟨S40x8, .i32⟩ : BufTy).Contents (Elt F) → (⟨S40x8, .i32⟩ : BufTy).Contents (Elt F) → (⟨S40x8, .i1⟩ : BufTy).Contents (Elt F)) (V m c main_v87) (V m c main_v88) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v90 (c : Dev nD) : V m c main_v90 = ((extui 32 · natLt_1_32) : (⟨S40x8, .i1⟩ : BufTy).Contents (Elt F) → (⟨S40x8, .i32⟩ : BufTy).Contents (Elt F)) (V m c main_v89) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_c_26 (c : Dev nD) : V m c main_c_26 = (constantI S_ 32 0#32) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v91 (c : Dev nD) : V m c main_v91 = ((fun x v => Host.reduce IntOp.addi x v reducesTo_S40x8_S40_d1 h_S_) : (⟨S40x8, .i32⟩ : BufTy).Contents (Elt F) → (⟨S_, .i32⟩ : BufTy).Contents (Elt F) → (⟨S40, .i32⟩ : BufTy).Contents (Elt F)) (V m c main_v90) (V m c main_c_26) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_c_27 (c : Dev nD) : V m c main_c_27 = (constantI S_ 32 0#32) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_c_28 (c : Dev nD) : V m c main_c_28 = (constantI S_ 32 7#32) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_call6_v0 (c : Dev nD) : V m c main_call6_v0 = (id : (⟨S_, .i32⟩ : BufTy).Contents (Elt F) → (⟨S_, .i32⟩ : BufTy).Contents (Elt F)) (V m c main_c_27) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_call6_v1 (c : Dev nD) : V m c main_call6_v1 = ((broadcastInDim S40 ![] bcast_S_S40) : (⟨S_, .i32⟩ : BufTy).Contents (Elt F) → (⟨S40, .i32⟩ : BufTy).Contents (Elt F)) (V m c main_call6_v0) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_call6_v2 (c : Dev nD) : V m c main_call6_v2 = (maxsi : (⟨S40, .i32⟩ : BufTy).Contents (Elt F) → (⟨S40, .i32⟩ : BufTy).Contents (Elt F) → (⟨S40, .i32⟩ : BufTy).Contents (Elt F)) (V m c main_call6_v1) (V m c main_v91) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_call6_v3 (c : Dev nD) : V m c main_call6_v3 = (id : (⟨S_, .i32⟩ : BufTy).Contents (Elt F) → (⟨S_, .i32⟩ : BufTy).Contents (Elt F)) (V m c main_c_28) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_call6_v4 (c : Dev nD) : V m c main_call6_v4 = ((broadcastInDim S40 ![] bcast_S_S40) : (⟨S_, .i32⟩ : BufTy).Contents (Elt F) → (⟨S40, .i32⟩ : BufTy).Contents (Elt F)) (V m c main_call6_v3) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_v92 (c : Dev nD) : V m c main_v92 = (minsi : (⟨S40, .i32⟩ : BufTy).Contents (Elt F) → (⟨S40, .i32⟩ : BufTy).Contents (Elt F) → (⟨S40, .i32⟩ : BufTy).Contents (Elt F)) (V m c main_call6_v4) (V m c main_call6_v2) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_v93 (c : Dev nD) : V m c main_v93 = ((extractStridedSlice S1 ![8] · slices_S9_S1_8) : (⟨S9, .i32⟩ : BufTy).Contents (Elt F) → (⟨S1, .i32⟩ : BufTy).Contents (Elt F)) (V m c main_v28) := by
  simp only [V, V0, prefixOps, List.flatten_cons, List.flatten_nil, List.append_nil, StableHlo.after_append]
  generalize StableHlo.after (hostOps0_12 (F := F)) _ = W
  simp only [hostOps0_13]
  after_results_simp
  all_goals rfl

theorem V_main_v94 (c : Dev nD) : V m c main_v94 = (fun i => shapeCast S_ (V m c main_v93) shapeCasts_S1_S_ i) := by
  simp only [V, V0, prefixOps, List.flatten_cons, List.flatten_nil, List.append_nil, StableHlo.after_append]
  generalize StableHlo.after (hostOps0_12 (F := F)) _ = W
  simp only [hostOps0_13]
  after_results_simp
  all_goals rfl

theorem V_main_v95 (c : Dev nD) : V m c main_v95 = (broadcastInDim S40 ![] bcast_S_S40 : (⟨S_, .i32⟩ : BufTy).Contents (Elt F) → (⟨S40, .i32⟩ : BufTy).Contents (Elt F)) (V m c main_v94) := by
  simp only [V, V0, prefixOps, List.flatten_cons, List.flatten_nil, List.append_nil, StableHlo.after_append]
  generalize StableHlo.after (hostOps0_12 (F := F)) _ = W
  simp only [hostOps0_13]
  after_results_simp
  all_goals rfl

theorem V_main_v96 (c : Dev nD) : V m c main_v96 = (cmpi .slt : (⟨S40, .i32⟩ : BufTy).Contents (Elt F) → (⟨S40, .i32⟩ : BufTy).Contents (Elt F) → (⟨S40, .i1⟩ : BufTy).Contents (Elt F)) (V m c main_v83) (V m c main_v95) := by
  simp only [V, V0, prefixOps, List.flatten_cons, List.flatten_nil, List.append_nil, StableHlo.after_append]
  generalize StableHlo.after (hostOps0_12 (F := F)) _ = W
  simp only [hostOps0_13]
  after_results_simp
  all_goals rfl

theorem V_main_v97 (c : Dev nD) : V m c main_v97 = ((extui 32 · natLt_1_32) : (⟨S40, .i1⟩ : BufTy).Contents (Elt F) → (⟨S40, .i32⟩ : BufTy).Contents (Elt F)) (V m c main_v96) := by
  simp only [V, V0, prefixOps, List.flatten_cons, List.flatten_nil, List.append_nil, StableHlo.after_append]
  generalize StableHlo.after (hostOps0_12 (F := F)) _ = W
  simp only [hostOps0_13]
  after_results_simp
  all_goals rfl

end Cert.Kernel.Hand

end
-- ==== Proof.TidBoundK.lean ====
/-
  The tile-to-expert table holds expert numbers: every word of it is the result of a signed clip into [0, 7],
  so its value is below 8, whatever was clipped.
-/
import proofs.«416672_j52793738003186_2_alg».proof.Proof.HostEqsCK
import Idealize.ShloMosaic.Lib.ValueIdx

set_option maxRecDepth 16384

noncomputable section

namespace Cert.Kernel.Hand

open Idealize.ShloMosaic Idealize.ShloMosaic.TcCoe Idealize.ShloMosaic.ValueIdx
open Idealize.SL Idealize.SL.Sem
open Cert.Kernel Cert.Kernel.Gen

variable {F : FTy → Type} [FloatOps F] (m : (ℓ : Loc nD τ sig) → Buf (Elt F) ℓ)

/-- A signed clip into [0, 7] leaves a word whose value is below 8: the maximum with 0 reads nonnegative, and the
    minimum with 7 of a word that reads nonnegative reads at most 7. -/
theorem clip7_toNat_lt (x : BitVec 32) : (IntOp.minsi 7#32 (IntOp.maxsi 0#32 x)).toNat < 8 := by
  have h7 : (7#32 : BitVec 32).toInt = 7 := by decide
  have h0 : (0#32 : BitVec 32).toInt = 0 := by decide
  have hy : 0 ≤ (IntOp.maxsi 0#32 x).toInt := by
    unfold IntOp.maxsi
    split
    · rw [h0]
    · rename_i hc
      simp only [BitVec.slt, h0, decide_eq_true_eq] at hc
      omega
  generalize IntOp.maxsi 0#32 x = y at hy
  unfold IntOp.minsi
  split
  · decide
  · rename_i hc
    simp only [BitVec.slt, h7, decide_eq_true_eq] at hc
    have hc2 := BitVec.toInt_eq_toNat_cond y
    have := y.isLt
    split at hc2 <;> omega

/-- Word t of the table is the clip of word t of the per-tile count. -/
theorem v92_read (c : Dev nD) (t : Fin 40) :
    V m c main_v92 (ix1 t) = IntOp.minsi 7#32 (IntOp.maxsi 0#32 (V m c main_v91 (ix1 t))) := by
  rw [V_main_v92, V_main_call6_v4, V_main_call6_v3, V_main_c_28, V_main_call6_v2, V_main_call6_v1, V_main_call6_v0,
    V_main_c_27]
  rfl

theorem tid_lt (c : Dev nD) (t : Fin 40) : (V m c main_v92 (ix1 t)).toNat < 8 := by
  rw [v92_read]
  exact clip7_toNat_lt _

end Cert.Kernel.Hand

end
-- ==== Proof.OkAllK.lean ====
/-
  The tables' side condition holds of EVERY launch memory: the host clips each row tile's expert id into [0, 7]
  before the region reads it, so each selected weight block lies inside the weight array.
-/
import proofs.«416672_j52793738003186_2_alg».proof.Proof.OkTidK
import proofs.«416672_j52793738003186_2_alg».proof.Proof.TidBoundK
import Idealize.ShloMosaic.Lib.ValueIdx

set_option maxRecDepth 16384

noncomputable section

namespace Cert.Kernel.Hand

open Idealize.ShloMosaic Idealize.ShloMosaic.TcCoe Idealize.ShloMosaic.ValueIdx
open Idealize.SL Idealize.SL.Sem
open Cert.Kernel Cert.Kernel.Gen

variable {F : FTy → Type} [FloatOps F]
variable (m : (ℓ : Loc nD τ sig) → Buf (Elt F) ℓ)

/-- The first table is the clipped tile-expert vector the region finds (one device). -/
theorem tbl0_eq : (tbl m 0 : IVec S40 32) = V m (0 : Dev nD) main_v92 := rfl
/-- The second table is the tile-valid vector the region finds. -/
theorem tbl1_eq : (tbl m 1 : IVec S40 32) = V m (0 : Dev nD) main_v97 := rfl

theorem ok : Ok m := ok_of_tid m fun (j : S40.Idx) => by
  have h := tid_lt m (0 : Dev nD) (j 0)
  have e : j = ix1 (j 0) := eq_ix1 j
  rw [e]
  exact h

end Cert.Kernel.Hand

end
-- ==== Proof.Kit.lean ====
/-
  The one pallas_call of this program between its two stretches of host operations: what the region finds in
  every buffer (the contents after the host operations before it), the two prefetched tables read off that, the
  pipeline at those tables, each window's block at a grid point, and @main reduced to the region continued by
  the host operations after it.
-/
import proofs.«416672_j52793738003186_2_alg».proof.Proof.Gen.KernelIdeal.Launch
import proofs.«416672_j52793738003186_2_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13]

/-- Core `c`'s buffer contents when the region is entered: the launch contents after the host operations before it. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main prefixOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩)
    (fun c => (main_chain c).trans rfl)

/-! ## The prefetched tables -/

/-- The two tables' contents when the region is entered (one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- The pipeline's side condition on the tables: the weight block a row tile selects lies inside the weight array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S40 .i32 := Memref.whole main_v92
abbrev htbM0_0 : tbM0_0.IsWhole := Memref.isWhole_whole _
abbrev tbM0_1 : Memref sig .tc .smem S40 .i32 := Memref.whole main_v97
abbrev htbM0_1 : tbM0_1.IsWhole := Memref.isWhole_whole _

/-- A table's buffer on core `c`, and it held at half the full share: the body reads it, the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x1024 .f32 := spec0_2.stage ((cfgM m hO).slots t 2)
abbrev hs0_2 (hO : Ok m) (t : Fin (cfgM m hO).N) : (ms0_2 m hO t).IsWhole := hstage0_2 (((cfgM m hO).slots t 2).cast nbuf0_2)

/-- The kernel body at point `t`, on what the pipeline calls it with. -/
abbrev bodyAt0 (a : (pcfg0 (F := F)).Adm) (t : Fin (cfg0 a).N) : Prog (TpuEff nD τ sig (Elt F) Λ₀ .tc) PUnit :=
  cc0__grouped_matmul_kernel (grid0.coords t) (Memref.whole main_v92) (Memref.isWhole_whole _) (Memref.whole main_v97) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-- The output window is written back at every point, whatever the tables hold (its index map reads none). -/
theorem flush0_2 (a : (pcfg0 (F := F)).Adm) : ∀ t : Fin (cfg0 a).N, ((cfg0 a).win 2).flush t = true :=
  (by decide +kernel : ∀ t : Fin grid0.N, Pipeline.Window.flushOf grid0 true cc0_transform_2 t = true)

/-- The word of the second table (which row tiles hold tokens) that the body reads at point `t`. -/
def vword (hO : Ok m) (t : Fin (cfgM m hO).N) : BitVec 32 := (tbl m).atD 1 (k0_off1 ((cfgM m hO).grid.coords t))

/-! ## The host operations after the region -/

/-- A buffer that bypasses the region (unscoped, no window's array, no table) may be touched by the later operations. -/
theorem mem_tail_rest (b : Ref sig .tc) (hs : b.isScoped = false) (ha : ∀ w, (spec0 w).arr.view.ref ≠ b) (hp : ∀ k, pre0.ref k ≠ b) :
    (Proc.devRef .tc b : DevRef τ sig) ∈ Pipeline.tailRefs sig pre0 spec0 := by
  unfold Pipeline.tailRefs
  refine Finset.mem_map_of_mem _ (Finset.mem_union.mpr (Or.inr ?_))
  unfold Pipeline.restRefsP
  refine Finset.mem_sdiff.mpr ⟨Pipeline.mem_restRefs_of b hs ha, ?_⟩
  simp only [Finset.mem_image, Finset.mem_univ, true_and, not_exists]
  exact hp
/-- A window's array may be read by the later operations. -/
theorem mem_tail_arr (w : Fin 3) : (Proc.devRef .tc (Pipeline.arrRef spec0 w) : DevRef τ sig) ∈ Pipeline.tailRefs sig pre0 spec0 := by
  unfold Pipeline.tailRefs
  exact Finset.mem_map_of_mem _ (Finset.mem_union.mpr (Or.inl (Finset.mem_image.mpr ⟨w, Finset.mem_univ _, rfl⟩)))

/-- The operations after the region touch only the padded output and buffers that bypass the region. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals
    intro b hb
    simp only [StableHlo.nullary_bufs, StableHlo.unary_bufs, StableHlo.binary_bufs, StableHlo.ternary_bufs, Finset.mem_insert, Finset.mem_singleton] at hb
    rcases hb with rfl | rfl | rfl | rfl <;>
      first
        | exact mem_tail_rest _ (by rfl) (by decide) (by decide)
        | exact mem_tail_arr 2
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl
  all_goals intro w; fin_cases w <;> simp only [StableHlo.nullary_writes, StableHlo.unary_writes, StableHlo.binary_writes, StableHlo.ternary_writes, Finset.mem_singleton] <;> exact StableHlo.devRef_ne_of_ne (by decide)

end Cert.KernelIdeal.Hand

end
-- ==== Proof.Body.lean ====
/-
  The kernel body of the grouped matrix product at a generic grid point. At point (j, i) the body reads the word
  v = tile_valid[i] of the second prefetched table. If v ≠ 0 it stores, over the whole output block, the product of
  the x block with the weight block the first table selects (the weight block rounded to bf16 first, the sum
  started from zero); if v = 0 it stores zeros over the whole output block. Exactly one of the two holds for every
  word, so the output window is idle at no point. From the two runs of the body follow what the output block holds
  after each point, the pipeline's proof data, and the body obligation at every point.
-/
import proofs.«416672_j52793738003186_2_alg».proof.Proof.Kit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The two branch conditions -/

/-- The first branch is taken exactly when the table word is not zero. -/
theorem k0_cond1_iff (v : BitVec 32) : k0_cond1 v = 1#1 ↔ v ≠ 0#32 := by
  unfold k0_cond1 Scalar.cmpi IntOp.cmpi Scalar.extui
  by_cases h : v = 0#32
  · subst h; decide
  · have hb : (v != 0#32) = true := bne_iff_ne.mpr h
    simp only [hb]
    exact ⟨fun _ => h, fun _ => by decide⟩

/-- The second branch is taken exactly when the table word is zero. -/
theorem k0_cond2_iff (v : BitVec 32) : k0_cond2 v = 1#1 ↔ v = 0#32 := by
  unfold k0_cond2 Scalar.cmpi IntOp.cmpi Scalar.extui
  by_cases h : v = 0#32
  · subst h; decide
  · have hb : (v == 0#32) = false := beq_eq_false_iff_ne.mpr h
    simp only [hb]
    exact ⟨fun hh => absurd hh (by decide), fun hh => absurd hh h⟩

/-- The two input windows are never idle; the output window is never idle either, since at every point one of the
    two branches stores the whole block. -/
theorem idle0_0 (pf : pre0.Contents (Elt F)) (i : grid0.Coords) : idle0 pf 0 i = false := rfl
theorem idle0_1 (pf : pre0.Contents (Elt F)) (i : grid0.Coords) : idle0 pf 1 i = false := rfl
theorem idle0_2 (pf : pre0.Contents (Elt F)) (i : grid0.Coords) : idle0 pf 2 i = false := by
  show (!(k0_cond1 (pf.atD 1 (k0_off1 i)) == 1#1) && !(k0_cond2 (pf.atD 1 (k0_off2 i)) == 1#1)) = false
  have e : pf.atD 1 (k0_off2 i) = pf.atD 1 (k0_off1 i) := rfl
  rw [e]
  by_cases h : pf.atD 1 (k0_off1 i) = 0#32
  · have h2 : k0_cond2 (pf.atD 1 (k0_off1 i)) = 1#1 := (k0_cond2_iff _).mpr h
    rw [h2]; simp
  · have h1 : k0_cond1 (pf.atD 1 (k0_off1 i)) = 1#1 := (k0_cond1_iff _).mpr h
    rw [h1]; simp

/-! ## The word the body branches on -/

/-- The word of the second table the body loads at grid point `i`, read through the load's own rectangle off the
    held contents `xt1`. -/
abbrev wordAt (c : Dev nD) (i : grid0.Coords) (xt1 : TbBuf0 (F := F) c tbM0_1) : BitVec 32 :=
  tbM0_1.view.readAt (Elt F) (Rect.unit (s := S40) (k0_off1 i) S1.size (k0_off1_inb i)).toLoadRect xt1 (Shape.Idx.first (numel1_S1.symm ▸ Nat.one_pos))

/-- Read off the tables' contents, that word is the contents' element at the load's offsets. -/
theorem wordAt_eq_atD (c : Dev nD) (i : grid0.Coords) (pf : pre0.Contents (Elt F)) :
    wordAt c i (pf 1) = pf.atD 1 (k0_off1 i) := by
  have h1 : ∀ a : Fin 1, k0_off1 i a + 1 ≤ S40.size a := Fin.forall_fin_one.mpr (k0_off1_inb i 0)
  have h : ∀ a : Fin (pre0.ref 1).ty.shape.rank, k0_off1 i a + 1 ≤ (pre0.ref 1).ty.shape.size a := h1
  unfold Pipeline.Prefetch.Contents.atD
  rw [dif_pos h]
  show pf 1 ((Rect.unit (s := S40) (k0_off1 i) S1.size (k0_off1_inb i)).emb (Shape.Idx.first _)) = pf 1 (fun a => ⟨k0_off1 i a, h a⟩)
  congr 1

/-! ## Loads and stores through the whole-block rectangle -/

theorem zeros2 : (![0, 0] : Fin 2 → Nat) = fun _ => 0 := by funext a; fin_cases a <;> rfl
theorem zeros3 : (![0, 0, 0] : Fin 3 → Nat) = fun _ => 0 := by funext a; fin_cases a <;> rfl

/-- A load of a whole memref through its whole-block rectangle reads the contents it is held at. -/
theorem readAt_whole_unread {κ : Kind} {sp : Space} {S : Shape} {e : EltTy} (M : Memref sig κ sp S e) (hM : M.IsWhole)
    {off : Fin S.rank → Nat} (h : off = fun _ => 0) (inb : ∀ a, off a + S.size a ≤ S.size a) (X : S.Idx → Elt F e) :
    M.view.readAt (Elt F) (Rect.unit off S.size inb).toLoadRect (hM.unread X) = X :=
  (View.readAt_eq_ld M.view (hM.unread X) (Rect.unit off S.size inb)).trans
    ((congrArg (fun Y => View.ld Y (Rect.unit off S.size inb)) (hM.read_unread X)).trans (View.ld_unit_zero h inb X))

/-- After one store through the whole-block rectangle a buffer reads the stored payload, whatever it held before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-! ## The body on any whole staging memrefs -/

/-- Where the table word is not zero the body stores the product of the x block with the weight block over the whole
    output block, and leaves everything else as it was. -/
theorem kernelRun_live (c : Dev nD) (i : grid0.Coords)
    (arg4 : Memref sig .tc .vmem S256x2048 .bf16) (harg4 : arg4.IsWhole)
    (arg5 : Memref sig .tc .vmem S1x2048x1024 .f32) (harg5 : arg5.IsWhole)
    (arg6 : Memref sig .tc .vmem S256x1024 .f32) (harg6 : arg6.IsWhole)
    (x0 : Vec F S256x2048 .bf16) (w0 : Vec F S1x2048x1024 .f32)
    (xt0 : TbBuf0 (F := F) c tbM0_0) (xt1 : TbBuf0 (F := F) c tbM0_1)
    (hv : wordAt c i xt1 ≠ 0#32) (E : Set ℕ) (K : PUnit → sProp 𝕄) :
    iprop(owns (c : Thread nD τ) arg4 fullShare x0 ∗ owns (c : Thread nD τ) arg5 fullShare w0 ∗ (∃ d, owns (c : Thread nD τ) arg6 fullShare d)
        ∗ tbPt0 c tbM0_0 xt0 ∗ tbPt0 c tbM0_1 xt1
        ∗ (iprop(owns (c : Thread nD τ) arg4 fullShare x0 ∗ owns (c : Thread nD τ) arg5 fullShare w0
            ∗ owns (c : Thread nD τ) arg6 fullShare (k0_pay1 w0 x0) ∗ tbPt0 c tbM0_0 xt0 ∗ tbPt0 c tbM0_1 xt1) -∗ K ⟨⟩))
      ⊢ wp frame (wpE (defs₀ (F := F)) Variants.none c none) E (cc0__grouped_matmul_kernel i tbM0_0 htbM0_0 tbM0_1 htbM0_1 arg4 harg4 arg5 harg5 arg6 harg6) K := by
  have hc1 : k0_cond1 (wordAt c i xt1) = 1#1 := (k0_cond1_iff _).mpr hv
  have hc2 : ¬ k0_cond2 (tbM0_1.view.readAt (Elt F) (Rect.unit (s := S40) (k0_off2 i) S1.size (k0_off2_inb i)).toLoadRect xt1 (Shape.Idx.first (numel1_S1.symm ▸ Nat.one_pos))) = 1#1 :=
    fun h => hv ((k0_cond2_iff _).mp h)
  simp only [cc0__grouped_matmul_kernel_eq_skeleton]; unfold cc0__grouped_matmul_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    rw [readAt_whole_unread arg5 harg5 zeros3, readAt_whole_unread arg4 harg4 zeros2]
    exact read_writes_whole arg6.view f2 zeros2 _ _
  isplitl [HT0]; · iexact HT0
  iexact HT1

/-- Where the table word is zero the body stores zeros over the whole output block, and leaves everything else as it
    was. -/
theorem kernelRun_skip (c : Dev nD) (i : grid0.Coords)
    (arg4 : Memref sig .tc .vmem S256x2048 .bf16) (harg4 : arg4.IsWhole)
    (arg5 : Memref sig .tc .vmem S1x2048x1024 .f32) (harg5 : arg5.IsWhole)
    (arg6 : Memref sig .tc .vmem S256x1024 .f32) (harg6 : arg6.IsWhole)
    (x0 : Vec F S256x2048 .bf16) (w0 : Vec F S1x2048x1024 .f32)
    (xt0 : TbBuf0 (F := F) c tbM0_0) (xt1 : TbBuf0 (F := F) c tbM0_1)
    (hv : wordAt c i xt1 = 0#32) (E : Set ℕ) (K : PUnit → sProp 𝕄) :
    iprop(owns (c : Thread nD τ) arg4 fullShare x0 ∗ owns (c : Thread nD τ) arg5 fullShare w0 ∗ (∃ d, owns (c : Thread nD τ) arg6 fullShare d)
        ∗ tbPt0 c tbM0_0 xt0 ∗ tbPt0 c tbM0_1 xt1
        ∗ (iprop(owns (c : Thread nD τ) arg4 fullShare x0 ∗ owns (c : Thread nD τ) arg5 fullShare w0
            ∗ owns (c : Thread nD τ) arg6 fullShare (k0_pay2 (F := F)) ∗ tbPt0 c tbM0_0 xt0 ∗ tbPt0 c tbM0_1 xt1) -∗ K ⟨⟩))
      ⊢ wp frame (wpE (defs₀ (F := F)) Variants.none c none) E (cc0__grouped_matmul_kernel i tbM0_0 htbM0_0 tbM0_1 htbM0_1 arg4 harg4 arg5 harg5 arg6 harg6) K := by
  have hc1 : ¬ k0_cond1 (wordAt c i xt1) = 1#1 := fun h => (k0_cond1_iff _).mp h hv
  have hc2 : k0_cond2 (tbM0_1.view.readAt (Elt F) (Rect.unit (s := S40) (k0_off2 i) S1.size (k0_off2_inb i)).toLoadRect xt1 (Shape.Idx.first (numel1_S1.symm ▸ Nat.one_pos))) = 1#1 :=
    (k0_cond2_iff _).mpr hv
  simp only [cc0__grouped_matmul_kernel_eq_skeleton]; unfold cc0__grouped_matmul_kernel_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec (disch := first | sl_exact hc1 | sl_exact hc2)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; swap; · iexact H2
    ipureintro
    exact read_writes_whole arg6.view f2 zeros2 _ _
  isplitl [HT0]; · iexact HT0
  iexact HT1

/-! ## What the output block holds after each point -/

/-- The word of the second table at point `t`, as the body reads it off the tables' contents. -/
theorem wordAt_tbl (hO : Ok m) (c : Dev nD) (t : Fin (cfgM m hO).N) :
    wordAt c ((cfgM m hO).grid.coords t) (tbl m 1) = vword m hO t := by
  unfold vword; exact wordAt_eq_atD c _ (tbl m)

/-- The two input blocks at point `t`, at the types the body loads them at. -/
abbrev xblk (hO : Ok m) (c : Dev nD) (t : Fin (cfgM m hO).N) : Vec F S256x2048 .bf16 := iblk m hO c 0 t
abbrev wblk (hO : Ok m) (c : Dev nD) (t : Fin (cfgM m hO).N) : Vec F S1x2048x1024 .f32 := iblk m hO c 1 t

/-- What the body leaves in the output block at point `t`: the product of the x block with the selected weight block
    where the row tile holds tokens, zeros where it holds none. -/
def outAt0 (hO : Ok m) (c : Dev nD) (t : Fin (cfgM m hO).N) : Vec F S256x1024 .f32 :=
  if vword m hO t ≠ 0 then k0_pay1 (wblk m hO c t) (xblk m hO c t) else k0_pay2

/-! ## The pipeline's proof data -/

/-- The proof data of the pipeline on core `c`: the arrays as the region finds them; after the body at point `t` each
    input's buffer at its block and the output's at `outAt0`; the invariant the scoped rest and the tables' halves;
    nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt0 m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt0 m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: the inputs' memrefs hold their blocks; the table word decides which of the two runs
    applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outAt0
  by_cases hv : vword m hO t = 0
  · rw [if_neg (not_not.mpr hv)]
    iintro ⟨⟨HΦ, ⟨HT0, HT1⟩⟩, Ho, ⟨%d0, H0⟩, ⟨%d1, H1⟩, ⟨%d2, H2⟩⟩
    iapply (kernelRun_skip c (grid0.coords t) _ _ _ _ _ _ (iblk m hO c 0 t) (iblk m hO c 1 t) (tbl m 0) (tbl m 1) ((wordAt_tbl m hO c t).trans hv) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2
  · rw [if_pos hv]
    iintro ⟨⟨HΦ, ⟨HT0, HT1⟩⟩, Ho, ⟨%d0, H0⟩, ⟨%d1, H1⟩, ⟨%d2, H2⟩⟩
    iapply (kernelRun_live c (grid0.coords t) _ _ _ _ _ _ (iblk m hO c 0 t) (iblk m hO c 1 t) (tbl m 0) (tbl m 1) (fun h => hv ((wordAt_tbl m hO c t).symm.trans h)) Set.univ _)
    isplitl [H0]; · iexact H0
    isplitl [H1]; · iexact H1
    isplitl [H2]; · iexists _; iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2

/-- The library's body obligation, at every point: the output window is idle nowhere. -/
theorem body_obligation (hO : Ok m) (c : Dev nD) : BodyObligation (dats (F := F) m hO 0 c) (defs₀ (F := F)) Variants.none () Set.univ := fun t => by
  rw [bigSep_W0, bigSep_W0]
  have hi2 : (cfgM m hO).idle (2 : Fin 3) ((cfgM m hO).grid.coords t) = false := idle0_2 (tbl m) _
  rw [hi2]
  exact sound_body m hO c t

end Cert.KernelIdeal.Hand

end
-- ==== Proof.ArgsKept.lean ====
/-
  No host operation before the region writes an argument array: the region finds the three arguments as launched.
-/
import proofs.«416672_j52793738003186_2_alg».proof.Proof.Kit

set_option maxRecDepth 16384
set_option maxHeartbeats 4000000

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

theorem Vkept_arg0 (c : Dev nD) : V m c main_arg0 = m ((c : Thread nD τ).loc main_arg0) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl
theorem Vkept_arg1 (c : Dev nD) : V m c main_arg1 = m ((c : Thread nD τ).loc main_arg1) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl
theorem Vkept_arg2 (c : Dev nD) : V m c main_arg2 = m ((c : Thread nD τ).loc main_arg2) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl

end Cert.KernelIdeal.Hand

end
-- ==== Proof.Run.lean ====
/-
  The run of the program: host operations, the one region, host operations. From the region's proof data and
  body obligation the library's frame run gives, after the last host operation, every window's array at what the
  write-backs left and every other buffer at what the later operations compute; read at the three argument arrays
  this is the frame claim, and read at the result buffer it is the final gather of the padded output's rows.
-/
import proofs.«416672_j52793738003186_2_alg».proof.Proof.Body
import proofs.«416672_j52793738003186_2_alg».proof.Proof.ArgsKept

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every buffer holds after the host operations that follow the region. -/
abbrev afterAll (hO : Ok m) (c : Dev nD) (b : Ref sig .tc) : Buf (Elt F) ((c : Thread nD τ).loc b) :=
  Pipeline.afterTail pcfgs (fun _ => adm m hO) (dats m hO) 0 (V0 m) [hostOps1] c b

set_option backward.isDefEq.respectTransparency.types false in
/-- Every weakly fair execution of @main terminates; at the end each window's array holds what the library computes
    from the proof data and every other unscoped buffer what the later host operations leave. -/
theorem run_main (hO : Ok m) : θ_run defs (onTc (τ := τ) (main (F := F))) (s₀ m ρ)
    (Pipeline.FramePost (Pipeline.pin pcfgs fun _ => adm m hO) (dats m hO) 0 (afterAll m hO)) :=
  Pipeline.θ_run_frameP_around pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- No host operation after the region writes the first argument. -/
theorem tail_arg0 (hO : Ok m) (c : Dev nD) : afterAll m hO c main_arg0 = m ((c : Thread nD τ).loc main_arg0) := by
  unfold afterAll Pipeline.afterTail
  rw [StableHlo.after_of_forall_not_mem (b := Proc.devRef .tc main_arg0) _ _ (List.forall_iff_forall_mem.mp (by
      simp only [hostOps1, List.flatten_cons, List.flatten_nil, List.append_nil, List.Forall, StableHlo.nullary_writes, StableHlo.unary_writes, StableHlo.binary_writes, StableHlo.ternary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact Vkept_arg0 m c
/-- Nor the index array. -/
theorem tail_arg2 (hO : Ok m) (c : Dev nD) : afterAll m hO c main_arg2 = m ((c : Thread nD τ).loc main_arg2) := by
  unfold afterAll Pipeline.afterTail
  rw [StableHlo.after_of_forall_not_mem (b := Proc.devRef .tc main_arg2) _ _ (List.forall_iff_forall_mem.mp (by
      simp only [hostOps1, List.flatten_cons, List.flatten_nil, List.append_nil, List.Forall, StableHlo.nullary_writes, StableHlo.unary_writes, StableHlo.binary_writes, StableHlo.ternary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact Vkept_arg2 m c

/-- The rows the final gather takes: each token's padded row, a negative word wrapped as jnp indexing does. -/
def outIdx (c : Dev nD) : IVec S8192x1 32 :=
  broadcastInDim S8192x1 ![0] bcast_S8192_S8192x1_0
    (select (cmpi .slt (V m c main_v53 : IVec S8192 32) (broadcastInDim S8192 ![] bcast_S_S8192 (constantI S_ 32 0#32)))
      (addi (V m c main_v53 : IVec S8192 32) (broadcastInDim S8192 ![] bcast_S_S8192 (constantI S_ 32 10240#32)))
      (V m c main_v53 : IVec S8192 32))

/-- The result buffer after the run: the gather of the padded output's rows at `outIdx`. -/
theorem tail_out (hO : Ok m) (c : Dev nD) : afterAll m hO c main_v105
    = Host.gather gather_S10240x8192_S8192x1_S8192x8192_1_0_n_n_0_1_18192 ((dats m hO 0 c).arrAt 2 (cfgM m hO).N) (outIdx m c) := by
  unfold afterAll Pipeline.afterTail outIdx
  generalize hW : Pipeline.withArrays _ c (V0 m c) _ = W
  have h98 : W (Proc.devRef .tc main_v98) = (dats m hO 0 c).arrAt 2 (cfgM m hO).N := by
    rw [← hW]; exact Pipeline.withArrays_arr _ (launch0 (F := F)).win.arr_inj c _ _ 2
  have h53 : W (Proc.devRef .tc main_v53) = V m c main_v53 := by
    rw [← hW]; exact Pipeline.withArrays_of_ne _ c _ _ main_v53 (by exact (by decide : ∀ w, Pipeline.arrRef spec0 w ≠ main_v53))
  simp only [hostOps1, List.flatten_cons, List.flatten_nil, List.append_nil]
  after_results_simp
  rw [h98, h53]
  all_goals rfl

/-- THE FRAME: every weakly fair execution terminates, nothing faults, and the three argument arrays end as launched
    — under the tables' side condition. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of (win := spec0) main_arg0 (by decide) (by decide))).trans (tail_arg0 m hO c),
     ((h c).1 1).trans (((dats m hO 0 c).arrAt_in 1 rfl _).trans ((A_eq m hO c 1).trans (Vkept_arg1 m c))),
     ((h c).2 main_arg2 (Pipeline.mem_restRefs_of (win := spec0) main_arg2 (by decide) (by decide))).trans (tail_arg2 m hO c)⟩)
    (run_main m ρ hO)

/-- The same run read also at the result buffer. -/
theorem run_out (hO : Ok m) : θ_run defs (onTc (τ := τ) (main (F := F))) ⟨m, fun _ => 0, ρ⟩ (fun r => ∀ c : Dev nD,
      r.2.mem ((c.tc : Thread nD τ).loc main_v105)
          = Host.gather gather_S10240x8192_S8192x1_S8192x8192_1_0_n_n_0_1_18192 ((dats m hO 0 c).arrAt 2 (cfgM m hO).N) (outIdx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v105 (Pipeline.mem_restRefs_of (win := spec0) main_v105 (by decide) (by decide))).trans (tail_out m hO c),
     ((h c).2 main_arg0 (Pipeline.mem_restRefs_of (win := spec0) main_arg0 (by decide) (by decide))).trans (tail_arg0 m hO c),
     ((h c).1 1).trans (((dats m hO 0 c).arrAt_in 1 rfl _).trans ((A_eq m hO c 1).trans (Vkept_arg1 m c))),
     ((h c).2 main_arg2 (Pipeline.mem_restRefs_of (win := spec0) main_arg2 (by decide) (by decide))).trans (tail_arg2 m hO c)⟩)
    (run_main m ρ hO)

end Cert.KernelIdeal.Hand

end
-- ==== Proof.OkTid.lean ====
/-
  The pipeline's side condition on the tables from a bound on the first table's words: a row tile whose expert id
  is below 8 selects a weight block inside the weight array (8 experts, blocks of one expert, all 2048 rows and
  1024 of the 8192 columns).
-/
import proofs.«416672_j52793738003186_2_alg».proof.Proof.Kit

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- If every word of the tile-expert table is below 8, every window whose index map reads it has its block inside
    its array at every grid point: expert `e < 8` gives `(e + 1) * 1 ≤ 8`, the row block is whole, and column tile
    `i₀ < 8` gives `(i₀ + 1) * 1024 ≤ 8192`; the elements are word-wide. -/
theorem ok_of_tid (h : ∀ j : (pre0.ref 0).ty.shape.Idx, ((tbl m 0 j : (Elt F) (pre0.ref 0).ty.elt) : BitVec 32).toNat < 8) : Ok m := by
  intro i
  refine ⟨fun a => ?_, Or.inl rfl⟩
  have hi0 : (i 0).val < 8 := (i 0).isLt
  have ht := h ((Rect.unit (s := S40) (k0_off1 i) S1.size (k0_off1_inb i)).emb (Shape.Idx.first (numel1_S1.symm ▸ Nat.one_pos)))
  match a with
  | ⟨0, h0⟩ =>
    have e : cc0_transform_1 k0_off1_inb numel1_S1 (tbl m) i ⟨0, h0⟩
        = ((tbl m 0 ((Rect.unit (s := S40) (k0_off1 i) S1.size (k0_off1_inb i)).emb (Shape.Idx.first (numel1_S1.symm ▸ Nat.one_pos))) : BitVec 32)).toNat := rfl
    show (cc0_transform_1 k0_off1_inb numel1_S1 (tbl m) i ⟨0, h0⟩ + 1) * 1 ≤ 8
    rw [e]
    omega
  | ⟨1, h1⟩ =>
    show (0 + 1) * 2048 ≤ 2048
    decide
  | ⟨2, h2⟩ =>
    show ((BitVec.ofNat 32 (i 0).val).toNat + 1) * 1024 ≤ 8192
    rw [BitVec.toNat_ofNat, Nat.mod_eq_of_lt (by omega)]
    omega

end Cert.KernelIdeal.Hand

end
-- ==== Proof.HostEqsC.lean ====
import proofs.«416672_j52793738003186_2_alg».proof.Proof.Kit

set_option maxRecDepth 16384
set_option maxHeartbeats 4000000

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-! What the region finds in each buffer a host operation before it wrote: that operation's function of what it
    finds in the operation's operand buffers. -/

theorem V_main_call5_v0 (c : Dev nD) : V m c main_call5_v0 = ((broadcastInDim S10240x2048 ![0, 1] bcast_S10240x1_S10240x2048_0_1) : (⟨S10240x1, .i1⟩ : BufTy).Contents (Elt F) → (⟨S10240x2048, .i1⟩ : BufTy).Contents (Elt F)) (V m c main_v72) := by
  simp only [V, V0, prefixOps, List.flatten_cons, List.flatten_nil, List.append_nil, StableHlo.after_append]
  generalize StableHlo.after (hostOps0_9 (F := F)) _ = W
  simp only [hostOps0_10, hostOps0_11, hostOps0_12, hostOps0_13]
  after_results_simp
  all_goals rfl

theorem V_main_call5_v1 (c : Dev nD) : V m c main_call5_v1 = ((broadcastInDim S10240x2048 ![] bcast_S_S10240x2048) : (⟨S_, .bf16⟩ : BufTy).Contents (Elt F) → (⟨S10240x2048, .bf16⟩ : BufTy).Contents (Elt F)) (V m c main_cst) := by
  simp only [V, V0, prefixOps, List.flatten_cons, List.flatten_nil, List.append_nil, StableHlo.after_append]
  generalize StableHlo.after (hostOps0_9 (F := F)) _ = W
  simp only [hostOps0_10, hostOps0_11, hostOps0_12, hostOps0_13]
  after_results_simp
  all_goals rfl

theorem V_main_v80 (c : Dev nD) : V m c main_v80 = (select : (⟨S10240x2048, .i1⟩ : BufTy).Contents (Elt F) → (⟨S10240x2048, .bf16⟩ : BufTy).Contents (Elt F) → (⟨S10240x2048, .bf16⟩ : BufTy).Contents (Elt F) → (⟨S10240x2048, .bf16⟩ : BufTy).Contents (Elt F)) (V m c main_call5_v0) (V m c main_v79) (V m c main_call5_v1) := by
  simp only [V, V0, prefixOps, List.flatten_cons, List.flatten_nil, List.append_nil, StableHlo.after_append]
  generalize StableHlo.after (hostOps0_9 (F := F)) _ = W
  simp only [hostOps0_10, hostOps0_11, hostOps0_12, hostOps0_13]
  after_results_simp
  all_goals rfl

theorem V_main_v81 (c : Dev nD) : V m c main_v81 = (iotaInDim S40 32 0) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_c_25 (c : Dev nD) : V m c main_c_25 = (constantI S_ 32 256#32) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v82 (c : Dev nD) : V m c main_v82 = (broadcastInDim S40 ![] bcast_S_S40 : (⟨S_, .i32⟩ : BufTy).Contents (Elt F) → (⟨S40, .i32⟩ : BufTy).Contents (Elt F)) (V m c main_c_25) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v83 (c : Dev nD) : V m c main_v83 = (muli : (⟨S40, .i32⟩ : BufTy).Contents (Elt F) → (⟨S40, .i32⟩ : BufTy).Contents (Elt F) → (⟨S40, .i32⟩ : BufTy).Contents (Elt F)) (V m c main_v81) (V m c main_v82) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v84 (c : Dev nD) : V m c main_v84 = ((extractStridedSlice S8 ![1] · slices_S9_S8_1) : (⟨S9, .i32⟩ : BufTy).Contents (Elt F) → (⟨S8, .i32⟩ : BufTy).Contents (Elt F)) (V m c main_v28) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v85 (c : Dev nD) : V m c main_v85 = (broadcastInDim S1x8 ![1] bcast_S8_S1x8_1 : (⟨S8, .i32⟩ : BufTy).Contents (Elt F) → (⟨S1x8, .i32⟩ : BufTy).Contents (Elt F)) (V m c main_v84) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v86 (c : Dev nD) : V m c main_v86 = (broadcastInDim S40x1 ![0] bcast_S40_S40x1_0 : (⟨S40, .i32⟩ : BufTy).Contents (Elt F) → (⟨S40x1, .i32⟩ : BufTy).Contents (Elt F)) (V m c main_v83) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v87 (c : Dev nD) : V m c main_v87 = (broadcastInDim S40x8 ![0, 1] bcast_S1x8_S40x8_0_1 : (⟨S1x8, .i32⟩ : BufTy).Contents (Elt F) → (⟨S40x8, .i32⟩ : BufTy).Contents (Elt F)) (V m c main_v85) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v88 (c : Dev nD) : V m c main_v88 = (broadcastInDim S40x8 ![0, 1] bcast_S40x1_S40x8_0_1 : (⟨S40x1, .i32⟩ : BufTy).Contents (Elt F) → (⟨S40x8, .i32⟩ : BufTy).Contents (Elt F)) (V m c main_v86) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v89 (c : Dev nD) : V m c main_v89 = (cmpi .sle : (⟨S40x8, .i32⟩ : BufTy).Contents (Elt F) → (⟨S40x8, .i32⟩ : BufTy).Contents (Elt F) → (⟨S40x8, .i1⟩ : BufTy).Contents (Elt F)) (V m c main_v87) (V m c main_v88) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v90 (c : Dev nD) : V m c main_v90 = ((extui 32 · natLt_1_32) : (⟨S40x8, .i1⟩ : BufTy).Contents (Elt F) → (⟨S40x8, .i32⟩ : BufTy).Contents (Elt F)) (V m c main_v89) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_c_26 (c : Dev nD) : V m c main_c_26 = (constantI S_ 32 0#32) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_v91 (c : Dev nD) : V m c main_v91 = ((fun x v => Host.reduce IntOp.addi x v reducesTo_S40x8_S40_d1 h_S_) : (⟨S40x8, .i32⟩ : BufTy).Contents (Elt F) → (⟨S_, .i32⟩ : BufTy).Contents (Elt F) → (⟨S40, .i32⟩ : BufTy).Contents (Elt F)) (V m c main_v90) (V m c main_c_26) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_c_27 (c : Dev nD) : V m c main_c_27 = (constantI S_ 32 0#32) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_c_28 (c : Dev nD) : V m c main_c_28 = (constantI S_ 32 7#32) := by
  simp only [V, V0, prefixOps, List.flatten_cons, List.flatten_nil, List.append_nil, StableHlo.after_append]
  generalize StableHlo.after (hostOps0_10 (F := F)) _ = W
  simp only [hostOps0_11, hostOps0_12, hostOps0_13]
  after_results_simp
  all_goals rfl

theorem V_main_call6_v0 (c : Dev nD) : V m c main_call6_v0 = (id : (⟨S_, .i32⟩ : BufTy).Contents (Elt F) → (⟨S_, .i32⟩ : BufTy).Contents (Elt F)) (V m c main_c_27) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_call6_v1 (c : Dev nD) : V m c main_call6_v1 = ((broadcastInDim S40 ![] bcast_S_S40) : (⟨S_, .i32⟩ : BufTy).Contents (Elt F) → (⟨S40, .i32⟩ : BufTy).Contents (Elt F)) (V m c main_call6_v0) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_call6_v2 (c : Dev nD) : V m c main_call6_v2 = (maxsi : (⟨S40, .i32⟩ : BufTy).Contents (Elt F) → (⟨S40, .i32⟩ : BufTy).Contents (Elt F) → (⟨S40, .i32⟩ : BufTy).Contents (Elt F)) (V m c main_call6_v1) (V m c main_v91) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_call6_v3 (c : Dev nD) : V m c main_call6_v3 = (id : (⟨S_, .i32⟩ : BufTy).Contents (Elt F) → (⟨S_, .i32⟩ : BufTy).Contents (Elt F)) (V m c main_c_28) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_call6_v4 (c : Dev nD) : V m c main_call6_v4 = ((broadcastInDim S40 ![] bcast_S_S40) : (⟨S_, .i32⟩ : BufTy).Contents (Elt F) → (⟨S40, .i32⟩ : BufTy).Contents (Elt F)) (V m c main_call6_v3) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_v92 (c : Dev nD) : V m c main_v92 = (minsi : (⟨S40, .i32⟩ : BufTy).Contents (Elt F) → (⟨S40, .i32⟩ : BufTy).Contents (Elt F) → (⟨S40, .i32⟩ : BufTy).Contents (Elt F)) (V m c main_call6_v4) (V m c main_call6_v2) := by
  simp only [V, V0, prefixOps, List.flatten_cons, List.flatten_nil, List.append_nil, StableHlo.after_append]
  generalize StableHlo.after (hostOps0_11 (F := F)) _ = W
  simp only [hostOps0_12, hostOps0_13]
  after_results_simp
  all_goals rfl

theorem V_main_v93 (c : Dev nD) : V m c main_v93 = ((extractStridedSlice S1 ![8] · slices_S9_S1_8) : (⟨S9, .i32⟩ : BufTy).Contents (Elt F) → (⟨S1, .i32⟩ : BufTy).Contents (Elt F)) (V m c main_v28) := by
  simp only [V, V0, prefixOps, List.flatten_cons, List.flatten_nil, List.append_nil, StableHlo.after_append]
  generalize StableHlo.after (hostOps0_12 (F := F)) _ = W
  simp only [hostOps0_13]
  after_results_simp
  all_goals rfl

theorem V_main_v94 (c : Dev nD) : V m c main_v94 = (fun i => shapeCast S_ (V m c main_v93) shapeCasts_S1_S_ i) := by
  simp only [V, V0, prefixOps, List.flatten_cons, List.flatten_nil, List.append_nil, StableHlo.after_append]
  generalize StableHlo.after (hostOps0_12 (F := F)) _ = W
  simp only [hostOps0_13]
  after_results_simp
  all_goals rfl

theorem V_main_v95 (c : Dev nD) : V m c main_v95 = (broadcastInDim S40 ![] bcast_S_S40 : (⟨S_, .i32⟩ : BufTy).Contents (Elt F) → (⟨S40, .i32⟩ : BufTy).Contents (Elt F)) (V m c main_v94) := by
  simp only [V, V0, prefixOps, List.flatten_cons, List.flatten_nil, List.append_nil, StableHlo.after_append]
  generalize StableHlo.after (hostOps0_12 (F := F)) _ = W
  simp only [hostOps0_13]
  after_results_simp
  all_goals rfl

theorem V_main_v96 (c : Dev nD) : V m c main_v96 = (cmpi .slt : (⟨S40, .i32⟩ : BufTy).Contents (Elt F) → (⟨S40, .i32⟩ : BufTy).Contents (Elt F) → (⟨S40, .i1⟩ : BufTy).Contents (Elt F)) (V m c main_v83) (V m c main_v95) := by
  simp only [V, V0, prefixOps, List.flatten_cons, List.flatten_nil, List.append_nil, StableHlo.after_append]
  generalize StableHlo.after (hostOps0_12 (F := F)) _ = W
  simp only [hostOps0_13]
  after_results_simp
  all_goals rfl

theorem V_main_v97 (c : Dev nD) : V m c main_v97 = ((extui 32 · natLt_1_32) : (⟨S40, .i1⟩ : BufTy).Contents (Elt F) → (⟨S40, .i32⟩ : BufTy).Contents (Elt F)) (V m c main_v96) := by
  simp only [V, V0, prefixOps, List.flatten_cons, List.flatten_nil, List.append_nil, StableHlo.after_append]
  generalize StableHlo.after (hostOps0_12 (F := F)) _ = W
  simp only [hostOps0_13]
  after_results_simp
  all_goals rfl

end Cert.KernelIdeal.Hand

end
-- ==== Proof.TidBound.lean ====
/-
  The tile-to-expert table holds expert numbers: every word of it is the result of a signed clip into [0, 7],
  so its value is below 8, whatever was clipped.
-/
import proofs.«416672_j52793738003186_2_alg».proof.Proof.HostEqsC
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F] (m : (ℓ : Loc nD τ sig) → Buf (Elt F) ℓ)

/-- A signed clip into [0, 7] leaves a word whose value is below 8: the maximum with 0 reads nonnegative, and the
    minimum with 7 of a word that reads nonnegative reads at most 7. -/
theorem clip7_toNat_lt (x : BitVec 32) : (IntOp.minsi 7#32 (IntOp.maxsi 0#32 x)).toNat < 8 := by
  have h7 : (7#32 : BitVec 32).toInt = 7 := by decide
  have h0 : (0#32 : BitVec 32).toInt = 0 := by decide
  have hy : 0 ≤ (IntOp.maxsi 0#32 x).toInt := by
    unfold IntOp.maxsi
    split
    · rw [h0]
    · rename_i hc
      simp only [BitVec.slt, h0, decide_eq_true_eq] at hc
      omega
  generalize IntOp.maxsi 0#32 x = y at hy
  unfold IntOp.minsi
  split
  · decide
  · rename_i hc
    simp only [BitVec.slt, h7, decide_eq_true_eq] at hc
    have hc2 := BitVec.toInt_eq_toNat_cond y
    have := y.isLt
    split at hc2 <;> omega

/-- Word t of the table is the clip of word t of the per-tile count. -/
theorem v92_read (c : Dev nD) (t : Fin 40) :
    V m c main_v92 (ix1 t) = IntOp.minsi 7#32 (IntOp.maxsi 0#32 (V m c main_v91 (ix1 t))) := by
  rw [V_main_v92, V_main_call6_v4, V_main_call6_v3, V_main_c_28, V_main_call6_v2, V_main_call6_v1, V_main_call6_v0,
    V_main_c_27]
  rfl

theorem tid_lt (c : Dev nD) (t : Fin 40) : (V m c main_v92 (ix1 t)).toNat < 8 := by
  rw [v92_read]
  exact clip7_toNat_lt _

end Cert.KernelIdeal.Hand

end
-- ==== Proof.OkAll.lean ====
/-
  The tables' side condition holds of EVERY launch memory: the host clips each row tile's expert id into [0, 7]
  before the region reads it, so each selected weight block lies inside the weight array.
-/
import proofs.«416672_j52793738003186_2_alg».proof.Proof.OkTid
import proofs.«416672_j52793738003186_2_alg».proof.Proof.TidBound
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The first table is the clipped tile-expert vector the region finds (one device). -/
theorem tbl0_eq : (tbl m 0 : IVec S40 32) = V m (0 : Dev nD) main_v92 := rfl
/-- The second table is the tile-valid vector the region finds. -/
theorem tbl1_eq : (tbl m 1 : IVec S40 32) = V m (0 : Dev nD) main_v97 := rfl

theorem ok : Ok m := ok_of_tid m fun (j : S40.Idx) => by
  have h := tid_lt m (0 : Dev nD) (j 0)
  have e : j = ix1 (j 0) := eq_ix1 j
  rw [e]
  exact h

end Cert.KernelIdeal.Hand

end
-- ==== Proof.LibArgsort.lean ====
/-
  The stable argsort of a rank-1 table of 32-bit keys: a stable sort of the pairs (key, position) along the one
  axis, by the signed less-than of the keys alone. The sort reads the table through ONE self-map of the positions,
  `perm keys`; it is a bijection, it orders the keys (signed), and the carried position read back signed is the
  position itself while the table has at most 2^31 entries. Everything is generic in the length `n`.
-/
import Idealize.ShloMosaic.PureOps.Ideal
import Idealize.ShloMosaic.Lib.SortFacts
import Idealize.ShloMosaic.Lib.ValueIdx

namespace Cert.Argsort

open Idealize.ShloMosaic Idealize.ShloMosaic.ValueIdx

/-- the comparator jax prints for argsort: signed less-than of the keys, the carried index ignored -/
def cmp : BitVec 32 × BitVec 32 → BitVec 32 × BitVec 32 → BitVec 1 := fun l r => IntOp.cmpi .slt l.1 r.1

/-- the sorting permutation: position i of the sorted order holds the element of position perm keys i -/
def perm {n : ℕ} (keys : (⟨1, ![n]⟩ : Shape).Idx → BitVec 32) : Fin n → Fin n :=
  sortedFrom (fun k k' => cmp (keys (ix1 k), BitVec.ofNat 32 k.val) (keys (ix1 k'), BitVec.ofNat 32 k'.val) == 1#1)

/-- the rank-1 index at a coordinate, in its two spellings -/
theorem ofFin_eq_ix1 {n : ℕ} (k : Fin n) : (Shape.Idx.ofFin k : (⟨1, ![n]⟩ : Shape).Idx) = ix1 k := by
  funext d; match d with | ⟨0, _⟩ => rfl

/-- position `k` of the fiber through any rank-1 index is the index at `k` -/
theorem along_ix1 {n : ℕ} (j : (⟨1, ![n]⟩ : Shape).Idx) (h : 0 < (⟨1, ![n]⟩ : Shape).rank) (k : Fin n) :
    j.along ⟨0, h⟩ k = ix1 k := (Shape.Idx.along_rank1 j k).trans (ofFin_eq_ix1 k)

/-- the iota along the one axis, read at the index of coordinate `k`, is `k` as a word -/
theorem iota_ix1 {n : ℕ} (k : Fin n) : iotaInDim ⟨1, ![n]⟩ 32 0 (ix1 k) = BitVec.ofNat 32 k.val := rfl

theorem sort2_snd {n : ℕ} (keys : (⟨1, ![n]⟩ : Shape).Idx → BitVec 32) (i : Fin n) :
    (Host.sort2 ⟨1, ![n]⟩ 0 cmp keys (iotaInDim ⟨1, ![n]⟩ 32 0)).2 (ix1 i) = BitVec.ofNat 32 (perm keys i).val := by
  unfold Host.sort2 perm
  simp [ofFin_eq_ix1, iota_ix1]

theorem sort2_fst {n : ℕ} (keys : (⟨1, ![n]⟩ : Shape).Idx → BitVec 32) (i : Fin n) :
    (Host.sort2 ⟨1, ![n]⟩ 0 cmp keys (iotaInDim ⟨1, ![n]⟩ 32 0)).1 (ix1 i) = keys (ix1 (perm keys i)) := by
  unfold Host.sort2 perm
  simp [ofFin_eq_ix1, iota_ix1]

theorem perm_bijective {n : ℕ} (keys : (⟨1, ![n]⟩ : Shape).Idx → BitVec 32) : Function.Bijective (perm keys) :=
  ⟨sortedFrom_injective _, sortedFrom_surjective _⟩

theorem perm_sorted {n : ℕ} (keys : (⟨1, ![n]⟩ : Shape).Idx → BitVec 32) (i j : Fin n) (h : i ≤ j) :
    (keys (ix1 (perm keys i))).toInt ≤ (keys (ix1 (perm keys j))).toInt := by
  rcases Fin.lt_or_eq_of_le h with hlt | rfl
  · -- the 'before' relation is: the key at `k` is strictly below the key at `k'`, read signed
    have hR : perm keys = sortedFrom (fun k k' : Fin n => decide ((keys (ix1 k)).toInt < (keys (ix1 k')).toInt)) := by
      unfold perm
      refine congrArg sortedFrom (funext fun k => funext fun k' => ?_)
      simp only [cmp, IntOp.cmpi, BitVec.slt]
      by_cases hk : (keys (ix1 k)).toInt < (keys (ix1 k')).toInt <;> simp [hk]
    -- a strict order: asymmetric, and "not below" is transitive; so the stable sort leaves no inversion
    have hno := sortedFrom_noInversion
      (fun k k' : Fin n => decide ((keys (ix1 k)).toInt < (keys (ix1 k')).toInt))
      (fun k k' : Fin n => decide ((keys (ix1 k)).toInt < (keys (ix1 k')).toInt))
      (fun a b hab => by
        simp only [decide_eq_true_eq, decide_eq_false_iff_not] at hab ⊢; omega)
      (fun _ _ hab => hab)
      (fun a b c hab hbc => by
        simp only [decide_eq_false_iff_not] at hab hbc ⊢; omega)
      i j hlt
    rw [hR]
    simpa only [decide_eq_false_iff_not, not_lt] using hno
  · exact le_refl _

theorem perm_lt {n : ℕ} (hn : n ≤ 2^31) (keys : (⟨1, ![n]⟩ : Shape).Idx → BitVec 32) (i : Fin n) :
    (BitVec.ofNat 32 (perm keys i).val).toInt = ((perm keys i).val : Int) := by
  have hlt : (perm keys i).val < 2 ^ 31 := lt_of_lt_of_le (perm keys i).isLt hn
  rw [BitVec.toInt_eq_toNat_cond, BitVec.toNat_ofNat]
  have : (perm keys i).val % 2 ^ 32 = (perm keys i).val := Nat.mod_eq_of_lt (by omega)
  rw [this, if_pos (by omega)]

theorem cmp_eq : (fun l r : BitVec 32 × BitVec 32 => let v2 := IntOp.cmpi .slt l.1 r.1; v2) = cmp := rfl

attribute [irreducible] perm

end Cert.Argsort
-- ==== Proof.Route.lean ====
/-
  Routing tokens to experts by a stable sort, each expert's run padded up to a multiple of a tile.

  N tokens each name one of E experts.  Listing the tokens in nondecreasing order of expert puts expert e's
  tokens in the positions [uoff e, uoff e + cnt e).  In the padded layout expert e owns the rows
  [poff e, poff (e+1)), whose length pcnt e is cnt e rounded up to a multiple of the tile size T; the token
  at sorted position i, of expert s, goes to row poff s + (i - uoff s).  Everything here is arithmetic over ℕ.
-/
import Mathlib.Algebra.BigOperators.Group.Finset.Basic
import Mathlib.Algebra.Order.BigOperators.Group.Finset
import Mathlib.Data.Fintype.Card
import Mathlib.Order.Interval.Finset.Fin
import Mathlib.Tactic

namespace Cert.Route

variable {N E : ℕ}

/-- tokens routed to expert e -/
def cnt (idx : Fin N → Fin E) (e : ℕ) : ℕ := (Finset.univ.filter fun n : Fin N => (idx n).val = e).card

/-- tokens routed to experts below e -/
def uoff (idx : Fin N → Fin E) (e : ℕ) : ℕ := ∑ e' ∈ Finset.range e, cnt idx e'

/-- expert e's count padded up to a multiple of T -/
def pcnt (T : ℕ) (idx : Fin N → Fin E) (e : ℕ) : ℕ := ((cnt idx e + (T - 1)) / T) * T

/-- padded rows owned by experts below e -/
def poff (T : ℕ) (idx : Fin N → Fin E) (e : ℕ) : ℕ := ∑ e' ∈ Finset.range e, pcnt T idx e'

/-- π lists the tokens in nondecreasing order of expert -/
structure SortedPerm (idx : Fin N → Fin E) (π : Fin N → Fin N) : Prop where
  bij : Function.Bijective π
  mono : ∀ i j : Fin N, i ≤ j → (idx (π i)).val ≤ (idx (π j)).val

/-- the padded row of the token at sorted position i -/
def dest (T : ℕ) (idx : Fin N → Fin E) (π : Fin N → Fin N) (i : Fin N) : ℕ :=
  poff T idx (idx (π i)).val + (i.val - uoff idx (idx (π i)).val)

/-! ### Counts and unpadded offsets -/

theorem uoff_succ (idx : Fin N → Fin E) (e : ℕ) : uoff idx (e + 1) = uoff idx e + cnt idx e := by
  unfold uoff
  exact Finset.sum_range_succ _ _

theorem uoff_mono (idx : Fin N → Fin E) {e e' : ℕ} (h : e ≤ e') : uoff idx e ≤ uoff idx e' := by
  unfold uoff
  exact Finset.sum_le_sum_of_subset (Finset.range_mono h)

/-- The offset of expert e counts the tokens whose expert is below e: split that set by expert. -/
theorem uoff_eq_card (idx : Fin N → Fin E) (e : ℕ) :
    uoff idx e = (Finset.univ.filter fun n : Fin N => (idx n).val < e).card := by
  have hmaps : ((Finset.univ.filter fun n : Fin N => (idx n).val < e : Finset (Fin N)) : Set (Fin N)).MapsTo
      (fun n => (idx n).val) (Finset.range e) := by
    intro n hn
    simpa using hn
  rw [Finset.card_eq_sum_card_fiberwise hmaps]
  unfold uoff cnt
  refine Finset.sum_congr rfl fun b hb => ?_
  congr 1
  ext n
  have hb' : b < e := Finset.mem_range.mp hb
  simp only [Finset.mem_filter, Finset.mem_univ, true_and]
  constructor
  · intro h; exact ⟨h ▸ hb', h⟩
  · intro h; exact h.2

/-- Every token has an expert below E, so the offsets end at N. -/
theorem uoff_total (idx : Fin N → Fin E) : uoff idx E = N := by
  rw [uoff_eq_card]
  have : (Finset.univ.filter fun n : Fin N => (idx n).val < E) = Finset.univ := by
    ext n
    simp [(idx n).isLt]
  rw [this, Finset.card_univ, Fintype.card_fin]

theorem cnt_le (idx : Fin N → Fin E) (e : ℕ) : cnt idx e ≤ N := by
  unfold cnt
  calc _ ≤ (Finset.univ : Finset (Fin N)).card := Finset.card_le_card (Finset.filter_subset _ _)
    _ = N := by rw [Finset.card_univ, Fintype.card_fin]

theorem unsorted_sub (idx : Fin N → Fin E) (e : ℕ) (he : e ≤ E) : uoff idx e ≤ N := by
  calc uoff idx e ≤ uoff idx E := uoff_mono idx he
    _ = N := uoff_total idx

/-! ### Ranks in the sorted order -/

variable {idx : Fin N → Fin E} {π : Fin N → Fin N} {T : ℕ}

/-- Counting positions instead of tokens: π carries the positions whose token has an expert below e
    one-to-one onto the tokens whose expert is below e. -/
theorem uoff_eq_card_pos (hπ : SortedPerm idx π) (e : ℕ) :
    uoff idx e = (Finset.univ.filter fun j : Fin N => (idx (π j)).val < e).card := by
  rw [uoff_eq_card]
  have himg : (Finset.univ.filter fun n : Fin N => (idx n).val < e)
      = (Finset.univ.filter fun j : Fin N => (idx (π j)).val < e).image π := by
    ext n
    simp only [Finset.mem_filter, Finset.mem_univ, true_and, Finset.mem_image]
    constructor
    · intro h
      obtain ⟨j, rfl⟩ := hπ.bij.2 n
      exact ⟨j, h, rfl⟩
    · rintro ⟨j, h, rfl⟩
      exact h
  rw [himg, Finset.card_image_of_injective _ hπ.bij.1]

/-- The positions holding experts below the one at position i all lie strictly before i. -/
theorem rank_lo (hπ : SortedPerm idx π) (i : Fin N) : uoff idx (idx (π i)).val ≤ i.val := by
  rw [uoff_eq_card_pos hπ]
  have hsub : (Finset.univ.filter fun j : Fin N => (idx (π j)).val < (idx (π i)).val) ⊆ Finset.Iio i := by
    intro j hj
    simp only [Finset.mem_filter, Finset.mem_univ, true_and] at hj
    rw [Finset.mem_Iio]
    by_contra hij
    have := hπ.mono i j (not_lt.mp hij)
    omega
  calc _ ≤ (Finset.Iio i).card := Finset.card_le_card hsub
    _ = i.val := Fin.card_Iio i

/-- Every position up to and including i holds an expert no larger than the one at position i. -/
theorem rank_hi (hπ : SortedPerm idx π) (i : Fin N) :
    i.val < uoff idx (idx (π i)).val + cnt idx (idx (π i)).val := by
  rw [← uoff_succ, uoff_eq_card_pos hπ]
  have hsub : Finset.Iic i ⊆ (Finset.univ.filter fun j : Fin N => (idx (π j)).val < (idx (π i)).val + 1) := by
    intro j hj
    rw [Finset.mem_Iic] at hj
    simp only [Finset.mem_filter, Finset.mem_univ, true_and]
    have := hπ.mono j i hj
    omega
  calc i.val < i.val + 1 := Nat.lt_succ_self _
    _ = (Finset.Iic i).card := (Fin.card_Iic i).symm
    _ ≤ _ := Finset.card_le_card hsub

/-! ### Padded counts and offsets -/

theorem cnt_le_pcnt (hT : 0 < T) (idx : Fin N → Fin E) (e : ℕ) : cnt idx e ≤ pcnt T idx e := by
  unfold pcnt
  have := Nat.lt_div_mul_add (a := cnt idx e + (T - 1)) hT
  omega

theorem pcnt_lt (hT : 0 < T) (idx : Fin N → Fin E) (e : ℕ) : pcnt T idx e < cnt idx e + T := by
  unfold pcnt
  have := Nat.div_mul_le_self (cnt idx e + (T - 1)) T
  omega

theorem poff_succ (T : ℕ) (idx : Fin N → Fin E) (e : ℕ) : poff T idx (e + 1) = poff T idx e + pcnt T idx e := by
  unfold poff
  exact Finset.sum_range_succ _ _

theorem poff_mono (T : ℕ) (idx : Fin N → Fin E) {e e' : ℕ} (h : e ≤ e') : poff T idx e ≤ poff T idx e' := by
  unfold poff
  exact Finset.sum_le_sum_of_subset (Finset.range_mono h)

theorem poff_le' (T : ℕ) (idx : Fin N → Fin E) (e : ℕ) (he : e ≤ E) : poff T idx e ≤ poff T idx E :=
  poff_mono T idx he

theorem poff_dvd (T : ℕ) (idx : Fin N → Fin E) (e : ℕ) : T ∣ poff T idx e := by
  unfold poff
  refine Finset.dvd_sum fun e' _ => ?_
  unfold pcnt
  exact Dvd.intro_left _ rfl

/-- Each expert's padding is below a tile, so the padded total exceeds N by at most E * (T - 1). -/
theorem poff_le (hT : 0 < T) (idx : Fin N → Fin E) : poff T idx E ≤ N + E * (T - 1) := by
  have h : poff T idx E ≤ ∑ e' ∈ Finset.range E, (cnt idx e' + (T - 1)) := by
    unfold poff
    refine Finset.sum_le_sum fun e' _ => ?_
    have := pcnt_lt hT idx e'
    omega
  rw [Finset.sum_add_distrib, Finset.sum_const, Finset.card_range, smul_eq_mul] at h
  have := uoff_total idx
  unfold uoff at this
  omega

/-! ### Destination rows -/

theorem dest_ge (hπ : SortedPerm idx π) (hT : 0 < T) (i : Fin N) :
    poff T idx (idx (π i)).val ≤ dest T idx π i := by
  unfold dest
  exact Nat.le_add_right _ _

/-- The token's rank within its expert is below that expert's count, hence below its padded count. -/
theorem dest_lt (hπ : SortedPerm idx π) (hT : 0 < T) (i : Fin N) :
    dest T idx π i < poff T idx ((idx (π i)).val + 1) := by
  rw [poff_succ]
  unfold dest
  have h1 := rank_hi hπ i
  have h2 := rank_lo hπ i
  have h3 := cnt_le_pcnt hT idx (idx (π i)).val
  omega

theorem dest_lt_total (hπ : SortedPerm idx π) (hT : 0 < T) (i : Fin N) : dest T idx π i < poff T idx E :=
  lt_of_lt_of_le (dest_lt hπ hT i) (poff_mono T idx (idx (π i)).isLt)

theorem dest_lt_bound (hπ : SortedPerm idx π) (hT : 0 < T) (i : Fin N) : dest T idx π i < N + E * T := by
  have h1 := dest_lt_total hπ hT i
  have h2 := poff_le hT idx
  have h3 : E * (T - 1) ≤ E * T := Nat.mul_le_mul_left E (Nat.sub_le T 1)
  omega

/-- Tokens of different experts land in different experts' row ranges; tokens of one expert keep their
    distinct ranks. -/
theorem dest_inj (hπ : SortedPerm idx π) (hT : 0 < T) : Function.Injective (dest T idx π) := by
  intro i j hij
  have key : ∀ a b : Fin N, (idx (π a)).val < (idx (π b)).val → dest T idx π a < dest T idx π b := by
    intro a b hab
    calc dest T idx π a < poff T idx ((idx (π a)).val + 1) := dest_lt hπ hT a
      _ ≤ poff T idx (idx (π b)).val := poff_mono T idx hab
      _ ≤ dest T idx π b := dest_ge hπ hT b
  have hs : (idx (π i)).val = (idx (π j)).val := by
    rcases Nat.lt_trichotomy (idx (π i)).val (idx (π j)).val with h | h | h
    · have := key i j h; omega
    · exact h
    · have := key j i h; omega
  have hi := rank_lo hπ i
  have hj := rank_lo hπ j
  unfold dest at hij
  rw [hs] at hij hi
  apply Fin.ext
  omega

/-! ### The tile of a destination row -/

/-- The start of the tile holding a destination row stays inside the same expert's row range, because that
    range starts at a multiple of T. -/
theorem tile_ge (hπ : SortedPerm idx π) (hT : 0 < T) (i : Fin N) :
    poff T idx (idx (π i)).val ≤ (dest T idx π i / T) * T := by
  obtain ⟨k, hk⟩ := poff_dvd T idx (idx (π i)).val
  have h := dest_ge hπ hT i
  rw [hk] at h ⊢
  rw [Nat.mul_comm T k] at h ⊢
  exact Nat.mul_le_mul_right T ((Nat.le_div_iff_mul_le hT).mpr h)

theorem tile_le (T : ℕ) (idx : Fin N → Fin E) (π : Fin N → Fin N) (i : Fin N) :
    (dest T idx π i / T) * T ≤ dest T idx π i :=
  Nat.div_mul_le_self _ _

/-- The experts whose row range ends at or before the tile's start are exactly those below the token's. -/
theorem tile_count (hπ : SortedPerm idx π) (hT : 0 < T) (i : Fin N) :
    ((Finset.range E).filter fun e => poff T idx (e + 1) ≤ (dest T idx π i / T) * T).card
      = (idx (π i)).val := by
  have hset : ((Finset.range E).filter fun e => poff T idx (e + 1) ≤ (dest T idx π i / T) * T)
      = Finset.range (idx (π i)).val := by
    ext e
    simp only [Finset.mem_filter, Finset.mem_range]
    constructor
    · rintro ⟨_, h⟩
      by_contra hes
      have h1 : poff T idx ((idx (π i)).val + 1) ≤ poff T idx (e + 1) := poff_mono T idx (by omega)
      have h2 := dest_lt hπ hT i
      have h3 := tile_le T idx π i
      omega
    · intro hes
      refine ⟨lt_trans hes (idx (π i)).isLt, ?_⟩
      calc poff T idx (e + 1) ≤ poff T idx (idx (π i)).val := poff_mono T idx hes
        _ ≤ _ := tile_ge hπ hT i
  rw [hset, Finset.card_range]

theorem tile_valid (hπ : SortedPerm idx π) (hT : 0 < T) (i : Fin N) :
    (dest T idx π i / T) * T < poff T idx E :=
  lt_of_le_of_lt (tile_le T idx π i) (dest_lt_total hπ hT i)

end Cert.Route
-- ==== Proof.DecodeDefs.lean ====
/-
  The vocabulary of the routing argument: the expert of a token read off the launched index array, the sorting
  permutation the host's argsort applies, and the three argument arrays as the region finds them (no host
  operation writes them).
-/
import proofs.«416672_j52793738003186_2_alg».proof.Proof.Kit
import proofs.«416672_j52793738003186_2_alg».proof.Proof.LibArgsort
import proofs.«416672_j52793738003186_2_alg».proof.Proof.Route
import Idealize.ShloMosaic.Lib.ValueIdx

set_option maxRecDepth 16384
set_option maxHeartbeats 4000000

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

theorem V_main_arg0 (c : Dev nD) : V m c main_arg0 = m ((c : Thread nD τ).loc main_arg0) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl
theorem V_main_arg1 (c : Dev nD) : V m c main_arg1 = m ((c : Thread nD τ).loc main_arg1) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl
theorem V_main_arg2 (c : Dev nD) : V m c main_arg2 = m ((c : Thread nD τ).loc main_arg2) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl

/-- The launched index array on core `c`, as a vector of 8192 words. -/
def idxArr (c : Dev nD) : IVec S8192 32 := V m c main_arg2

/-- Every launched index, read signed, is an expert: in `[0, 8)`. -/
def InRange (c : Dev nD) : Prop := ∀ n : Fin 8192, 0 ≤ (idxArr m c (ix1 n)).toInt ∧ (idxArr m c (ix1 n)).toInt < 8

/-- The expert token `n` is routed to. -/
def eidx (c : Dev nD) (n : Fin 8192) : Fin 8 := ⟨(idxArr m c (ix1 n)).toNat % 8, Nat.mod_lt _ (by decide)⟩

/-- The clipped indices the host sorts by. -/
def keysArr (c : Dev nD) : IVec S8192 32 := V m c main_v0

/-- The permutation the host's stable argsort of the clipped indices applies: sorted position `i` holds token `sperm i`. -/
def sperm (c : Dev nD) : Fin 8192 → Fin 8192 := Cert.Argsort.perm (keysArr m c)

end Cert.KernelIdeal.Hand

end
-- ==== Proof.HostEqsA.lean ====
import proofs.«416672_j52793738003186_2_alg».proof.Proof.Kit

set_option maxRecDepth 16384
set_option maxHeartbeats 4000000

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-! What the region finds in each buffer a host operation before it wrote: that operation's function of what it
    finds in the operation's operand buffers. -/

theorem V_main_c (c : Dev nD) : V m c main_c = (constantI S_ 32 0#32) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl

theorem V_main_c_0 (c : Dev nD) : V m c main_c_0 = (constantI S_ 32 7#32) := by
  simp only [V, V0, prefixOps, List.flatten_cons, List.flatten_nil, List.append_nil, StableHlo.after_append]
  simp only [hostOps0, hostOps0_1, hostOps0_2, hostOps0_3, hostOps0_4, hostOps0_5, hostOps0_6, hostOps0_7, hostOps0_8, hostOps0_9, hostOps0_10, hostOps0_11, hostOps0_12, hostOps0_13]
  after_results_simp
  all_goals rfl

theorem V_main_call0_v0 (c : Dev nD) : V m c main_call0_v0 = (id : (⟨S_, .i32⟩ : BufTy).Contents (Elt F) → (⟨S_, .i32⟩ : BufTy).Contents (Elt F)) (V m c main_c) := by
  simp only [V, V0, prefixOps, List.flatten_cons, List.flatten_nil, List.append_nil, StableHlo.after_append]
  generalize StableHlo.after (hostOps0 (F := F)) _ = W
  simp only [hostOps0_1, hostOps0_2, hostOps0_3, hostOps0_4, hostOps0_5, hostOps0_6, hostOps0_7, hostOps0_8, hostOps0_9, hostOps0_10, hostOps0_11, hostOps0_12, hostOps0_13]
  after_results_simp
  all_goals rfl

theorem V_main_call0_v1 (c : Dev nD) : V m c main_call0_v1 = ((broadcastInDim S8192 ![] bcast_S_S8192) : (⟨S_, .i32⟩ : BufTy).Contents (Elt F) → (⟨S8192, .i32⟩ : BufTy).Contents (Elt F)) (V m c main_call0_v0) := by
  simp only [V, V0, prefixOps, List.flatten_cons, List.flatten_nil, List.append_nil, StableHlo.after_append]
  generalize StableHlo.after (hostOps0 (F := F)) _ = W
  simp only [hostOps0_1, hostOps0_2, hostOps0_3, hostOps0_4, hostOps0_5, hostOps0_6, hostOps0_7, hostOps0_8, hostOps0_9, hostOps0_10, hostOps0_11, hostOps0_12, hostOps0_13]
  after_results_simp
  all_goals rfl

theorem V_main_call0_v2 (c : Dev nD) : V m c main_call0_v2 = (maxsi : (⟨S8192, .i32⟩ : BufTy).Contents (Elt F) → (⟨S8192, .i32⟩ : BufTy).Contents (Elt F) → (⟨S8192, .i32⟩ : BufTy).Contents (Elt F)) (V m c main_call0_v1) (V m c main_arg2) := by
  simp only [V, V0, prefixOps, List.flatten_cons, List.flatten_nil, List.append_nil, StableHlo.after_append]
  generalize StableHlo.after (hostOps0 (F := F)) _ = W
  simp only [hostOps0_1, hostOps0_2, hostOps0_3, hostOps0_4, hostOps0_5, hostOps0_6, hostOps0_7, hostOps0_8, hostOps0_9, hostOps0_10, hostOps0_11, hostOps0_12, hostOps0_13]
  after_results_simp
  all_goals rfl

theorem V_main_call0_v3 (c : Dev nD) : V m c main_call0_v3 = (id : (⟨S_, .i32⟩ : BufTy).Contents (Elt F) → (⟨S_, .i32⟩ : BufTy).Contents (Elt F)) (V m c main_c_0) := by
  simp only [V, V0, prefixOps, List.flatten_cons, List.flatten_nil, List.append_nil, StableHlo.after_append]
  generalize StableHlo.after (hostOps0 (F := F)) _ = W
  simp only [hostOps0_1, hostOps0_2, hostOps0_3, hostOps0_4, hostOps0_5, hostOps0_6, hostOps0_7, hostOps0_8, hostOps0_9, hostOps0_10, hostOps0_11, hostOps0_12, hostOps0_13]
  after_results_simp
  all_goals rfl

theorem V_main_call0_v4 (c : Dev nD) : V m c main_call0_v4 = ((broadcastInDim S8192 ![] bcast_S_S8192) : (⟨S_, .i32⟩ : BufTy).Contents (Elt F) → (⟨S8192, .i32⟩ : BufTy).Contents (Elt F)) (V m c main_call0_v3) := by
  simp only [V, V0, prefixOps, List.flatten_cons, List.flatten_nil, List.append_nil, StableHlo.after_append]
  generalize StableHlo.after (hostOps0 (F := F)) _ = W
  simp only [hostOps0_1, hostOps0_2, hostOps0_3, hostOps0_4, hostOps0_5, hostOps0_6, hostOps0_7, hostOps0_8, hostOps0_9, hostOps0_10, hostOps0_11, hostOps0_12, hostOps0_13]
  after_results_simp
  all_goals rfl

theorem V_main_v0 (c : Dev nD) : V m c main_v0 = (minsi : (⟨S8192, .i32⟩ : BufTy).Contents (Elt F) → (⟨S8192, .i32⟩ : BufTy).Contents (Elt F) → (⟨S8192, .i32⟩ : BufTy).Contents (Elt F)) (V m c main_call0_v4) (V m c main_call0_v2) := by
  simp only [V, V0, prefixOps, List.flatten_cons, List.flatten_nil, List.append_nil, StableHlo.after_append]
  generalize StableHlo.after (hostOps0 (F := F)) _ = W
  simp only [hostOps0_1, hostOps0_2, hostOps0_3, hostOps0_4, hostOps0_5, hostOps0_6, hostOps0_7, hostOps0_8, hostOps0_9, hostOps0_10, hostOps0_11, hostOps0_12, hostOps0_13]
  after_results_simp
  all_goals rfl

theorem V_main_call1_v0 (c : Dev nD) : V m c main_call1_v0 = ((iotaInDim S8192 32 0) : (⟨S8192, .i32⟩ : BufTy).Contents (Elt F)) := by
  simp only [V, V0, prefixOps, List.flatten_cons, List.flatten_nil, List.append_nil, StableHlo.after_append]
  generalize StableHlo.after (hostOps0_1 (F := F)) _ = W
  simp only [hostOps0_2, hostOps0_3, hostOps0_4, hostOps0_5, hostOps0_6, hostOps0_7, hostOps0_8, hostOps0_9, hostOps0_10, hostOps0_11, hostOps0_12, hostOps0_13]
  after_results_simp
  all_goals rfl

theorem V_main_call1_v1_0 (c : Dev nD) : V m c main_call1_v1_0 = ((fun x y => (Host.sort2 S8192 0 comparator_i32_i32_d0 x y).1) : (⟨S8192, .i32⟩ : BufTy).Contents (Elt F) → (⟨S8192, .i32⟩ : BufTy).Contents (Elt F) → (⟨S8192, .i32⟩ : BufTy).Contents (Elt F)) (V m c main_v0) (V m c main_call1_v0) := by
  simp only [V, V0, prefixOps, List.flatten_cons, List.flatten_nil, List.append_nil, StableHlo.after_append]
  generalize StableHlo.after (hostOps0_1 (F := F)) _ = W
  simp only [hostOps0_2, hostOps0_3, hostOps0_4, hostOps0_5, hostOps0_6, hostOps0_7, hostOps0_8, hostOps0_9, hostOps0_10, hostOps0_11, hostOps0_12, hostOps0_13]
  after_results_simp
  all_goals rfl

theorem V_main_v1 (c : Dev nD) : V m c main_v1 = ((fun x y => (Host.sort2 S8192 0 comparator_i32_i32_d0 x y).2) : (⟨S8192, .i32⟩ : BufTy).Contents (Elt F) → (⟨S8192, .i32⟩ : BufTy).Contents (Elt F) → (⟨S8192, .i32⟩ : BufTy).Contents (Elt F)) (V m c main_v0) (V m c main_call1_v0) := by
  simp only [V, V0, prefixOps, List.flatten_cons, List.flatten_nil, List.append_nil, StableHlo.after_append]
  generalize StableHlo.after (hostOps0_1 (F := F)) _ = W
  simp only [hostOps0_2, hostOps0_3, hostOps0_4, hostOps0_5, hostOps0_6, hostOps0_7, hostOps0_8, hostOps0_9, hostOps0_10, hostOps0_11, hostOps0_12, hostOps0_13]
  after_results_simp
  all_goals rfl

theorem V_main_c_1 (c : Dev nD) : V m c main_c_1 = (constantI S_ 32 0#32) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v2 (c : Dev nD) : V m c main_v2 = (broadcastInDim S8192 ![] bcast_S_S8192 : (⟨S_, .i32⟩ : BufTy).Contents (Elt F) → (⟨S8192, .i32⟩ : BufTy).Contents (Elt F)) (V m c main_c_1) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v3 (c : Dev nD) : V m c main_v3 = (cmpi .slt : (⟨S8192, .i32⟩ : BufTy).Contents (Elt F) → (⟨S8192, .i32⟩ : BufTy).Contents (Elt F) → (⟨S8192, .i1⟩ : BufTy).Contents (Elt F)) (V m c main_v1) (V m c main_v2) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_c_2 (c : Dev nD) : V m c main_c_2 = (constantI S_ 32 8192#32) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v4 (c : Dev nD) : V m c main_v4 = (broadcastInDim S8192 ![] bcast_S_S8192 : (⟨S_, .i32⟩ : BufTy).Contents (Elt F) → (⟨S8192, .i32⟩ : BufTy).Contents (Elt F)) (V m c main_c_2) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v5 (c : Dev nD) : V m c main_v5 = (addi : (⟨S8192, .i32⟩ : BufTy).Contents (Elt F) → (⟨S8192, .i32⟩ : BufTy).Contents (Elt F) → (⟨S8192, .i32⟩ : BufTy).Contents (Elt F)) (V m c main_v1) (V m c main_v4) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v6 (c : Dev nD) : V m c main_v6 = (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (V m c main_v3) (V m c main_v5) (V m c main_v1) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v7 (c : Dev nD) : V m c main_v7 = (broadcastInDim S8192x1 ![0] bcast_S8192_S8192x1_0 : (⟨S8192, .i32⟩ : BufTy).Contents (Elt F) → (⟨S8192x1, .i32⟩ : BufTy).Contents (Elt F)) (V m c main_v6) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v8 (c : Dev nD) : V m c main_v8 = ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)) (V m c main_v0) (V m c main_v7) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v9 (c : Dev nD) : V m c main_v9 = (iotaInDim S8 32 0) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v10 (c : Dev nD) : V m c main_v10 = (broadcastInDim S1x8192 ![1] bcast_S8192_S1x8192_1 : (⟨S8192, .i32⟩ : BufTy).Contents (Elt F) → (⟨S1x8192, .i32⟩ : BufTy).Contents (Elt F)) (V m c main_v0) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v11 (c : Dev nD) : V m c main_v11 = (broadcastInDim S8x1 ![0] bcast_S8_S8x1_0 : (⟨S8, .i32⟩ : BufTy).Contents (Elt F) → (⟨S8x1, .i32⟩ : BufTy).Contents (Elt F)) (V m c main_v9) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v12 (c : Dev nD) : V m c main_v12 = (broadcastInDim S8x8192 ![0, 1] bcast_S1x8192_S8x8192_0_1 : (⟨S1x8192, .i32⟩ : BufTy).Contents (Elt F) → (⟨S8x8192, .i32⟩ : BufTy).Contents (Elt F)) (V m c main_v10) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v13 (c : Dev nD) : V m c main_v13 = (broadcastInDim S8x8192 ![0, 1] bcast_S8x1_S8x8192_0_1 : (⟨S8x1, .i32⟩ : BufTy).Contents (Elt F) → (⟨S8x8192, .i32⟩ : BufTy).Contents (Elt F)) (V m c main_v11) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v14 (c : Dev nD) : V m c main_v14 = (cmpi .eq : (⟨S8x8192, .i32⟩ : BufTy).Contents (Elt F) → (⟨S8x8192, .i32⟩ : BufTy).Contents (Elt F) → (⟨S8x8192, .i1⟩ : BufTy).Contents (Elt F)) (V m c main_v12) (V m c main_v13) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v15 (c : Dev nD) : V m c main_v15 = ((extui 32 · natLt_1_32) : (⟨S8x8192, .i1⟩ : BufTy).Contents (Elt F) → (⟨S8x8192, .i32⟩ : BufTy).Contents (Elt F)) (V m c main_v14) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_c_3 (c : Dev nD) : V m c main_c_3 = (constantI S_ 32 0#32) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v16 (c : Dev nD) : V m c main_v16 = ((fun x v => Host.reduce IntOp.addi x v reducesTo_S8x8192_S8_d1 h_S_) : (⟨S8x8192, .i32⟩ : BufTy).Contents (Elt F) → (⟨S_, .i32⟩ : BufTy).Contents (Elt F) → (⟨S8, .i32⟩ : BufTy).Contents (Elt F)) (V m c main_v15) (V m c main_c_3) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_c_4 (c : Dev nD) : V m c main_c_4 = (constantI S_ 32 0#32) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_v17 (c : Dev nD) : V m c main_v17 = (broadcastInDim S1 ![] bcast_S_S1 : (⟨S_, .i32⟩ : BufTy).Contents (Elt F) → (⟨S1, .i32⟩ : BufTy).Contents (Elt F)) (V m c main_c_4) := by
  simp only [V, V0, prefixOps, List.flatten_cons, List.flatten_nil, List.append_nil, StableHlo.after_append]
  generalize StableHlo.after (hostOps0_2 (F := F)) _ = W
  simp only [hostOps0_3, hostOps0_4, hostOps0_5, hostOps0_6, hostOps0_7, hostOps0_8, hostOps0_9, hostOps0_10, hostOps0_11, hostOps0_12, hostOps0_13]
  after_results_simp
  all_goals rfl

theorem V_main_call2_call0_c (c : Dev nD) : V m c main_call2_call0_c = ((constantI S_ 32 0#32) : (⟨S_, .i32⟩ : BufTy).Contents (Elt F)) := by
  simp only [V, V0, prefixOps, List.flatten_cons, List.flatten_nil, List.append_nil, StableHlo.after_append]
  generalize StableHlo.after (hostOps0_3 (F := F)) _ = W
  simp only [hostOps0_4, hostOps0_5, hostOps0_6, hostOps0_7, hostOps0_8, hostOps0_9, hostOps0_10, hostOps0_11, hostOps0_12, hostOps0_13]
  after_results_simp
  all_goals rfl

theorem V_main_call2_call0_v0 (c : Dev nD) : V m c main_call2_call0_v0 = ((broadcastInDim S_ ![] bcast_S_S_) : (⟨S_, .i32⟩ : BufTy).Contents (Elt F) → (⟨S_, .i32⟩ : BufTy).Contents (Elt F)) (V m c main_call2_call0_c) := by
  simp only [V, V0, prefixOps, List.flatten_cons, List.flatten_nil, List.append_nil, StableHlo.after_append]
  generalize StableHlo.after (hostOps0_3 (F := F)) _ = W
  simp only [hostOps0_4, hostOps0_5, hostOps0_6, hostOps0_7, hostOps0_8, hostOps0_9, hostOps0_10, hostOps0_11, hostOps0_12, hostOps0_13]
  after_results_simp
  all_goals rfl

theorem V_main_v18 (c : Dev nD) : V m c main_v18 = ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)) (V m c main_v16) (V m c main_call2_call0_v0) := by
  simp only [V, V0, prefixOps, List.flatten_cons, List.flatten_nil, List.append_nil, StableHlo.after_append]
  generalize StableHlo.after (hostOps0_3 (F := F)) _ = W
  simp only [hostOps0_4, hostOps0_5, hostOps0_6, hostOps0_7, hostOps0_8, hostOps0_9, hostOps0_10, hostOps0_11, hostOps0_12, hostOps0_13]
  after_results_simp
  all_goals rfl

theorem V_main_v19 (c : Dev nD) : V m c main_v19 = ((fun a b => concatenate S9 0 [⟨S1, a⟩, ⟨S8, b⟩] concatenates_S1_S8_S9_d0) : (⟨S1, .i32⟩ : BufTy).Contents (Elt F) → (⟨S8, .i32⟩ : BufTy).Contents (Elt F) → (⟨S9, .i32⟩ : BufTy).Contents (Elt F)) (V m c main_v17) (V m c main_v18) := by
  suffices h : ∀ (x0 : _) (x1 : _), x0 = V m c main_v17 → x1 = V m c main_v18 → V m c main_v19 = ((fun a b => concatenate S9 0 [⟨S1, a⟩, ⟨S8, b⟩] concatenates_S1_S8_S9_d0) : (⟨S1, .i32⟩ : BufTy).Contents (Elt F) → (⟨S8, .i32⟩ : BufTy).Contents (Elt F) → (⟨S9, .i32⟩ : BufTy).Contents (Elt F)) x0 x1 from h _ _ rfl rfl
  intro x0 x1 h0 h1
  simp only [V, V0, prefixOps, List.flatten_cons, List.flatten_nil, List.append_nil, StableHlo.after_append] at h0 h1 ⊢
  generalize StableHlo.after (hostOps0_4 (F := F)) _ = W at h0 h1 ⊢
  simp only [hostOps0_5, hostOps0_6, hostOps0_7, hostOps0_8, hostOps0_9, hostOps0_10, hostOps0_11, hostOps0_12, hostOps0_13] at h0 h1 ⊢
  simp (disch := decide) only [StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'] at h0 h1 ⊢
  subst h0 h1
  rfl

theorem V_main_c_5 (c : Dev nD) : V m c main_c_5 = (constantI S_ 32 256#32) := by
  simp only [V, V0, prefixOps, List.flatten_cons, List.flatten_nil, List.append_nil, StableHlo.after_append]
  generalize StableHlo.after (hostOps0_4 (F := F)) _ = W
  simp only [hostOps0_5, hostOps0_6, hostOps0_7, hostOps0_8, hostOps0_9, hostOps0_10, hostOps0_11, hostOps0_12, hostOps0_13]
  after_results_simp
  all_goals rfl

theorem V_main_v20 (c : Dev nD) : V m c main_v20 = (broadcastInDim S8 ![] bcast_S_S8 : (⟨S_, .i32⟩ : BufTy).Contents (Elt F) → (⟨S8, .i32⟩ : BufTy).Contents (Elt F)) (V m c main_c_5) := by
  simp only [V, V0, prefixOps, List.flatten_cons, List.flatten_nil, List.append_nil, StableHlo.after_append]
  generalize StableHlo.after (hostOps0_4 (F := F)) _ = W
  simp only [hostOps0_5, hostOps0_6, hostOps0_7, hostOps0_8, hostOps0_9, hostOps0_10, hostOps0_11, hostOps0_12, hostOps0_13]
  after_results_simp
  all_goals rfl

theorem V_main_v21 (c : Dev nD) : V m c main_v21 = (addi : (⟨S8, .i32⟩ : BufTy).Contents (Elt F) → (⟨S8, .i32⟩ : BufTy).Contents (Elt F) → (⟨S8, .i32⟩ : BufTy).Contents (Elt F)) (V m c main_v16) (V m c main_v20) := by
  simp only [V, V0, prefixOps, List.flatten_cons, List.flatten_nil, List.append_nil, StableHlo.after_append]
  generalize StableHlo.after (hostOps0_4 (F := F)) _ = W
  simp only [hostOps0_5, hostOps0_6, hostOps0_7, hostOps0_8, hostOps0_9, hostOps0_10, hostOps0_11, hostOps0_12, hostOps0_13]
  after_results_simp
  all_goals rfl

theorem V_main_c_6 (c : Dev nD) : V m c main_c_6 = (constantI S_ 32 1#32) := by
  simp only [V, V0, prefixOps, List.flatten_cons, List.flatten_nil, List.append_nil, StableHlo.after_append]
  generalize StableHlo.after (hostOps0_4 (F := F)) _ = W
  simp only [hostOps0_5, hostOps0_6, hostOps0_7, hostOps0_8, hostOps0_9, hostOps0_10, hostOps0_11, hostOps0_12, hostOps0_13]
  after_results_simp
  all_goals rfl

theorem V_main_v22 (c : Dev nD) : V m c main_v22 = (broadcastInDim S8 ![] bcast_S_S8 : (⟨S_, .i32⟩ : BufTy).Contents (Elt F) → (⟨S8, .i32⟩ : BufTy).Contents (Elt F)) (V m c main_c_6) := by
  simp only [V, V0, prefixOps, List.flatten_cons, List.flatten_nil, List.append_nil, StableHlo.after_append]
  generalize StableHlo.after (hostOps0_4 (F := F)) _ = W
  simp only [hostOps0_5, hostOps0_6, hostOps0_7, hostOps0_8, hostOps0_9, hostOps0_10, hostOps0_11, hostOps0_12, hostOps0_13]
  after_results_simp
  all_goals rfl

theorem V_main_v23 (c : Dev nD) : V m c main_v23 = (subi : (⟨S8, .i32⟩ : BufTy).Contents (Elt F) → (⟨S8, .i32⟩ : BufTy).Contents (Elt F) → (⟨S8, .i32⟩ : BufTy).Contents (Elt F)) (V m c main_v21) (V m c main_v22) := by
  simp only [V, V0, prefixOps, List.flatten_cons, List.flatten_nil, List.append_nil, StableHlo.after_append]
  generalize StableHlo.after (hostOps0_4 (F := F)) _ = W
  simp only [hostOps0_5, hostOps0_6, hostOps0_7, hostOps0_8, hostOps0_9, hostOps0_10, hostOps0_11, hostOps0_12, hostOps0_13]
  after_results_simp
  all_goals rfl

theorem V_main_c_7 (c : Dev nD) : V m c main_c_7 = (constantI S_ 32 256#32) := by
  simp only [V, V0, prefixOps, List.flatten_cons, List.flatten_nil, List.append_nil, StableHlo.after_append]
  generalize StableHlo.after (hostOps0_4 (F := F)) _ = W
  simp only [hostOps0_5, hostOps0_6, hostOps0_7, hostOps0_8, hostOps0_9, hostOps0_10, hostOps0_11, hostOps0_12, hostOps0_13]
  after_results_simp
  all_goals rfl

theorem V_main_call3_v0 (c : Dev nD) : V m c main_call3_v0 = (id : (⟨S_, .i32⟩ : BufTy).Contents (Elt F) → (⟨S_, .i32⟩ : BufTy).Contents (Elt F)) (V m c main_c_7) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v1 (c : Dev nD) : V m c main_call3_v1 = ((broadcastInDim S8 ![] bcast_S_S8) : (⟨S_, .i32⟩ : BufTy).Contents (Elt F) → (⟨S8, .i32⟩ : BufTy).Contents (Elt F)) (V m c main_call3_v0) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v2 (c : Dev nD) : V m c main_call3_v2 = (Host.divsi : (⟨S8, .i32⟩ : BufTy).Contents (Elt F) → (⟨S8, .i32⟩ : BufTy).Contents (Elt F) → (⟨S8, .i32⟩ : BufTy).Contents (Elt F)) (V m c main_v23) (V m c main_call3_v1) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v3 (c : Dev nD) : V m c main_call3_v3 = (signi : (⟨S8, .i32⟩ : BufTy).Contents (Elt F) → (⟨S8, .i32⟩ : BufTy).Contents (Elt F)) (V m c main_v23) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v4 (c : Dev nD) : V m c main_call3_v4 = (signi : (⟨S_, .i32⟩ : BufTy).Contents (Elt F) → (⟨S_, .i32⟩ : BufTy).Contents (Elt F)) (V m c main_call3_v0) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v5 (c : Dev nD) : V m c main_call3_v5 = ((broadcastInDim S8 ![] bcast_S_S8) : (⟨S_, .i32⟩ : BufTy).Contents (Elt F) → (⟨S8, .i32⟩ : BufTy).Contents (Elt F)) (V m c main_call3_v4) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v6 (c : Dev nD) : V m c main_call3_v6 = ((cmpi .ne) : (⟨S8, .i32⟩ : BufTy).Contents (Elt F) → (⟨S8, .i32⟩ : BufTy).Contents (Elt F) → (⟨S8, .i1⟩ : BufTy).Contents (Elt F)) (V m c main_call3_v3) (V m c main_call3_v5) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v7 (c : Dev nD) : V m c main_call3_v7 = ((broadcastInDim S8 ![] bcast_S_S8) : (⟨S_, .i32⟩ : BufTy).Contents (Elt F) → (⟨S8, .i32⟩ : BufTy).Contents (Elt F)) (V m c main_call3_v0) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v8 (c : Dev nD) : V m c main_call3_v8 = (Host.remsi : (⟨S8, .i32⟩ : BufTy).Contents (Elt F) → (⟨S8, .i32⟩ : BufTy).Contents (Elt F) → (⟨S8, .i32⟩ : BufTy).Contents (Elt F)) (V m c main_v23) (V m c main_call3_v7) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_c (c : Dev nD) : V m c main_call3_c = ((constantI S_ 32 0#32) : (⟨S_, .i32⟩ : BufTy).Contents (Elt F)) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v9 (c : Dev nD) : V m c main_call3_v9 = ((broadcastInDim S8 ![] bcast_S_S8) : (⟨S_, .i32⟩ : BufTy).Contents (Elt F) → (⟨S8, .i32⟩ : BufTy).Contents (Elt F)) (V m c main_call3_c) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v10 (c : Dev nD) : V m c main_call3_v10 = ((cmpi .ne) : (⟨S8, .i32⟩ : BufTy).Contents (Elt F) → (⟨S8, .i32⟩ : BufTy).Contents (Elt F) → (⟨S8, .i1⟩ : BufTy).Contents (Elt F)) (V m c main_call3_v8) (V m c main_call3_v9) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v11 (c : Dev nD) : V m c main_call3_v11 = (andi : (⟨S8, .i1⟩ : BufTy).Contents (Elt F) → (⟨S8, .i1⟩ : BufTy).Contents (Elt F) → (⟨S8, .i1⟩ : BufTy).Contents (Elt F)) (V m c main_call3_v6) (V m c main_call3_v10) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_c_0 (c : Dev nD) : V m c main_call3_c_0 = ((constantI S_ 32 1#32) : (⟨S_, .i32⟩ : BufTy).Contents (Elt F)) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v12 (c : Dev nD) : V m c main_call3_v12 = ((broadcastInDim S8 ![] bcast_S_S8) : (⟨S_, .i32⟩ : BufTy).Contents (Elt F) → (⟨S8, .i32⟩ : BufTy).Contents (Elt F)) (V m c main_call3_c_0) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_call3_v13 (c : Dev nD) : V m c main_call3_v13 = (subi : (⟨S8, .i32⟩ : BufTy).Contents (Elt F) → (⟨S8, .i32⟩ : BufTy).Contents (Elt F) → (⟨S8, .i32⟩ : BufTy).Contents (Elt F)) (V m c main_call3_v2) (V m c main_call3_v12) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_v24 (c : Dev nD) : V m c main_v24 = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (V m c main_call3_v11) (V m c main_call3_v13) (V m c main_call3_v2) := by
  simp only [V, V0, prefixOps, List.flatten_cons, List.flatten_nil, List.append_nil, StableHlo.after_append]
  generalize StableHlo.after (hostOps0_5 (F := F)) _ = W
  simp only [hostOps0_6, hostOps0_7, hostOps0_8, hostOps0_9, hostOps0_10, hostOps0_11, hostOps0_12, hostOps0_13]
  after_results_simp
  all_goals rfl

theorem V_main_c_8 (c : Dev nD) : V m c main_c_8 = (constantI S_ 32 256#32) := by
  simp only [V, V0, prefixOps, List.flatten_cons, List.flatten_nil, List.append_nil, StableHlo.after_append]
  generalize StableHlo.after (hostOps0_6 (F := F)) _ = W
  simp only [hostOps0_7, hostOps0_8, hostOps0_9, hostOps0_10, hostOps0_11, hostOps0_12, hostOps0_13]
  after_results_simp
  all_goals rfl

theorem V_main_v25 (c : Dev nD) : V m c main_v25 = (broadcastInDim S8 ![] bcast_S_S8 : (⟨S_, .i32⟩ : BufTy).Contents (Elt F) → (⟨S8, .i32⟩ : BufTy).Contents (Elt F)) (V m c main_c_8) := by
  simp only [V, V0, prefixOps, List.flatten_cons, List.flatten_nil, List.append_nil, StableHlo.after_append]
  generalize StableHlo.after (hostOps0_6 (F := F)) _ = W
  simp only [hostOps0_7, hostOps0_8, hostOps0_9, hostOps0_10, hostOps0_11, hostOps0_12, hostOps0_13]
  after_results_simp
  all_goals rfl

theorem V_main_v26 (c : Dev nD) : V m c main_v26 = (muli : (⟨S8, .i32⟩ : BufTy).Contents (Elt F) → (⟨S8, .i32⟩ : BufTy).Contents (Elt F) → (⟨S8, .i32⟩ : BufTy).Contents (Elt F)) (V m c main_v24) (V m c main_v25) := by
  simp only [V, V0, prefixOps, List.flatten_cons, List.flatten_nil, List.append_nil, StableHlo.after_append]
  generalize StableHlo.after (hostOps0_6 (F := F)) _ = W
  simp only [hostOps0_7, hostOps0_8, hostOps0_9, hostOps0_10, hostOps0_11, hostOps0_12, hostOps0_13]
  after_results_simp
  all_goals rfl

theorem V_main_call4_call0_c (c : Dev nD) : V m c main_call4_call0_c = ((constantI S_ 32 0#32) : (⟨S_, .i32⟩ : BufTy).Contents (Elt F)) := by
  simp only [V, V0, prefixOps, List.flatten_cons, List.flatten_nil, List.append_nil, StableHlo.after_append]
  generalize StableHlo.after (hostOps0_7 (F := F)) _ = W
  simp only [hostOps0_8, hostOps0_9, hostOps0_10, hostOps0_11, hostOps0_12, hostOps0_13]
  after_results_simp
  all_goals rfl

theorem V_main_call4_call0_v0 (c : Dev nD) : V m c main_call4_call0_v0 = ((broadcastInDim S_ ![] bcast_S_S_) : (⟨S_, .i32⟩ : BufTy).Contents (Elt F) → (⟨S_, .i32⟩ : BufTy).Contents (Elt F)) (V m c main_call4_call0_c) := by
  simp only [V, V0, prefixOps, List.flatten_cons, List.flatten_nil, List.append_nil, StableHlo.after_append]
  generalize StableHlo.after (hostOps0_7 (F := F)) _ = W
  simp only [hostOps0_8, hostOps0_9, hostOps0_10, hostOps0_11, hostOps0_12, hostOps0_13]
  after_results_simp
  all_goals rfl

theorem V_main_v27 (c : Dev nD) : V m c main_v27 = ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)) (V m c main_v26) (V m c main_call4_call0_v0) := by
  simp only [V, V0, prefixOps, List.flatten_cons, List.flatten_nil, List.append_nil, StableHlo.after_append]
  generalize StableHlo.after (hostOps0_7 (F := F)) _ = W
  simp only [hostOps0_8, hostOps0_9, hostOps0_10, hostOps0_11, hostOps0_12, hostOps0_13]
  after_results_simp
  all_goals rfl

end Cert.KernelIdeal.Hand

end
-- ==== Proof.HostEqsB.lean ====
import proofs.«416672_j52793738003186_2_alg».proof.Proof.Kit

set_option maxRecDepth 16384
set_option maxHeartbeats 4000000

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-! What the region finds in each buffer a host operation before it wrote: that operation's function of what it
    finds in the operation's operand buffers. -/

theorem V_main_v28 (c : Dev nD) : V m c main_v28 = ((fun a b => concatenate S9 0 [⟨S1, a⟩, ⟨S8, b⟩] concatenates_S1_S8_S9_d0) : (⟨S1, .i32⟩ : BufTy).Contents (Elt F) → (⟨S8, .i32⟩ : BufTy).Contents (Elt F) → (⟨S9, .i32⟩ : BufTy).Contents (Elt F)) (V m c main_v17) (V m c main_v27) := by
  suffices h : ∀ (x0 : _) (x1 : _), x0 = V m c main_v17 → x1 = V m c main_v27 → V m c main_v28 = ((fun a b => concatenate S9 0 [⟨S1, a⟩, ⟨S8, b⟩] concatenates_S1_S8_S9_d0) : (⟨S1, .i32⟩ : BufTy).Contents (Elt F) → (⟨S8, .i32⟩ : BufTy).Contents (Elt F) → (⟨S9, .i32⟩ : BufTy).Contents (Elt F)) x0 x1 from h _ _ rfl rfl
  intro x0 x1 h0 h1
  simp only [V, V0, prefixOps, List.flatten_cons, List.flatten_nil, List.append_nil, StableHlo.after_append] at h0 h1 ⊢
  generalize StableHlo.after (hostOps0_8 (F := F)) _ = W at h0 h1 ⊢
  simp only [hostOps0_9, hostOps0_10, hostOps0_11, hostOps0_12, hostOps0_13] at h0 h1 ⊢
  simp (disch := decide) only [StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne'] at h0 h1 ⊢
  subst h0 h1
  rfl

theorem V_main_v29 (c : Dev nD) : V m c main_v29 = (iotaInDim S8192 32 0) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_9 (c : Dev nD) : V m c main_c_9 = (constantI S_ 32 0#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v30 (c : Dev nD) : V m c main_v30 = (broadcastInDim S8192 ![] bcast_S_S8192 : (⟨S_, .i32⟩ : BufTy).Contents (Elt F) → (⟨S8192, .i32⟩ : BufTy).Contents (Elt F)) (V m c main_c_9) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v31 (c : Dev nD) : V m c main_v31 = (cmpi .slt : (⟨S8192, .i32⟩ : BufTy).Contents (Elt F) → (⟨S8192, .i32⟩ : BufTy).Contents (Elt F) → (⟨S8192, .i1⟩ : BufTy).Contents (Elt F)) (V m c main_v8) (V m c main_v30) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_10 (c : Dev nD) : V m c main_c_10 = (constantI S_ 32 9#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v32 (c : Dev nD) : V m c main_v32 = (broadcastInDim S8192 ![] bcast_S_S8192 : (⟨S_, .i32⟩ : BufTy).Contents (Elt F) → (⟨S8192, .i32⟩ : BufTy).Contents (Elt F)) (V m c main_c_10) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v33 (c : Dev nD) : V m c main_v33 = (addi : (⟨S8192, .i32⟩ : BufTy).Contents (Elt F) → (⟨S8192, .i32⟩ : BufTy).Contents (Elt F) → (⟨S8192, .i32⟩ : BufTy).Contents (Elt F)) (V m c main_v8) (V m c main_v32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v34 (c : Dev nD) : V m c main_v34 = (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (V m c main_v31) (V m c main_v33) (V m c main_v8) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v35 (c : Dev nD) : V m c main_v35 = (broadcastInDim S8192x1 ![0] bcast_S8192_S8192x1_0 : (⟨S8192, .i32⟩ : BufTy).Contents (Elt F) → (⟨S8192x1, .i32⟩ : BufTy).Contents (Elt F)) (V m c main_v34) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v36 (c : Dev nD) : V m c main_v36 = ((fun x i => Host.gather gather_S9_S8192x1_S8192_n_0_n_n_0_1_1 x i) : (⟨S9, .i32⟩ : BufTy).Contents (Elt F) → (⟨S8192x1, .i32⟩ : BufTy).Contents (Elt F) → (⟨S8192, .i32⟩ : BufTy).Contents (Elt F)) (V m c main_v19) (V m c main_v35) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v37 (c : Dev nD) : V m c main_v37 = (subi : (⟨S8192, .i32⟩ : BufTy).Contents (Elt F) → (⟨S8192, .i32⟩ : BufTy).Contents (Elt F) → (⟨S8192, .i32⟩ : BufTy).Contents (Elt F)) (V m c main_v29) (V m c main_v36) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_11 (c : Dev nD) : V m c main_c_11 = (constantI S_ 32 0#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v38 (c : Dev nD) : V m c main_v38 = (broadcastInDim S8192 ![] bcast_S_S8192 : (⟨S_, .i32⟩ : BufTy).Contents (Elt F) → (⟨S8192, .i32⟩ : BufTy).Contents (Elt F)) (V m c main_c_11) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v39 (c : Dev nD) : V m c main_v39 = (cmpi .slt : (⟨S8192, .i32⟩ : BufTy).Contents (Elt F) → (⟨S8192, .i32⟩ : BufTy).Contents (Elt F) → (⟨S8192, .i1⟩ : BufTy).Contents (Elt F)) (V m c main_v8) (V m c main_v38) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_12 (c : Dev nD) : V m c main_c_12 = (constantI S_ 32 9#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v40 (c : Dev nD) : V m c main_v40 = (broadcastInDim S8192 ![] bcast_S_S8192 : (⟨S_, .i32⟩ : BufTy).Contents (Elt F) → (⟨S8192, .i32⟩ : BufTy).Contents (Elt F)) (V m c main_c_12) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v41 (c : Dev nD) : V m c main_v41 = (addi : (⟨S8192, .i32⟩ : BufTy).Contents (Elt F) → (⟨S8192, .i32⟩ : BufTy).Contents (Elt F) → (⟨S8192, .i32⟩ : BufTy).Contents (Elt F)) (V m c main_v8) (V m c main_v40) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v42 (c : Dev nD) : V m c main_v42 = (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (V m c main_v39) (V m c main_v41) (V m c main_v8) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v43 (c : Dev nD) : V m c main_v43 = (broadcastInDim S8192x1 ![0] bcast_S8192_S8192x1_0 : (⟨S8192, .i32⟩ : BufTy).Contents (Elt F) → (⟨S8192x1, .i32⟩ : BufTy).Contents (Elt F)) (V m c main_v42) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v44 (c : Dev nD) : V m c main_v44 = ((fun x i => Host.gather gather_S9_S8192x1_S8192_n_0_n_n_0_1_1 x i) : (⟨S9, .i32⟩ : BufTy).Contents (Elt F) → (⟨S8192x1, .i32⟩ : BufTy).Contents (Elt F) → (⟨S8192, .i32⟩ : BufTy).Contents (Elt F)) (V m c main_v28) (V m c main_v43) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v45 (c : Dev nD) : V m c main_v45 = (addi : (⟨S8192, .i32⟩ : BufTy).Contents (Elt F) → (⟨S8192, .i32⟩ : BufTy).Contents (Elt F) → (⟨S8192, .i32⟩ : BufTy).Contents (Elt F)) (V m c main_v44) (V m c main_v37) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_13 (c : Dev nD) : V m c main_c_13 = (constantI S_ 32 0#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v46 (c : Dev nD) : V m c main_v46 = (broadcastInDim S8192 ![] bcast_S_S8192 : (⟨S_, .i32⟩ : BufTy).Contents (Elt F) → (⟨S8192, .i32⟩ : BufTy).Contents (Elt F)) (V m c main_c_13) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_14 (c : Dev nD) : V m c main_c_14 = (constantI S_ 32 0#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v47 (c : Dev nD) : V m c main_v47 = (broadcastInDim S8192 ![] bcast_S_S8192 : (⟨S_, .i32⟩ : BufTy).Contents (Elt F) → (⟨S8192, .i32⟩ : BufTy).Contents (Elt F)) (V m c main_c_14) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v48 (c : Dev nD) : V m c main_v48 = (cmpi .slt : (⟨S8192, .i32⟩ : BufTy).Contents (Elt F) → (⟨S8192, .i32⟩ : BufTy).Contents (Elt F) → (⟨S8192, .i1⟩ : BufTy).Contents (Elt F)) (V m c main_v1) (V m c main_v47) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_15 (c : Dev nD) : V m c main_c_15 = (constantI S_ 32 8192#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v49 (c : Dev nD) : V m c main_v49 = (broadcastInDim S8192 ![] bcast_S_S8192 : (⟨S_, .i32⟩ : BufTy).Contents (Elt F) → (⟨S8192, .i32⟩ : BufTy).Contents (Elt F)) (V m c main_c_15) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v50 (c : Dev nD) : V m c main_v50 = (addi : (⟨S8192, .i32⟩ : BufTy).Contents (Elt F) → (⟨S8192, .i32⟩ : BufTy).Contents (Elt F) → (⟨S8192, .i32⟩ : BufTy).Contents (Elt F)) (V m c main_v1) (V m c main_v49) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v51 (c : Dev nD) : V m c main_v51 = (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (V m c main_v48) (V m c main_v50) (V m c main_v1) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v52 (c : Dev nD) : V m c main_v52 = (broadcastInDim S8192x1 ![0] bcast_S8192_S8192x1_0 : (⟨S8192, .i32⟩ : BufTy).Contents (Elt F) → (⟨S8192x1, .i32⟩ : BufTy).Contents (Elt F)) (V m c main_v51) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v53 (c : Dev nD) : V m c main_v53 = ((fun x i u => Host.scatter scatter_S8192_S8192x1_S8192_n_0_0_1 (fun _ b => b) x i u) : (⟨S8192, .i32⟩ : BufTy).Contents (Elt F) → (⟨S8192x1, .i32⟩ : BufTy).Contents (Elt F) → (⟨S8192, .i32⟩ : BufTy).Contents (Elt F) → (⟨S8192, .i32⟩ : BufTy).Contents (Elt F)) (V m c main_v46) (V m c main_v52) (V m c main_v45) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_16 (c : Dev nD) : V m c main_c_16 = (constantI S_ 32 0#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v54 (c : Dev nD) : V m c main_v54 = (broadcastInDim S10240 ![] bcast_S_S10240 : (⟨S_, .i32⟩ : BufTy).Contents (Elt F) → (⟨S10240, .i32⟩ : BufTy).Contents (Elt F)) (V m c main_c_16) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_17 (c : Dev nD) : V m c main_c_17 = (constantI S_ 32 0#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v55 (c : Dev nD) : V m c main_v55 = (broadcastInDim S8192 ![] bcast_S_S8192 : (⟨S_, .i32⟩ : BufTy).Contents (Elt F) → (⟨S8192, .i32⟩ : BufTy).Contents (Elt F)) (V m c main_c_17) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v56 (c : Dev nD) : V m c main_v56 = (cmpi .slt : (⟨S8192, .i32⟩ : BufTy).Contents (Elt F) → (⟨S8192, .i32⟩ : BufTy).Contents (Elt F) → (⟨S8192, .i1⟩ : BufTy).Contents (Elt F)) (V m c main_v45) (V m c main_v55) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_18 (c : Dev nD) : V m c main_c_18 = (constantI S_ 32 10240#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v57 (c : Dev nD) : V m c main_v57 = (broadcastInDim S8192 ![] bcast_S_S8192 : (⟨S_, .i32⟩ : BufTy).Contents (Elt F) → (⟨S8192, .i32⟩ : BufTy).Contents (Elt F)) (V m c main_c_18) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v58 (c : Dev nD) : V m c main_v58 = (addi : (⟨S8192, .i32⟩ : BufTy).Contents (Elt F) → (⟨S8192, .i32⟩ : BufTy).Contents (Elt F) → (⟨S8192, .i32⟩ : BufTy).Contents (Elt F)) (V m c main_v45) (V m c main_v57) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v59 (c : Dev nD) : V m c main_v59 = (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (V m c main_v56) (V m c main_v58) (V m c main_v45) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v60 (c : Dev nD) : V m c main_v60 = (broadcastInDim S8192x1 ![0] bcast_S8192_S8192x1_0 : (⟨S8192, .i32⟩ : BufTy).Contents (Elt F) → (⟨S8192x1, .i32⟩ : BufTy).Contents (Elt F)) (V m c main_v59) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v61 (c : Dev nD) : V m c main_v61 = ((fun x i u => Host.scatter scatter_S10240_S8192x1_S8192_n_0_0_1 (fun _ b => b) x i u) : (⟨S10240, .i32⟩ : BufTy).Contents (Elt F) → (⟨S8192x1, .i32⟩ : BufTy).Contents (Elt F) → (⟨S8192, .i32⟩ : BufTy).Contents (Elt F) → (⟨S10240, .i32⟩ : BufTy).Contents (Elt F)) (V m c main_v54) (V m c main_v60) (V m c main_v1) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_19 (c : Dev nD) : V m c main_c_19 = (constantI S_ 1 0#1) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v62 (c : Dev nD) : V m c main_v62 = (broadcastInDim S10240 ![] bcast_S_S10240 : (⟨S_, .i1⟩ : BufTy).Contents (Elt F) → (⟨S10240, .i1⟩ : BufTy).Contents (Elt F)) (V m c main_c_19) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_20 (c : Dev nD) : V m c main_c_20 = (constantI S_ 32 0#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v63 (c : Dev nD) : V m c main_v63 = (broadcastInDim S8192 ![] bcast_S_S8192 : (⟨S_, .i32⟩ : BufTy).Contents (Elt F) → (⟨S8192, .i32⟩ : BufTy).Contents (Elt F)) (V m c main_c_20) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v64 (c : Dev nD) : V m c main_v64 = (cmpi .slt : (⟨S8192, .i32⟩ : BufTy).Contents (Elt F) → (⟨S8192, .i32⟩ : BufTy).Contents (Elt F) → (⟨S8192, .i1⟩ : BufTy).Contents (Elt F)) (V m c main_v45) (V m c main_v63) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_21 (c : Dev nD) : V m c main_c_21 = (constantI S_ 32 10240#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v65 (c : Dev nD) : V m c main_v65 = (broadcastInDim S8192 ![] bcast_S_S8192 : (⟨S_, .i32⟩ : BufTy).Contents (Elt F) → (⟨S8192, .i32⟩ : BufTy).Contents (Elt F)) (V m c main_c_21) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v66 (c : Dev nD) : V m c main_v66 = (addi : (⟨S8192, .i32⟩ : BufTy).Contents (Elt F) → (⟨S8192, .i32⟩ : BufTy).Contents (Elt F) → (⟨S8192, .i32⟩ : BufTy).Contents (Elt F)) (V m c main_v45) (V m c main_v65) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v67 (c : Dev nD) : V m c main_v67 = (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) (V m c main_v64) (V m c main_v66) (V m c main_v45) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v68 (c : Dev nD) : V m c main_v68 = (broadcastInDim S8192x1 ![0] bcast_S8192_S8192x1_0 : (⟨S8192, .i32⟩ : BufTy).Contents (Elt F) → (⟨S8192x1, .i32⟩ : BufTy).Contents (Elt F)) (V m c main_v67) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_22 (c : Dev nD) : V m c main_c_22 = (constantI S_ 1 1#1) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v69 (c : Dev nD) : V m c main_v69 = (broadcastInDim S8192 ![] bcast_S_S8192 : (⟨S_, .i1⟩ : BufTy).Contents (Elt F) → (⟨S8192, .i1⟩ : BufTy).Contents (Elt F)) (V m c main_c_22) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v70 (c : Dev nD) : V m c main_v70 = ((fun x i u => Host.scatter scatter_S10240_S8192x1_S8192_n_0_0_1 (fun _ b => b) x i u) : (⟨S10240, .i1⟩ : BufTy).Contents (Elt F) → (⟨S8192x1, .i32⟩ : BufTy).Contents (Elt F) → (⟨S8192, .i1⟩ : BufTy).Contents (Elt F) → (⟨S10240, .i1⟩ : BufTy).Contents (Elt F)) (V m c main_v62) (V m c main_v68) (V m c main_v69) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v71 (c : Dev nD) : V m c main_v71 = ((truncf .bf16 · bitsLt_bf16_f32) : (⟨S8192x2048, .f32⟩ : BufTy).Contents (Elt F) → (⟨S8192x2048, .bf16⟩ : BufTy).Contents (Elt F)) (V m c main_arg0) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v72 (c : Dev nD) : V m c main_v72 = (broadcastInDim S10240x1 ![0] bcast_S10240_S10240x1_0 : (⟨S10240, .i1⟩ : BufTy).Contents (Elt F) → (⟨S10240x1, .i1⟩ : BufTy).Contents (Elt F)) (V m c main_v70) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_23 (c : Dev nD) : V m c main_c_23 = (constantI S_ 32 0#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v73 (c : Dev nD) : V m c main_v73 = (broadcastInDim S10240 ![] bcast_S_S10240 : (⟨S_, .i32⟩ : BufTy).Contents (Elt F) → (⟨S10240, .i32⟩ : BufTy).Contents (Elt F)) (V m c main_c_23) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v74 (c : Dev nD) : V m c main_v74 = (cmpi .slt : (⟨S10240, .i32⟩ : BufTy).Contents (Elt F) → (⟨S10240, .i32⟩ : BufTy).Contents (Elt F) → (⟨S10240, .i1⟩ : BufTy).Contents (Elt F)) (V m c main_v61) (V m c main_v73) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_c_24 (c : Dev nD) : V m c main_c_24 = (constantI S_ 32 8192#32) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v75 (c : Dev nD) : V m c main_v75 = (broadcastInDim S10240 ![] bcast_S_S10240 : (⟨S_, .i32⟩ : BufTy).Contents (Elt F) → (⟨S10240, .i32⟩ : BufTy).Contents (Elt F)) (V m c main_c_24) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v76 (c : Dev nD) : V m c main_v76 = (addi : (⟨S10240, .i32⟩ : BufTy).Contents (Elt F) → (⟨S10240, .i32⟩ : BufTy).Contents (Elt F) → (⟨S10240, .i32⟩ : BufTy).Contents (Elt F)) (V m c main_v61) (V m c main_v75) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v77 (c : Dev nD) : V m c main_v77 = (select : (⟨S10240, .i1⟩ : BufTy).Contents (Elt F) → (⟨S10240, .i32⟩ : BufTy).Contents (Elt F) → (⟨S10240, .i32⟩ : BufTy).Contents (Elt F) → (⟨S10240, .i32⟩ : BufTy).Contents (Elt F)) (V m c main_v74) (V m c main_v76) (V m c main_v61) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v78 (c : Dev nD) : V m c main_v78 = (broadcastInDim S10240x1 ![0] bcast_S10240_S10240x1_0 : (⟨S10240, .i32⟩ : BufTy).Contents (Elt F) → (⟨S10240x1, .i32⟩ : BufTy).Contents (Elt F)) (V m c main_v77) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_v79 (c : Dev nD) : V m c main_v79 = ((fun x i => Host.gather gather_S8192x2048_S10240x1_S10240x2048_1_0_n_n_0_1_12048 x i) : (⟨S8192x2048, .bf16⟩ : BufTy).Contents (Elt F) → (⟨S10240x1, .i32⟩ : BufTy).Contents (Elt F) → (⟨S10240x2048, .bf16⟩ : BufTy).Contents (Elt F)) (V m c main_v71) (V m c main_v78) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

theorem V_main_cst (c : Dev nD) : V m c main_cst = (constant S_ .bf16 0x0000#16) := by
  simp only [V, V0, prefixOps, List.flatten_cons, List.flatten_nil, List.append_nil, StableHlo.after_append]
  generalize StableHlo.after (hostOps0_8 (F := F)) _ = W
  simp only [hostOps0_9, hostOps0_10, hostOps0_11, hostOps0_12, hostOps0_13]
  after_results_simp
  all_goals rfl

end Cert.KernelIdeal.Hand

end
-- ==== Proof.LibHostRead.lean ====
/-
  Host operations read at an index, for any sizes.

  A gather of single entries out of a vector; an overwriting scatter into a vector (the last update in row-major
  order that lands on an entry is what stays there); an inclusive running sum written as a padded window
  reduction; a row sum of an integer matrix, and the count it gives on a widened mask; two vectors laid end to
  end, and a block of a vector at unit strides.
-/
import Idealize.ShloMosaic.PureOps.Ideal
import Idealize.ShloMosaic.PureOps.Reduce
import Idealize.ShloMosaic.Lib.ValueIdx
import Idealize.ShloMosaic.Lib.StableHlo.Predicate
import Idealize.ShloMosaic.Lib.Pipeline.Value
import Mathlib.Data.BitVec
import Mathlib.Algebra.BigOperators.Fin

noncomputable section

namespace Cert.HostRead

open Idealize.ShloMosaic Idealize.ShloMosaic.ValueIdx

/-! ## An overwriting scatter, read at an entry -/

section Fold
variable {s si u : Shape} {α : Type} {w : Nat} (d : ScatterDims s si u) (f : α → α → α) (idx : IVec si w) (upd : u.Idx → α)

/-- One step of the scatter: update number `n`, when it lands inside the operand, replaces the entry it lands on by
    the body applied to that entry and the update; an update that lands outside changes nothing. -/
private def step (r : s.Idx → α) (n : Fin u.numel) : s.Idx → α :=
  match d.resultIdx? (u.rowMajor.symm n) idx with
  | some i => fun i' => if i' = i then f (r i) (upd (u.rowMajor.symm n)) else r i'
  | none => r

/-- The scatter is the left fold of that step over the update numbers in row-major order. -/
private theorem scatter_eq_foldl (x : s.Idx → α) :
    Host.scatter d f x idx upd = (List.finRange u.numel).foldl (step d f idx upd) x := rfl

private theorem step_some (r : s.Idx → α) (n : Fin u.numel) (i : s.Idx)
    (h : d.resultIdx? (u.rowMajor.symm n) idx = some i) (i' : s.Idx) :
    step d f idx upd r n i' = if i' = i then f (r i) (upd (u.rowMajor.symm n)) else r i' := by
  unfold step
  rw [h]

private theorem step_none (r : s.Idx → α) (n : Fin u.numel) (h : d.resultIdx? (u.rowMajor.symm n) idx = none) :
    step d f idx upd r n = r := by
  unfold step
  rw [h]

/-- A step whose update does not land on `i` leaves entry `i` as it was. -/
private theorem step_miss (r : s.Idx → α) (n : Fin u.numel) (i : s.Idx)
    (h : d.resultIdx? (u.rowMajor.symm n) idx ≠ some i) : step d f idx upd r n i = r i := by
  cases hr : d.resultIdx? (u.rowMajor.symm n) idx with
  | none => rw [step_none d f idx upd r n hr]
  | some i0 =>
    rw [step_some d f idx upd r n i0 hr, if_neg]
    intro e
    exact h (hr.trans (congrArg some e.symm))

/-- Folding a list of updates none of which lands on `i` leaves entry `i` as it was. -/
theorem foldl_miss (L : List (Fin u.numel)) (r : s.Idx → α) (i : s.Idx)
    (h : ∀ n ∈ L, d.resultIdx? (u.rowMajor.symm n) idx ≠ some i) :
    L.foldl (step d f idx upd) r i = r i := by
  induction L generalizing r with
  | nil => rfl
  | cons n L ih =>
    rw [List.foldl_cons, ih _ (fun m hm => h m (List.mem_cons_of_mem _ hm)),
      step_miss d f idx upd r n i (h n List.mem_cons_self)]

/-- With the overwriting body, after folding a list of updates entry `i` holds the LAST update in the list that
    lands on `i`: update `n` lands on `i` and none after it does. -/
theorem foldl_last (L₁ L₂ : List (Fin u.numel)) (n : Fin u.numel) (r : s.Idx → α) (i : s.Idx)
    (hn : d.resultIdx? (u.rowMajor.symm n) idx = some i)
    (h₂ : ∀ m ∈ L₂, d.resultIdx? (u.rowMajor.symm m) idx ≠ some i) :
    (L₁ ++ n :: L₂).foldl (step d (fun _ b => b) idx upd) r i = upd (u.rowMajor.symm n) := by
  rw [List.foldl_append, List.foldl_cons, foldl_miss d _ idx upd L₂ _ i h₂, step_some d _ idx upd _ n i hn, if_pos rfl]

end Fold

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Overwriting entries of a vector of N by E updates (`x.at[idx].set(upd)`): where exactly one update's word is `p`,
    entry `p` is that update. -/
theorem scatter_set_vec_hit {α : Type} {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → α) (idx : (⟨2, ![E, 1]⟩ : Shape).Idx → BitVec 32)
    (upd : (⟨1, ![E]⟩ : Shape).Idx → α) (p : Fin N) (e : Fin E)
    (he : (idx (ix2 e 0)).toInt = (p.val : Int))
    (huniq : ∀ e' : Fin E, (idx (ix2 e' 0)).toInt = (p.val : Int) → e' = e) :
    Host.scatter d (fun _ b => b) x idx upd (ix1 p) = upd (ix1 e) := by
  rw [scatter_eq_foldl]
  -- the number of update e in row-major order, and the list of update numbers split around it
  let n₀ : Fin (⟨1, ![E]⟩ : Shape).numel := (⟨1, ![E]⟩ : Shape).rowMajor (ix1 e)
  have hback : (⟨1, ![E]⟩ : Shape).rowMajor.symm n₀ = ix1 e := Equiv.symm_apply_apply _ _
  obtain ⟨L₁, L₂, hL⟩ := List.append_of_mem (List.mem_finRange n₀)
  have hnd : (L₁ ++ n₀ :: L₂).Nodup := hL ▸ List.nodup_finRange _
  have hn₀ : n₀ ∉ L₂ := (List.nodup_cons.mp (List.nodup_append.mp hnd).2.1).1
  rw [hL, foldl_last d idx upd L₁ L₂ n₀ x (ix1 p), hback]
  · rw [hback]
    exact (vec_lands d h1 h2 h3 h4 idx (ix1 e) p).mpr he
  · -- an update after e that landed on p would be e again
    intro m hm hland
    have hw := (vec_lands d h1 h2 h3 h4 idx _ p).mp hland
    have hm0 : (⟨1, ![E]⟩ : Shape).rowMajor.symm m = ix1 e := (eq_ix1 _).trans (congrArg ix1 (huniq _ hw))
    have : m = n₀ := by rw [← Equiv.apply_symm_apply (⟨1, ![E]⟩ : Shape).rowMajor m, hm0]
    exact hn₀ (this ▸ hm)

/-- Where no update's word is `p`, entry `p` is the operand's. -/
theorem scatter_set_vec_miss {α : Type} {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → α) (idx : (⟨2, ![E, 1]⟩ : Shape).Idx → BitVec 32)
    (upd : (⟨1, ![E]⟩ : Shape).Idx → α) (p : Fin N)
    (hno : ∀ e : Fin E, (idx (ix2 e 0)).toInt ≠ (p.val : Int)) :
    Host.scatter d (fun _ b => b) x idx upd (ix1 p) = x (ix1 p) := by
  rw [scatter_eq_foldl]
  exact foldl_miss d _ idx upd _ x (ix1 p) fun m _ hland => hno _ ((vec_lands d h1 h2 h3 h4 idx _ p).mp hland)

/-! ## A gather of single entries out of a vector -/

section Gather
variable {N E : Nat} (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
include h1 h2 h3 h4 h5 h6 h7

/-- The slice's start on the operand's one axis is word `j 0`, read signed and clamped into `[0, N - 1]`. -/
private theorem gather_start (idx : (⟨2, ![E, 1]⟩ : Shape).Idx → BitVec 32) (j : (⟨1, ![E]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- No batching axes: no batching coordinate. -/
private theorem gather_batch (j : (⟨1, ![E]⟩ : Shape).Idx) (a : Fin 1) : d.batchCoord j a = 0 :=
  d.batchCoord_eq_zero j a (by rw [h3]; exact List.not_mem_nil)

/-- The operand's one axis is collapsed: no offset coordinate. -/
private theorem gather_off (j : (⟨1, ![E]⟩ : Shape).Idx) : d.offCoord j 0 = 0 :=
  d.offCoord_eq_zero j 0 fun h => ((d.mem_sKept 0).mp h).1 (by rw [h2]; exact List.mem_singleton.mpr rfl)

end Gather

/-- Gathering E entries out of a vector of N: entry e is the operand's entry n when word e, read signed, is n. -/
theorem gather_vec {α : Type} {N E : Nat} (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : (⟨2, ![E, 1]⟩ : Shape).Idx → BitVec 32) (e : Fin E) (n : Fin N)
    (hn : (idx (ix2 e 0)).toInt = (n.val : Int)) : Host.gather d x idx (ix1 e) = x (ix1 n) := by
  -- the clamped start is n (n is an entry of the operand), and nothing is added to it
  have f0 : d.start (ix1 e) idx 0 + d.batchCoord (ix1 e) 0 + d.offCoord (ix1 e) 0 = n.val := by
    rw [gather_start d h1 h2 h3 h4 h5 h6 h7, gather_batch d h1 h2 h3 h4 h5 h6 h7, gather_off d h1 h2 h3 h4 h5 h6 h7]
    show min (idx (ix2 e 0)).toInt.toNat (N - 1) + 0 + 0 = n.val
    rw [hn, Int.toNat_natCast]
    have := n.isLt
    omega
  unfold Host.gather
  congr 1
  funext a
  apply Fin.ext
  match a with
  | ⟨0, _⟩ => exact f0

/-! ## A row sum of an integer matrix, and the count it gives on a widened mask -/

/-- A set fold of word addition from zero is the sum. -/
private theorem fold_addi_eq_sum {ι : Type} (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

/-- Summing an [R, C] integer matrix along its columns, from 0: entry r is the sum of row r. -/
theorem reduce_rows_add {R C : Nat} (h : (⟨2, ![R, C]⟩ : Shape).ReducesTo [1] ⟨1, ![R]⟩) (hu : 0 < (⟨0, ![]⟩ : Shape).numel)
    (x : (⟨2, ![R, C]⟩ : Shape).Idx → BitVec 32) (z : (⟨0, ![]⟩ : Shape).Idx → BitVec 32) (hz : ∀ i, z i = 0#32) (r : Fin R) :
    Host.reduce IntOp.addi x z h hu (ix1 r) = ∑ c : Fin C, x (ix2 r c) := by
  rw [Host.reduce_eq_fold, hz, fold_addi_eq_sum]
  -- the indices that drop to r are row r's: (r, c) for each column c
  have hdrop : ∀ i : (⟨2, ![R, C]⟩ : Shape).Idx, h.drop i = ix1 r ↔ i 0 = r := by
    intro i
    have hv : (h.drop i 0 : Nat) = i 0 := Shape.ReducesTo.drop_apply_val h i 0
    constructor
    · intro e; rw [e] at hv; exact Fin.ext hv.symm
    · intro e; funext b; obtain rfl : b = 0 := Subsingleton.elim _ _; exact Fin.ext (by rw [hv, e]; rfl)
  refine Finset.sum_nbij' (fun i => i 1) (fun c => ix2 r c) ?_ ?_ ?_ ?_ ?_
  · intro i _; exact Finset.mem_univ _
  · intro c _; exact Finset.mem_filter.mpr ⟨Finset.mem_univ _, (hdrop _).mpr rfl⟩
  · intro i hi
    have h0 := (hdrop i).mp (Finset.mem_filter.mp hi).2
    exact (congrArg (fun a => ix2 a (i 1)) h0.symm).trans (eq_ix2 i).symm
  · intro c _; rfl
  · intro i hi
    have h0 := (hdrop i).mp (Finset.mem_filter.mp hi).2
    exact congrArg x ((eq_ix2 i).trans (congrArg (fun a => ix2 a (i 1)) h0))

/-- A row of widened mask bits sums, without wrapping, to the number of set bits in the row. -/
theorem sum_mask_toNat {R C : Nat} (hC : C < 2 ^ 32) (x : (⟨2, ![R, C]⟩ : Shape).Idx → BitVec 32)
    (mask : Fin R → Fin C → BitVec 1) (r : Fin R) (hx : ∀ c : Fin C, x (ix2 r c) = (mask r c).setWidth 32) :
    (∑ c : Fin C, x (ix2 r c)).toNat = (Finset.univ.filter fun c : Fin C => mask r c = 1#1).card := by
  have hval : ∀ c : Fin C, (x (ix2 r c)).toNat = if mask r c = 1#1 then 1 else 0 := fun c => by
    rw [hx]; exact StableHlo.Predicate.toNat_setWidth_bit _
  have hsum : ∑ c : Fin C, (x (ix2 r c)).toNat = (Finset.univ.filter fun c : Fin C => mask r c = 1#1).card := by
    rw [Finset.card_filter]
    exact Finset.sum_congr rfl fun c _ => hval c
  rw [← fold_addi_eq_sum, StableHlo.Predicate.toNat_fold_addi _ _ (by
    rw [hsum]; exact lt_of_le_of_lt (Finset.card_le_univ _) (by simpa using hC)), hsum]

/-! ## An inclusive running sum as a padded window reduction -/

/-- A left fold of word addition is the start plus the sum of the list. -/
private theorem foldl_addi_eq {ι : Type} (L : List ι) (g : ι → BitVec 32) (v : BitVec 32) :
    L.foldl (fun r n => IntOp.addi r (g n)) v = v + (L.map g).sum := by
  induction L generalizing v with
  | nil => exact (add_zero v).symm
  | cons n L ih =>
    rw [List.foldl_cons, ih, List.map_cons, List.sum_cons]
    show v + g n + _ = v + (g n + _)
    rw [add_assoc]

/-- A rank-1 index is its coordinate. -/
private def idxEquiv1 (n : Nat) : (⟨1, ![n]⟩ : Shape).Idx ≃ Fin n where
  toFun i := i 0
  invFun k := ix1 k
  left_inv i := (eq_ix1 i).symm
  right_inv _ := rfl

/-- A sum of entries kept where a condition holds, zero elsewhere, is the sum over the set where it holds. -/
private theorem sum_ite_zero {ι : Type} (S : Finset ι) (p : ι → Prop) [DecidablePred p] (f : ι → BitVec 32) :
    (∑ k ∈ S, if p k then f k else 0#32) = ∑ k ∈ S.filter p, f k :=
  (Finset.sum_filter p f).symm

/-- An inclusive running sum of E integers, written as a window of E at stride 1 over the vector padded E - 1 low:
    window j covers padded positions j … j + E - 1, whose positions E - 1 … j + E - 1 are the entries 0 … j, so
    entry j of the result is the sum of the entries up to j. -/
theorem cumsum_window {E : Nat} (h : (⟨1, ![E]⟩ : Shape).ReduceWindows (![E] : Fin 1 → Nat) ![1] ![E - 1] ![0] ⟨1, ![E]⟩)
    (hu : 0 < (⟨0, ![]⟩ : Shape).numel)
    (x : (⟨1, ![E]⟩ : Shape).Idx → BitVec 32) (z : (⟨0, ![]⟩ : Shape).Idx → BitVec 32) (hz : ∀ i, z i = 0#32) (j : Fin E) :
    Host.reduceWindow IntOp.addi ![E] ![1] ![E - 1] ![0] x z h hu (ix1 j)
      = ∑ a ∈ Finset.univ.filter (fun a : Fin E => a.val ≤ j.val), x (ix1 a) := by
  have hj := j.isLt
  -- the fold of additions from zero is the sum over the window's positions k = 0 … E - 1
  unfold Host.reduceWindow
  dsimp only
  rw [hz, foldl_addi_eq, BitVec.zero_add, ← Fin.sum_univ_def]
  rw [← Equiv.sum_comp ((⟨1, ![E]⟩ : Shape).rowMajor), ← Equiv.sum_comp (idxEquiv1 E).symm]
  simp only [Equiv.symm_apply_apply]
  -- position k reads entry j + k - (E - 1) when E - 1 ≤ j + k, and the padding, zero, below that
  refine (Finset.sum_congr rfl (g := fun k : Fin E =>
      if E - 1 ≤ j.val + k.val then x (ix1 ⟨min (j.val + k.val - (E - 1)) j.val, by omega⟩) else 0#32)
      fun k _ => ?_).trans ?_
  · have hk := k.isLt
    by_cases hc : E - 1 ≤ j.val + k.val
    · rw [if_pos hc, dif_pos]
      · congr 1
        funext a
        obtain rfl : a = 0 := Subsingleton.elim _ _
        apply Fin.ext
        show j.val * 1 + k.val - (E - 1) = min (j.val + k.val - (E - 1)) j.val
        omega
      · intro a
        obtain rfl : a = 0 := Subsingleton.elim _ _
        show E - 1 ≤ j.val * 1 + k.val ∧ j.val * 1 + k.val - (E - 1) < E
        omega
    · rw [if_neg hc]
      refine dif_neg fun hin => hc ?_
      have h0 := (hin 0).1
      change E - 1 ≤ j.val * 1 + k.val at h0
      omega
  · -- the positions that read an entry correspond one to one to the entries up to j
    rw [sum_ite_zero]
    refine Finset.sum_nbij' (fun k : Fin E => (⟨min (j.val + k.val - (E - 1)) j.val, by omega⟩ : Fin E))
      (fun a : Fin E => (⟨min (a.val + (E - 1) - j.val) (E - 1), by omega⟩ : Fin E)) ?_ ?_ ?_ ?_ ?_
    · intro k _
      exact Finset.mem_filter.mpr ⟨Finset.mem_univ _, Nat.min_le_right _ _⟩
    · intro a ha
      have ha' : a.val ≤ j.val := (Finset.mem_filter.mp ha).2
      refine Finset.mem_filter.mpr ⟨Finset.mem_univ _, ?_⟩
      show E - 1 ≤ j.val + min (a.val + (E - 1) - j.val) (E - 1)
      omega
    · intro k hk
      have hk' : E - 1 ≤ j.val + k.val := (Finset.mem_filter.mp hk).2
      have := k.isLt
      apply Fin.ext
      show min (min (j.val + k.val - (E - 1)) j.val + (E - 1) - j.val) (E - 1) = k.val
      omega
    · intro a ha
      have ha' : a.val ≤ j.val := (Finset.mem_filter.mp ha).2
      apply Fin.ext
      show min (j.val + min (a.val + (E - 1) - j.val) (E - 1) - (E - 1)) j.val = a.val
      omega
    · intro k _
      rfl

/-! ## Two vectors laid end to end, and a block of a vector -/

theorem concat_head {α : Type} {E : Nat} (a : (⟨1, ![1]⟩ : Shape).Idx → α) (b : (⟨1, ![E]⟩ : Shape).Idx → α)
    (h : Shape.Concatenates [(⟨1, ![1]⟩ : Shape), ⟨1, ![E]⟩] ⟨1, ![E + 1]⟩ 0) :
    concatenate ⟨1, ![E + 1]⟩ 0 [⟨⟨1, ![1]⟩, a⟩, ⟨⟨1, ![E]⟩, b⟩] h (ix1 0) = a (ix1 0) := by
  refine concatenate_pair_apply_left 0 a b h (ix1 0) rfl (ix1 0) ?_
  intro c
  obtain rfl : c = 0 := Subsingleton.elim _ _
  rfl

theorem concat_tail {α : Type} {E : Nat} (a : (⟨1, ![1]⟩ : Shape).Idx → α) (b : (⟨1, ![E]⟩ : Shape).Idx → α)
    (h : Shape.Concatenates [(⟨1, ![1]⟩ : Shape), ⟨1, ![E]⟩] ⟨1, ![E + 1]⟩ 0) (k : Fin E) :
    concatenate ⟨1, ![E + 1]⟩ 0 [⟨⟨1, ![1]⟩, a⟩, ⟨⟨1, ![E]⟩, b⟩] h (ix1 ⟨k.val + 1, Nat.succ_lt_succ k.isLt⟩) = b (ix1 k) := by
  refine concatenate_pair_apply_right 0 a b h _ rfl rfl (ix1 k) ?_ ?_
  · intro c hc
    exact absurd (Subsingleton.elim _ _) hc
  · rfl

/-- The block of K entries of a vector at offset o: entry k is the vector's entry o + k. -/
theorem slice_vec {α : Type} {M K : Nat} (o : Nat) (h : (⟨1, ![M]⟩ : Shape).Slices ![o] ⟨1, ![K]⟩)
    (x : (⟨1, ![M]⟩ : Shape).Idx → α) (k : Fin K) (hk : o + k.val < M) :
    extractStridedSlice ⟨1, ![K]⟩ ![o] x h (ix1 k) = x (ix1 ⟨o + k.val, hk⟩) := by
  unfold extractStridedSlice
  congr 1
  funext a
  match a with
  | ⟨0, _⟩ => rfl

end Cert.HostRead

end
-- ==== Proof.DecodeCounts.lean ====
/-
  The counts and offsets of the routing, read off the host operations.

  The launched indices are experts in [0, 8): the clip leaves them as they are; the row sums of the mask
  "token n has expert e" are the experts' counts; their running sums, after a leading zero, are the offsets;
  rounding each count up to a multiple of the tile 256 and summing again gives the padded counts and offsets.
-/
import proofs.«416672_j52793738003186_2_alg».proof.Proof.DecodeDefs
import proofs.«416672_j52793738003186_2_alg».proof.Proof.HostEqsA
import proofs.«416672_j52793738003186_2_alg».proof.Proof.HostEqsB
import proofs.«416672_j52793738003186_2_alg».proof.Proof.LibHostRead
import Idealize.ShloMosaic.Lib.Pipeline.Value
import Mathlib.Data.BitVec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

namespace Words

/-! ## Small words

Every number the routing computes is far below 2³¹, so a word holding it reads the same signed and unsigned, and
the words' sum, difference, product, order and quotient are the numbers'. -/

theorem toNat_ofNat_lt {k : Nat} (hk : k < 2 ^ 32) : (BitVec.ofNat 32 k).toNat = k := by
  rw [BitVec.toNat_ofNat]
  exact Nat.mod_eq_of_lt hk

theorem toInt_ofNat_lt {k : Nat} (hk : k < 2 ^ 31) : (BitVec.ofNat 32 k).toInt = (k : Int) := by
  rw [BitVec.toInt_eq_toNat_cond, toNat_ofNat_lt (by omega), if_pos (by omega)]

theorem msb_ofNat_lt {k : Nat} (hk : k < 2 ^ 31) : (BitVec.ofNat 32 k).msb = false := by
  rw [BitVec.msb_eq_decide, toNat_ofNat_lt (by omega)]
  exact decide_eq_false (by omega)

theorem ofNat_inj_lt {k l : Nat} (hk : k < 2 ^ 32) (hl : l < 2 ^ 32) : BitVec.ofNat 32 k = BitVec.ofNat 32 l ↔ k = l := by
  constructor
  · intro h
    have := congrArg BitVec.toNat h
    rwa [toNat_ofNat_lt hk, toNat_ofNat_lt hl] at this
  · rintro rfl; rfl

theorem ofNat_add_ofNat (k l : Nat) : BitVec.ofNat 32 k + BitVec.ofNat 32 l = BitVec.ofNat 32 (k + l) :=
  (BitVec.ofNat_add k l).symm

theorem ofNat_mul_ofNat (k l : Nat) : BitVec.ofNat 32 k * BitVec.ofNat 32 l = BitVec.ofNat 32 (k * l) :=
  (BitVec.ofNat_mul k l).symm

theorem ofNat_sub_ofNat {k l : Nat} (hk : k < 2 ^ 32) (hl : l ≤ k) :
    BitVec.ofNat 32 k - BitVec.ofNat 32 l = BitVec.ofNat 32 (k - l) := by
  apply BitVec.eq_of_toNat_eq
  rw [BitVec.toNat_sub, toNat_ofNat_lt hk, toNat_ofNat_lt (by omega), toNat_ofNat_lt (by omega)]
  omega

/-- A word that read signed lies in [0, 8) is that number below 8. -/
theorem toNat_lt_of_range (w : BitVec 32) (h0 : 0 ≤ w.toInt) (h8 : w.toInt < 8) : w.toNat < 8 := by
  have h := BitVec.toInt_eq_toNat_cond w
  have hlt := w.isLt
  by_cases hc : 2 * w.toNat < 2 ^ 32
  · rw [if_pos hc] at h; omega
  · rw [if_neg hc] at h; omega

theorem word_of_range (w : BitVec 32) (h0 : 0 ≤ w.toInt) (h8 : w.toInt < 8) : w = BitVec.ofNat 32 (w.toNat % 8) := by
  have := toNat_lt_of_range w h0 h8
  apply BitVec.eq_of_toNat_eq
  rw [toNat_ofNat_lt (by omega), Nat.mod_eq_of_lt this]

/-- Clipping into [0, 7] leaves a word already there as it is. -/
theorem clip_id (w : BitVec 32) (h0 : 0 ≤ w.toInt) (h8 : w.toInt < 8) :
    IntOp.minsi 7#32 (IntOp.maxsi 0#32 w) = w := by
  have h7 : (7#32 : BitVec 32).toInt = 7 := by decide
  have hz : (0#32 : BitVec 32).toInt = 0 := by decide
  have hmax : IntOp.maxsi 0#32 w = w := by
    unfold IntOp.maxsi
    rw [if_neg]
    simp only [BitVec.slt, hz, decide_eq_true_eq]
    omega
  rw [hmax]
  unfold IntOp.minsi
  rw [if_neg]
  simp only [BitVec.slt, h7, decide_eq_true_eq]
  omega

/-- The equality mask is set exactly when the words are equal. -/
theorem cmpi_eq_one_iff (x y : BitVec 32) : IntOp.cmpi .eq x y = 1#1 ↔ x = y := by
  show BitVec.ofBool (x == y) = 1#1 ↔ x = y
  by_cases h : x = y
  · subst h; simp
  · rw [beq_eq_false_iff_ne.mpr h]
    exact ⟨fun h1 => absurd h1 (by decide), fun h2 => absurd h2 h⟩

/-- The sign of a word, as the host computes it. -/
def sgn (w : BitVec 32) : BitVec 32 := if w = 0 then 0 else if w.msb then -1 else 1

theorem sgn_pos {k : Nat} (hk : k < 2 ^ 31) (h0 : 0 < k) : sgn (BitVec.ofNat 32 k) = 1 := by
  unfold sgn
  rw [if_neg, msb_ofNat_lt hk]
  · rfl
  · intro h
    have := congrArg BitVec.toNat h
    rw [toNat_ofNat_lt (by omega)] at this
    simp at this
    omega

/-- Rounding-down division by 256 as the host spells it (the quotient, less one when the signs differ and the
    remainder is not zero): on a positive dividend the signs agree and it is the numbers' quotient. -/
theorem floordiv_256 {k : Nat} (hk : k < 2 ^ 31) (h0 : 0 < k) :
    Scalar.select
        (IntOp.andi (IntOp.cmpi .ne (sgn (BitVec.ofNat 32 k)) (sgn 256#32))
          (IntOp.cmpi .ne (IntOp.remsi .host (BitVec.ofNat 32 k) 256#32) 0#32))
        (IntOp.subi (IntOp.divsi .host (BitVec.ofNat 32 k) 256#32) 1#32)
        (IntOp.divsi .host (BitVec.ofNat 32 k) 256#32)
      = BitVec.ofNat 32 (k / 256) := by
  have hs : sgn 256#32 = 1 := by decide
  have hne : IntOp.cmpi .ne (1 : BitVec 32) 1 = 0#1 := by decide
  rw [sgn_pos hk h0, hs, hne]
  have hand : ∀ b : BitVec 1, IntOp.andi 0#1 b = 0#1 := by decide
  rw [hand]
  show (if (0#1 : BitVec 1) = 1 then _ else _) = _
  rw [if_neg (by decide)]
  unfold IntOp.divsi
  rw [if_neg (fun hc : IntOp.SDivCorner (BitVec.ofNat 32 k) 256#32 => by
    rcases hc with hc | ⟨_, hc⟩ <;> exact absurd hc (by decide))]
  rw [BitVec.sdiv_eq, msb_ofNat_lt hk]
  have hm : (256#32 : BitVec 32).msb = false := by decide
  rw [hm]
  apply BitVec.eq_of_toNat_eq
  rw [BitVec.udiv_eq, BitVec.toNat_udiv, toNat_ofNat_lt (show k < 2 ^ 32 by omega),
    toNat_ofNat_lt (show k / 256 < 2 ^ 32 by omega)]
  rfl

/-- A sum of small numbers' words is the word of their sum. -/
theorem sum_ofNat {ι : Type} (S : Finset ι) (f : ι → Nat) :
    ∑ i ∈ S, BitVec.ofNat 32 (f i) = BitVec.ofNat 32 (∑ i ∈ S, f i) := by
  induction S using Finset.cons_induction with
  | empty => rfl
  | cons a S ha ih => rw [Finset.sum_cons, Finset.sum_cons, ih, ofNat_add_ofNat]

/-- Words that each hold a small number sum to the word of the numbers' sum. -/
theorem sum_words {ι : Type} (S : Finset ι) (x : ι → BitVec 32) (f : ι → Nat) (h : ∀ i, x i = BitVec.ofNat 32 (f i)) :
    ∑ i ∈ S, x i = BitVec.ofNat 32 (∑ i ∈ S, f i) := by
  rw [Finset.sum_congr rfl (fun i _ => h i), sum_ofNat]

/-- Summing over the positions up to k is summing over the numbers below k + 1. -/
theorem sum_fin_le {n : Nat} (k : Fin n) (g : Nat → Nat) :
    ∑ a ∈ Finset.univ.filter (fun a : Fin n => a.val ≤ k.val), g a.val = ∑ i ∈ Finset.range (k.val + 1), g i := by
  have hk := k.isLt
  refine Finset.sum_nbij' (fun a => a.val) (fun i => (⟨min i k.val, by omega⟩ : Fin n)) ?_ ?_ ?_ ?_ ?_
  · intro a ha
    have := (Finset.mem_filter.mp ha).2
    exact Finset.mem_range.mpr (by omega)
  · intro i _
    exact Finset.mem_filter.mpr ⟨Finset.mem_univ _, Nat.min_le_right _ _⟩
  · intro a ha
    have := (Finset.mem_filter.mp ha).2
    apply Fin.ext
    show min a.val k.val = a.val
    omega
  · intro i hi
    have := Finset.mem_range.mp hi
    show min i k.val = i
    omega
  · intro a _
    rfl

end Words

open Words

variable {F : FTy → Type} [FloatOps F] (m : (ℓ : Loc nD τ sig) → Buf (Elt F) ℓ) (c : Dev nD)

/-! ## The indices and the clip -/

/-- A launched index is the word of its expert. -/
theorem idx_word (hR : InRange m c) (n : Fin 8192) : idxArr m c (ix1 n) = BitVec.ofNat 32 (eidx m c n).val :=
  word_of_range _ (hR n).1 (hR n).2

/-- The key of token n is its index clipped into [0, 7]. -/
private theorem keys_read (n : Fin 8192) :
    keysArr m c (ix1 n) = IntOp.minsi 7#32 (IntOp.maxsi 0#32 (idxArr m c (ix1 n))) := by
  unfold keysArr idxArr
  rw [V_main_v0, V_main_call0_v4, V_main_call0_v3, V_main_c_0, V_main_call0_v2, V_main_call0_v1, V_main_call0_v0,
    V_main_c]
  rfl

/-- The clip is the identity on experts. -/
theorem keys_eq (hR : InRange m c) (n : Fin 8192) : keysArr m c (ix1 n) = idxArr m c (ix1 n) := by
  rw [keys_read, clip_id _ (hR n).1 (hR n).2]

/-! ## Counts -/

/-- The widened mask at (e, n): is token n's key the word of e. -/
private theorem mask_read (e : Fin 8) (n : Fin 8192) :
    V m c main_v15 (ix2 e n) = (IntOp.cmpi .eq (keysArr m c (ix1 n)) (BitVec.ofNat 32 e.val)).setWidth 32 := by
  have h12 : V m c main_v12 (ix2 e n) = keysArr m c (ix1 n) := by
    rw [V_main_v12]
    rw [broadcastInDim_apply _ _ _ (ix2 e n) (ix2 0 n) (fun a => by match a with | ⟨0, _⟩ => rfl | ⟨1, _⟩ => rfl)]
    rw [V_main_v10]
    rw [broadcastInDim_apply _ _ _ (ix2 0 n) (ix1 n) (fun a => by match a with | ⟨0, _⟩ => rfl)]
    rfl
  have h13 : V m c main_v13 (ix2 e n) = BitVec.ofNat 32 e.val := by
    rw [V_main_v13]
    rw [broadcastInDim_apply _ _ _ (ix2 e n) (ix2 e 0) (fun a => by match a with | ⟨0, _⟩ => rfl | ⟨1, _⟩ => rfl)]
    rw [V_main_v11]
    rw [broadcastInDim_apply _ _ _ (ix2 e 0) (ix1 e) (fun a => by match a with | ⟨0, _⟩ => rfl)]
    rw [V_main_v9]
    rfl
  rw [V_main_v15, V_main_v14]
  show (IntOp.cmpi .eq (V m c main_v12 (ix2 e n)) (V m c main_v13 (ix2 e n))).setWidth 32 = _
  rw [h12, h13]

/-- Expert e's count, as the row sum of the mask. -/
theorem cnt_word (hR : InRange m c) (e : Fin 8) :
    V m c main_v16 (ix1 e) = BitVec.ofNat 32 (Cert.Route.cnt (eidx m c) e.val) := by
  have he := e.isLt
  rw [V_main_v16]
  show Host.reduce IntOp.addi (V m c main_v15) (V m c main_c_3) reducesTo_S8x8192_S8_d1 h_S_ (ix1 e) = _
  rw [Cert.HostRead.reduce_rows_add reducesTo_S8x8192_S8_d1 h_S_ (V m c main_v15) (V m c main_c_3)
    (fun i => by rw [V_main_c_3]; rfl) e]
  apply BitVec.eq_of_toNat_eq
  rw [Cert.HostRead.sum_mask_toNat (by decide) (V m c main_v15)
    (fun e n => IntOp.cmpi .eq (keysArr m c (ix1 n)) (BitVec.ofNat 32 e.val)) e (fun n => mask_read m c e n)]
  rw [toNat_ofNat_lt (lt_of_le_of_lt (Cert.Route.cnt_le _ _) (by decide))]
  unfold Cert.Route.cnt
  refine congrArg Finset.card (Finset.filter_congr fun n _ => ?_)
  have hn := (eidx m c n).isLt
  rw [cmpi_eq_one_iff, keys_eq m c hR, idx_word m c hR, ofNat_inj_lt (by omega) (by omega)]

/-! ## Offsets: a leading zero, then the running sums -/

/-- The leading entry is zero. -/
private theorem v17_read (i : S1.Idx) : V m c main_v17 i = 0#32 := by
  rw [V_main_v17, V_main_c_4]
  rfl

/-- Expert e's offset: the number of tokens of experts below e. -/
theorem uoff_word (hR : InRange m c) (e : Fin 9) :
    V m c main_v19 (ix1 e) = BitVec.ofNat 32 (Cert.Route.uoff (eidx m c) e.val) := by
  rw [V_main_v19]
  show concatenate S9 0 [⟨S1, V m c main_v17⟩, ⟨S8, V m c main_v18⟩] concatenates_S1_S8_S9_d0 (ix1 e) = _
  obtain ⟨e, he⟩ := e
  cases e with
  | zero =>
    rw [show (ix1 (⟨0, he⟩ : Fin 9) : S9.Idx) = ix1 0 from rfl,
      Cert.HostRead.concat_head (E := 8) (V m c main_v17) (V m c main_v18) concatenates_S1_S8_S9_d0, v17_read]
    show 0#32 = BitVec.ofNat 32 (Cert.Route.uoff (eidx m c) 0)
    rw [Cert.Route.uoff, Finset.sum_range_zero]
  | succ k =>
    have hk : k < 8 := by omega
    rw [show (ix1 (⟨k + 1, he⟩ : Fin 9) : S9.Idx) = ix1 ⟨(⟨k, hk⟩ : Fin 8).val + 1, Nat.succ_lt_succ hk⟩ from rfl,
      Cert.HostRead.concat_tail (E := 8) (V m c main_v17) (V m c main_v18) concatenates_S1_S8_S9_d0 ⟨k, hk⟩]
    rw [V_main_v18]
    show Host.reduceWindow IntOp.addi ![8] ![1] ![7] ![0] (V m c main_v16) (V m c main_call2_call0_v0)
      reduceWindows_S8_S8_w8s1p7_0 h_S_ (ix1 ⟨k, hk⟩) = _
    rw [Cert.HostRead.cumsum_window (E := 8) reduceWindows_S8_S8_w8s1p7_0 h_S_ (V m c main_v16)
      (V m c main_call2_call0_v0) (fun i => by rw [V_main_call2_call0_v0, V_main_call2_call0_c]; rfl) ⟨k, hk⟩]
    rw [sum_words _ (fun a : Fin 8 => V m c main_v16 (ix1 a)) (fun a => Cert.Route.cnt (eidx m c) a.val)
        (fun a => cnt_word m c hR a),
      sum_fin_le (⟨k, hk⟩ : Fin 8) (Cert.Route.cnt (eidx m c))]
    show _ = BitVec.ofNat 32 (Cert.Route.uoff (eidx m c) (k + 1))
    rw [Cert.Route.uoff]

/-! ## Padded counts: each count rounded up to a multiple of 256 -/

/-- The padded count as the host spells it: (count + 256 - 1) divided by 256 rounding down, times 256. -/
private theorem v26_read (e : Fin 8) :
    V m c main_v26 (ix1 e)
      = IntOp.muli
          (Scalar.select
            (IntOp.andi
              (IntOp.cmpi .ne (sgn (IntOp.subi (IntOp.addi (V m c main_v16 (ix1 e)) 256#32) 1#32)) (sgn 256#32))
              (IntOp.cmpi .ne (IntOp.remsi .host (IntOp.subi (IntOp.addi (V m c main_v16 (ix1 e)) 256#32) 1#32) 256#32) 0#32))
            (IntOp.subi (IntOp.divsi .host (IntOp.subi (IntOp.addi (V m c main_v16 (ix1 e)) 256#32) 1#32) 256#32) 1#32)
            (IntOp.divsi .host (IntOp.subi (IntOp.addi (V m c main_v16 (ix1 e)) 256#32) 1#32) 256#32))
          256#32 := by
  rw [V_main_v26, V_main_v25, V_main_c_8, V_main_v24, V_main_call3_v11, V_main_call3_v6, V_main_call3_v3,
    V_main_call3_v5, V_main_call3_v4, V_main_call3_v10, V_main_call3_v8, V_main_call3_v7, V_main_call3_v9,
    V_main_call3_c, V_main_call3_v13, V_main_call3_v12, V_main_call3_c_0, V_main_call3_v2, V_main_call3_v1,
    V_main_call3_v0, V_main_c_7, V_main_v23, V_main_v22, V_main_c_6, V_main_v21, V_main_v20, V_main_c_5]
  rfl

theorem pcnt_word (hR : InRange m c) (e : Fin 8) :
    V m c main_v26 (ix1 e) = BitVec.ofNat 32 (Cert.Route.pcnt 256 (eidx m c) e.val) := by
  have hc : Cert.Route.cnt (eidx m c) e.val ≤ 8192 := Cert.Route.cnt_le _ _
  rw [v26_read, cnt_word m c hR e]
  have hX : IntOp.subi (IntOp.addi (BitVec.ofNat 32 (Cert.Route.cnt (eidx m c) e.val)) 256#32) 1#32
      = BitVec.ofNat 32 (Cert.Route.cnt (eidx m c) e.val + 255) := by
    show BitVec.ofNat 32 _ + BitVec.ofNat 32 256 - BitVec.ofNat 32 1 = _
    rw [ofNat_add_ofNat, ofNat_sub_ofNat (by omega) (by omega)]
    exact congrArg (BitVec.ofNat 32) (by omega)
  rw [hX, floordiv_256 (by omega) (by omega)]
  show BitVec.ofNat 32 _ * BitVec.ofNat 32 256 = _
  rw [ofNat_mul_ofNat, Cert.Route.pcnt]

/-! ## Padded offsets -/

theorem poff_word (hR : InRange m c) (e : Fin 9) :
    V m c main_v28 (ix1 e) = BitVec.ofNat 32 (Cert.Route.poff 256 (eidx m c) e.val) := by
  rw [V_main_v28]
  show concatenate S9 0 [⟨S1, V m c main_v17⟩, ⟨S8, V m c main_v27⟩] concatenates_S1_S8_S9_d0 (ix1 e) = _
  obtain ⟨e, he⟩ := e
  cases e with
  | zero =>
    rw [show (ix1 (⟨0, he⟩ : Fin 9) : S9.Idx) = ix1 0 from rfl,
      Cert.HostRead.concat_head (E := 8) (V m c main_v17) (V m c main_v27) concatenates_S1_S8_S9_d0, v17_read]
    show 0#32 = BitVec.ofNat 32 (Cert.Route.poff 256 (eidx m c) 0)
    rw [Cert.Route.poff, Finset.sum_range_zero]
  | succ k =>
    have hk : k < 8 := by omega
    rw [show (ix1 (⟨k + 1, he⟩ : Fin 9) : S9.Idx) = ix1 ⟨(⟨k, hk⟩ : Fin 8).val + 1, Nat.succ_lt_succ hk⟩ from rfl,
      Cert.HostRead.concat_tail (E := 8) (V m c main_v17) (V m c main_v27) concatenates_S1_S8_S9_d0 ⟨k, hk⟩]
    rw [V_main_v27]
    show Host.reduceWindow IntOp.addi ![8] ![1] ![7] ![0] (V m c main_v26) (V m c main_call4_call0_v0)
      reduceWindows_S8_S8_w8s1p7_0 h_S_ (ix1 ⟨k, hk⟩) = _
    rw [Cert.HostRead.cumsum_window (E := 8) reduceWindows_S8_S8_w8s1p7_0 h_S_ (V m c main_v26)
      (V m c main_call4_call0_v0) (fun i => by rw [V_main_call4_call0_v0, V_main_call4_call0_c]; rfl) ⟨k, hk⟩]
    rw [sum_words _ (fun a : Fin 8 => V m c main_v26 (ix1 a)) (fun a => Cert.Route.pcnt 256 (eidx m c) a.val)
        (fun a => pcnt_word m c hR a),
      sum_fin_le (⟨k, hk⟩ : Fin 8) (Cert.Route.pcnt 256 (eidx m c))]
    show _ = BitVec.ofNat 32 (Cert.Route.poff 256 (eidx m c) (k + 1))
    rw [Cert.Route.poff]

end Cert.KernelIdeal.Hand

end
-- ==== Proof.DecodeSort.lean ====
/-
  The sorting stage of the routing, read off the host operations: the argsort's second result is the sorting
  permutation as words, the permutation lists the tokens in nondecreasing order of expert, the keys gathered through
  it are the experts in sorted order, and the destination row of each sorted position is the padded offset of its
  expert plus its rank inside the expert's run.
-/
import proofs.«416672_j52793738003186_2_alg».proof.Proof.DecodeDefs
import proofs.«416672_j52793738003186_2_alg».proof.Proof.HostEqsA
import proofs.«416672_j52793738003186_2_alg».proof.Proof.HostEqsB
import proofs.«416672_j52793738003186_2_alg».proof.Proof.LibHostRead
import Idealize.ShloMosaic.Lib.Pipeline.Value
import Idealize.ShloMosaic.Lib.IdealHost
import Mathlib.Data.BitVec

set_option maxRecDepth 16384
set_option maxHeartbeats 4000000

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F] (m : (ℓ : Loc nD τ sig) → Buf (Elt F) ℓ) (c : Dev nD)

/-! ## Small words -/

/-- A small number's word, read signed, is the number. -/
theorem toInt_ofNat_small {k : ℕ} (h : k < 2 ^ 31) : (BitVec.ofNat 32 k).toInt = (k : Int) := by
  rw [BitVec.toInt_eq_toNat_cond, BitVec.toNat_ofNat, Nat.mod_eq_of_lt (by omega), if_pos (by omega)]

/-- Word subtraction of a smaller number's word from a larger one's does not wrap. -/
theorem ofNat_sub_small {k l : ℕ} (h : l ≤ k) : BitVec.ofNat 32 k - BitVec.ofNat 32 l = BitVec.ofNat 32 (k - l) := by
  rw [sub_eq_iff_eq_add, ← BitVec.ofNat_add, Nat.sub_add_cancel h]

/-- The fix-up of a negative index (add the length where the word is negative) leaves a word that is not negative
    as it is. -/
theorem fixup_nonneg (x y : BitVec 32) (h : 0 ≤ x.toInt) :
    Scalar.select (IntOp.cmpi .slt x 0#32) (IntOp.addi x y) x = x := by
  have h0 : IntOp.cmpi .slt x 0#32 = 0#1 := by
    have : x.slt 0#32 = false := by
      simp only [BitVec.slt, BitVec.toInt_zero, decide_eq_false_iff_not, not_lt]; exact h
    simp only [IntOp.cmpi, this]; rfl
  rw [h0]; rfl

/-! ## Host operations at an index -/

/-- A vector laid as a column reads, at row `i`, the vector's entry `i`. -/
theorem bcast_col (x : IVec S8192 32) (i : Fin 8192) :
    broadcastInDim S8192x1 ![0] bcast_S8192_S8192x1_0 x (ix2 i 0) = x (ix1 i) :=
  broadcastInDim_apply _ _ x (ix2 i 0) (ix1 i) fun a => by
    match a with
    | ⟨0, _⟩ => rfl

/-- The fix-up of negative indices on a vector, at an entry that is not negative. -/
theorem fixup_vec (x z y : IVec S8192 32) (i : Fin 8192) (hz : z (ix1 i) = 0#32) (hx : 0 ≤ (x (ix1 i)).toInt) :
    select (cmpi .slt x z) (addi x y) x (ix1 i) = x (ix1 i) := by
  show Scalar.select (IntOp.cmpi .slt (x (ix1 i)) (z (ix1 i))) (IntOp.addi (x (ix1 i)) (y (ix1 i))) (x (ix1 i)) = _
  rw [hz]
  exact fixup_nonneg _ _ hx

/-! ## The sorting permutation -/

/-- The argsort's second result is the sorting permutation, as words. -/
theorem v1_word (i : Fin 8192) : V m c main_v1 (ix1 i) = BitVec.ofNat 32 (sperm m c i).val := by
  rw [V_main_v1, V_main_call1_v0]
  show (Host.sort2 S8192 0 comparator_i32_i32_d0 (V m c main_v0) (iotaInDim S8192 32 0)).2 (ix1 i) = _
  have hc : comparator_i32_i32_d0 = Cert.Argsort.cmp := Cert.Argsort.cmp_eq
  rw [hc]
  exact Cert.Argsort.sort2_snd (keysArr m c) i

/-- A key, read signed, is the expert of its token. -/
theorem key_toInt (hK : ∀ n : Fin 8192, keysArr m c (ix1 n) = idxArr m c (ix1 n))
    (hI : ∀ n : Fin 8192, idxArr m c (ix1 n) = BitVec.ofNat 32 (eidx m c n).val) (n : Fin 8192) :
    (keysArr m c (ix1 n)).toInt = ((eidx m c n).val : Int) := by
  rw [hK, hI]
  exact toInt_ofNat_small (by have := (eidx m c n).isLt; omega)

/-- The sorting permutation lists the tokens in nondecreasing order of expert. -/
theorem sperm_sorted (hK : ∀ n : Fin 8192, keysArr m c (ix1 n) = idxArr m c (ix1 n))
    (hI : ∀ n : Fin 8192, idxArr m c (ix1 n) = BitVec.ofNat 32 (eidx m c n).val) :
    Cert.Route.SortedPerm (eidx m c) (sperm m c) := by
  refine ⟨Cert.Argsort.perm_bijective (keysArr m c), fun i j hij => ?_⟩
  have h := Cert.Argsort.perm_sorted (keysArr m c) i j hij
  rw [key_toInt m c hK hI, key_toInt m c hK hI] at h
  exact_mod_cast h

/-- The sorting permutation's word, with the fix-up of negative indices applied, is still the permutation's. -/
theorem v6_word (i : Fin 8192) : V m c main_v6 (ix1 i) = BitVec.ofNat 32 (sperm m c i).val := by
  have z2 : V m c main_v2 (ix1 i) = 0#32 := by
    rw [V_main_v2, V_main_c_1]; exact broadcastInDim_scalar_apply _ _ _
  rw [V_main_v6, V_main_v3, V_main_v5]
  refine (fixup_vec _ _ _ i z2 ?_).trans (v1_word m c i)
  rw [v1_word, toInt_ofNat_small (by have := (sperm m c i).isLt; omega)]
  exact Int.natCast_nonneg _

/-- The keys gathered through the sorting permutation: the experts in sorted order. -/
theorem v8_word (hK : ∀ n : Fin 8192, keysArr m c (ix1 n) = idxArr m c (ix1 n))
    (hI : ∀ n : Fin 8192, idxArr m c (ix1 n) = BitVec.ofNat 32 (eidx m c n).val) (i : Fin 8192) :
    V m c main_v8 (ix1 i) = BitVec.ofNat 32 (eidx m c (sperm m c i)).val := by
  rw [V_main_v8]
  show Host.gather gather_S8192_S8192x1_S8192_n_0_n_n_0_1_1 (V m c main_v0) (V m c main_v7) (ix1 i) = _
  rw [Cert.HostRead.gather_vec gather_S8192_S8192x1_S8192_n_0_n_n_0_1_1 rfl rfl rfl rfl rfl rfl rfl
    (V m c main_v0) (V m c main_v7) i (sperm m c i) ?_]
  · exact (hK _).trans (hI _)
  · rw [V_main_v7, bcast_col, v6_word]
    exact toInt_ofNat_small (by have := (sperm m c i).isLt; omega)

/-! ## Destination rows -/

/-- The destination row of sorted position `i`: its expert's padded offset plus its rank inside the expert's run. -/
theorem v45_word (hR : InRange m c) (hK : ∀ n : Fin 8192, keysArr m c (ix1 n) = idxArr m c (ix1 n))
    (hI : ∀ n : Fin 8192, idxArr m c (ix1 n) = BitVec.ofNat 32 (eidx m c n).val)
    (hU : ∀ e : Fin 9, V m c main_v19 (ix1 e) = BitVec.ofNat 32 (Cert.Route.uoff (eidx m c) e.val))
    (hP : ∀ e : Fin 9, V m c main_v28 (ix1 e) = BitVec.ofNat 32 (Cert.Route.poff 256 (eidx m c) e.val))
    (i : Fin 8192) :
    V m c main_v45 (ix1 i) = BitVec.ofNat 32 (Cert.Route.dest 256 (eidx m c) (sperm m c) i) := by
  have hπ := sperm_sorted m c hK hI
  have he8 : (eidx m c (sperm m c i)).val < 8 := (eidx m c (sperm m c i)).isLt
  have hv8 := v8_word m c hK hI i
  have hv8i : (V m c main_v8 (ix1 i)).toInt = ((eidx m c (sperm m c i)).val : Int) := by
    rw [hv8]; exact toInt_ofNat_small (by omega)
  have hv8n : 0 ≤ (V m c main_v8 (ix1 i)).toInt := by rw [hv8i]; exact Int.natCast_nonneg _
  -- the two fix-ups of the gather indices change nothing
  have z30 : V m c main_v30 (ix1 i) = 0#32 := by
    rw [V_main_v30, V_main_c_9]; exact broadcastInDim_scalar_apply _ _ _
  have z38 : V m c main_v38 (ix1 i) = 0#32 := by
    rw [V_main_v38, V_main_c_11]; exact broadcastInDim_scalar_apply _ _ _
  have f34 : V m c main_v34 (ix1 i) = V m c main_v8 (ix1 i) := by
    rw [V_main_v34, V_main_v31, V_main_v33]; exact fixup_vec _ _ _ i z30 hv8n
  have f42 : V m c main_v42 (ix1 i) = V m c main_v8 (ix1 i) := by
    rw [V_main_v42, V_main_v39, V_main_v41]; exact fixup_vec _ _ _ i z38 hv8n
  -- the two gathers read the offset tables at the expert
  have g36 : V m c main_v36 (ix1 i) = BitVec.ofNat 32 (Cert.Route.uoff (eidx m c) (eidx m c (sperm m c i)).val) := by
    rw [V_main_v36]
    show Host.gather gather_S9_S8192x1_S8192_n_0_n_n_0_1_1 (V m c main_v19) (V m c main_v35) (ix1 i) = _
    rw [Cert.HostRead.gather_vec gather_S9_S8192x1_S8192_n_0_n_n_0_1_1 rfl rfl rfl rfl rfl rfl rfl
      (V m c main_v19) (V m c main_v35) i ⟨(eidx m c (sperm m c i)).val, by omega⟩ ?_]
    · exact hU _
    · rw [V_main_v35, bcast_col, f34]; exact hv8i
  have g44 : V m c main_v44 (ix1 i) = BitVec.ofNat 32 (Cert.Route.poff 256 (eidx m c) (eidx m c (sperm m c i)).val) := by
    rw [V_main_v44]
    show Host.gather gather_S9_S8192x1_S8192_n_0_n_n_0_1_1 (V m c main_v28) (V m c main_v43) (ix1 i) = _
    rw [Cert.HostRead.gather_vec gather_S9_S8192x1_S8192_n_0_n_n_0_1_1 rfl rfl rfl rfl rfl rfl rfl
      (V m c main_v28) (V m c main_v43) i ⟨(eidx m c (sperm m c i)).val, by omega⟩ ?_]
    · exact hP _
    · rw [V_main_v43, bcast_col, f42]; exact hv8i
  -- the sum: the rank subtraction does not wrap, the position being at or after its expert's run's start
  rw [V_main_v45, V_main_v37, V_main_v29]
  show IntOp.addi (V m c main_v44 (ix1 i)) (IntOp.subi (iotaInDim S8192 32 0 (ix1 i)) (V m c main_v36 (ix1 i))) = _
  rw [g44, g36]
  show BitVec.ofNat 32 _ + (BitVec.ofNat 32 i.val - BitVec.ofNat 32 _) = _
  rw [ofNat_sub_small (Cert.Route.rank_lo hπ i), ← BitVec.ofNat_add]
  rfl

end Cert.KernelIdeal.Hand

end
-- ==== Proof.LibIndexRead.lean ====
/-
  An accumulating scatter and a row gather, read at an index.

  For the dimension numbers jnp's `x.at[idx].add(u)`, `segment_sum` and `x[idx]` print along axis 0 — the index
  vector an [E, 1] column of words, one word per update or per gathered row —, the update e lands on row p exactly
  when word e, read signed, is p, and the gathered row e is the operand's row named by word e when that word
  is a row of the operand.
-/
import Idealize.ShloMosaic.PureOps.Ideal
import Idealize.ShloMosaic.Lib.ValueIdx

noncomputable section

namespace Cert.Sage.IndexRead

open Idealize.ShloMosaic Idealize.ShloMosaic.ValueIdx

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Accumulating a vector of E updates into a vector of N entries: entry p is what it was plus the updates whose
    word is p. -/
theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1
  -- the update indices are the words' positions
  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

/-- The start of update `j` on the operand's row axis is word `j 0`, read signed. -/
private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The column axis is not a scattered one: its start is 0. -/
private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

/-- The row axis is inserted: no window coordinate. -/
private theorem rows_window0 (j : (⟨2, ![E, D]⟩ : Shape).Idx) : d.window j 0 = 0 := by
  obtain ⟨uw, iw, sd, iv, wf⟩ := d
  simp only at h1 h2 h3 h4
  subst h1 h2 h3 h4
  rfl

/-- The window coordinate on the column axis is the update's column. -/
private theorem rows_window1 (j : (⟨2, ![E, D]⟩ : Shape).Idx) : d.window j 1 = (j 1).val := by
  obtain ⟨uw, iw, sd, iv, wf⟩ := d
  simp only at h1 h2 h3 h4
  subst h1 h2 h3 h4
  rfl

/-- Update `j` lands on entry `(p, q)` exactly when word `j 0`, read signed, is `p` and its column is `q`. -/
private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

/-- Accumulating E rows of D entries into an N x D matrix: entry (p, q) is what it was plus entry q of the rows
    whose word is p. -/
theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1
  -- the update indices that land in column q are the rows' positions, at column q
  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

/-- The slice's start on the row axis is word `j 0`, read signed and clamped into `[0, N - 1]`. -/
private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- The column axis is not in the start index map: its start is 0. -/
private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

/-- No batching axes: no batching coordinate. -/
private theorem gather_batch (j : (⟨2, ![E, D]⟩ : Shape).Idx) (a : Fin 2) : d.batchCoord j a = 0 :=
  d.batchCoord_eq_zero j a (by rw [h3]; exact List.not_mem_nil)

/-- The row axis is collapsed: no offset coordinate. -/
private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

/-- The offset coordinate on the column axis is the result's column. -/
private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

/-- Gathering E rows out of an N x D matrix: row e is the operand's row n when word e, read signed, is n. -/
theorem gather_rows {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (n : Fin N) (hn : (idx (ix2 e 0)).toInt = (n.val : Int)) :
    Host.gather d x idx (ix2 e q) = x (ix2 n q) := by
  -- row axis: the clamped start is n (n is a row of the operand), nothing else is added
  have f0 : d.start (ix2 e q) idx 0 + d.batchCoord (ix2 e q) 0 + d.offCoord (ix2 e q) 0 = n.val := by
    rw [gather_start0 d h1 h2 h3 h4 h5 h6 h7, gather_batch d h1 h2 h3 h4 h5 h6 h7, gather_off0 d h1 h2 h3 h4 h5 h6 h7]
    show min (idx (ix2 e 0)).toInt.toNat (N - 1) + 0 + 0 = n.val
    rw [hn, Int.toNat_natCast]
    have := n.isLt
    omega
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.DecodeTables.lean ====
/-
  The routing tables and the padded rows, read at the places the routing names.

  The host lays the tokens out by expert: sorted position i holds token π i, of expert s, and its padded row is
  d i = poff s + (i - uoff s).  Three overwriting scatters record this (token → row, row → token, row → "holds a
  token"); distinct positions hold distinct tokens and go to distinct rows, so each written entry holds exactly
  the one update aimed at it.  The padded activations gather row d i from token π i.  Per tile t of 256 rows the
  host counts the experts whose rows end at or before row 256 t, which for the tile holding row d i is the
  expert s itself, and marks the tile as used when 256 t lies below the padded total.  All numbers stay far
  below 2³¹, so signed and unsigned readings of the words agree and the negative-index fix-ups (add the axis length to
  a word that reads negative) never fire.
-/
import proofs.«416672_j52793738003186_2_alg».proof.Proof.DecodeDefs
import proofs.«416672_j52793738003186_2_alg».proof.Proof.HostEqsB
import proofs.«416672_j52793738003186_2_alg».proof.Proof.HostEqsC
import proofs.«416672_j52793738003186_2_alg».proof.Proof.LibHostRead
import proofs.«416672_j52793738003186_2_alg».proof.Proof.LibIndexRead
import proofs.«416672_j52793738003186_2_alg».proof.Proof.TidBound
import Idealize.ShloMosaic.Lib.ValueIdx
import Idealize.ShloMosaic.Lib.StableHlo.Predicate
import Idealize.ShloMosaic.Lib.Pipeline.Value

set_option maxRecDepth 16384
set_option maxHeartbeats 4000000

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F] (m : (ℓ : Loc nD τ sig) → Buf (Elt F) ℓ) (c : Dev nD)

/-! ## Small words -/

/-- A number below 2³² is the value of its word. -/
theorem toNat_ofNat_lt (k : ℕ) (hk : k < 2 ^ 32) : (BitVec.ofNat 32 k).toNat = k := by
  rw [BitVec.toNat_ofNat]
  exact Nat.mod_eq_of_lt hk

/-- A word is the word of its value. -/
theorem eq_ofNat_of_toNat {x : BitVec 32} {k : ℕ} (h : x.toNat = k) : x = BitVec.ofNat 32 k := by
  apply BitVec.eq_of_toNat_eq
  rw [h, BitVec.toNat_ofNat]
  exact (Nat.mod_eq_of_lt (h ▸ x.isLt)).symm

/-- The negative-index fix-up (add the axis length where the word reads negative) leaves a small word alone. -/
theorem fixup_small (k : ℕ) (hk : k < 2 ^ 31) (n : BitVec 32) :
    Scalar.select (IntOp.cmpi .slt (BitVec.ofNat 32 k) 0#32) (IntOp.addi (BitVec.ofNat 32 k) n) (BitVec.ofNat 32 k)
      = BitVec.ofNat 32 k := by
  have h0 : IntOp.cmpi .slt (BitVec.ofNat 32 k) 0#32 ≠ 1#1 := by
    intro h
    have := (StableHlo.Predicate.slt_iff_toNat (a := BitVec.ofNat 32 k) (b := 0#32)
      (by rw [toNat_ofNat_lt k (by omega)]; exact hk) (by decide)).mp h
    exact absurd this (Nat.not_lt_zero _)
  exact if_neg h0

/-- The clip into [0, 7] is the identity on a word already there. -/
theorem clip7_id (k : ℕ) (hk : k < 8) : IntOp.minsi 7#32 (IntOp.maxsi 0#32 (BitVec.ofNat 32 k)) = BitVec.ofNat 32 k := by
  have hx : (BitVec.ofNat 32 k).toInt = k := StableHlo.Predicate.toInt_ofNat_small k (by omega)
  have h7 : (7#32 : BitVec 32).toInt = 7 := by decide
  have h0 : (0#32 : BitVec 32).toInt = 0 := by decide
  have hmax : IntOp.maxsi 0#32 (BitVec.ofNat 32 k) = BitVec.ofNat 32 k := by
    unfold IntOp.maxsi
    split
    · rename_i hc
      simp only [BitVec.slt, h0, hx, decide_eq_true_eq] at hc
      omega
    · rfl
  rw [hmax]
  unfold IntOp.minsi
  split
  · rename_i hc
    simp only [BitVec.slt, h7, hx, decide_eq_true_eq] at hc
    omega
  · rfl

/-! ## Broadcasts read at an index -/

/-- A vector laid out as a column reads, at row p, its entry p. -/
theorem bcast_col_read {α : Type} {n : ℕ} (h : (⟨1, ![n]⟩ : Shape).BroadcastsInDim ⟨2, ![n, 1]⟩ ![0])
    (v : (⟨1, ![n]⟩ : Shape).Idx → α) (p : Fin n) : broadcastInDim ⟨2, ![n, 1]⟩ ![0] h v (ix2 p 0) = v (ix1 p) := by
  refine broadcastInDim_apply _ h v _ (ix1 p) fun a => ?_
  obtain rfl : a = 0 := Subsingleton.elim _ _
  show p.val = if n = 1 then 0 else p.val
  have := p.isLt
  split <;> omega

/-- A column repeated along a second axis reads, at (p, q), the column's row p. -/
theorem bcast_of_col_read {α : Type} {n k : ℕ} (h : (⟨2, ![n, 1]⟩ : Shape).BroadcastsInDim ⟨2, ![n, k]⟩ ![0, 1])
    (v : (⟨2, ![n, 1]⟩ : Shape).Idx → α) (p : Fin n) (q : Fin k) :
    broadcastInDim ⟨2, ![n, k]⟩ ![0, 1] h v (ix2 p q) = v (ix2 p 0) := by
  refine broadcastInDim_apply _ h v _ (ix2 p 0) fun a => ?_
  match a with
  | ⟨0, _⟩ =>
    show p.val = if n = 1 then 0 else p.val
    have := p.isLt
    split <;> omega
  | ⟨1, _⟩ =>
    show (0 : ℕ) = if (1 : ℕ) = 1 then 0 else q.val
    rfl

/-- A vector laid out as a row reads, at column q, its entry q. -/
theorem bcast_row_read {α : Type} {k : ℕ} (h : (⟨1, ![k]⟩ : Shape).BroadcastsInDim ⟨2, ![1, k]⟩ ![1])
    (v : (⟨1, ![k]⟩ : Shape).Idx → α) (q : Fin k) : broadcastInDim ⟨2, ![1, k]⟩ ![1] h v (ix2 0 q) = v (ix1 q) := by
  refine broadcastInDim_apply _ h v _ (ix1 q) fun a => ?_
  obtain rfl : a = 0 := Subsingleton.elim _ _
  show q.val = if k = 1 then 0 else q.val
  have := q.isLt
  split <;> omega

/-- A row repeated along a first axis reads, at (p, q), the row's column q. -/
theorem bcast_of_row_read {α : Type} {n k : ℕ} (h : (⟨2, ![1, k]⟩ : Shape).BroadcastsInDim ⟨2, ![n, k]⟩ ![0, 1])
    (v : (⟨2, ![1, k]⟩ : Shape).Idx → α) (p : Fin n) (q : Fin k) :
    broadcastInDim ⟨2, ![n, k]⟩ ![0, 1] h v (ix2 p q) = v (ix2 0 q) := by
  refine broadcastInDim_apply _ h v _ (ix2 0 q) fun a => ?_
  match a with
  | ⟨0, _⟩ =>
    show (0 : ℕ) = if (1 : ℕ) = 1 then 0 else p.val
    rfl
  | ⟨1, _⟩ =>
    show q.val = if k = 1 then 0 else q.val
    have := q.isLt
    split <;> omega

/-- A broadcast scalar reads the scalar everywhere. -/
theorem bcast_scalar_read {α : Type} {t : Shape} (h : (⟨0, ![]⟩ : Shape).BroadcastsInDim t ![])
    (v : (⟨0, ![]⟩ : Shape).Idx → α) (j : t.Idx) : broadcastInDim t ![] h v j = v ValueIdx.ix0 :=
  broadcastInDim_apply _ h v j ValueIdx.ix0 fun a => a.elim0

/-- A one-entry vector recast as a scalar reads its entry. -/
theorem shapeCast_one_read {α : Type} (x : (⟨1, ![1]⟩ : Shape).Idx → α) (h : (⟨1, ![1]⟩ : Shape).ShapeCasts ⟨0, ![]⟩)
    (i : (⟨0, ![]⟩ : Shape).Idx) : shapeCast ⟨0, ![]⟩ x h i = x (ix1 0) := by
  show x (Shape.reshapeEquiv h i) = x (ix1 0)
  exact congrArg x ((eq_ix1 _).trans (congrArg ix1 (Subsingleton.elim _ _)))

/-! ## Counting over the experts as a range -/

/-- A count over Fin n of a property of the value is the count over the range. -/
theorem card_fin_filter_eq_range (n : ℕ) (p : ℕ → Prop) [DecidablePred p] :
    (Finset.univ.filter fun e : Fin n => p e.val).card = ((Finset.range n).filter p).card := by
  rw [← Finset.card_map Fin.valEmbedding]
  congr 1
  ext k
  simp only [Finset.mem_map, Finset.mem_filter, Finset.mem_univ, true_and, Fin.valEmbedding_apply, Finset.mem_range]
  constructor
  · rintro ⟨e, he, rfl⟩
    exact ⟨e.isLt, he⟩
  · rintro ⟨hk, hp⟩
    exact ⟨⟨k, hk⟩, hp, rfl⟩

/-! ## The start-index columns of the scatters and of the row gather -/

/-- The destinations are small numbers. -/
theorem dest_small (hS : Cert.Route.SortedPerm (eidx m c) (sperm m c)) (i : Fin 8192) :
    Cert.Route.dest 256 (eidx m c) (sperm m c) i < 2 ^ 31 := by
  have := Cert.Route.dest_lt_bound hS (T := 256) (by decide) i
  omega

/-- Column of the scatter into token order: word e is the token at sorted position e (the fix-up never fires). -/
theorem v52_read (hV1 : ∀ i : Fin 8192, V m c main_v1 (ix1 i) = BitVec.ofNat 32 (sperm m c i).val) (e : Fin 8192) :
    V m c main_v52 (ix2 e 0) = BitVec.ofNat 32 (sperm m c e).val := by
  have h1 : V m c main_v52 (ix2 e 0) = V m c main_v51 (ix1 e) := by
    rw [V_main_v52]
    exact bcast_col_read _ _ e
  have h2 : V m c main_v51 (ix1 e) = Scalar.select (IntOp.cmpi .slt (V m c main_v1 (ix1 e)) 0#32)
      (IntOp.addi (V m c main_v1 (ix1 e)) 8192#32) (V m c main_v1 (ix1 e)) := by
    rw [V_main_v51, V_main_v48, V_main_v47, V_main_c_14, V_main_v50, V_main_v49, V_main_c_15]
    rfl
  rw [h1, h2, hV1]
  exact fixup_small _ (by have := (sperm m c e).isLt; omega) _

section Dest
variable (hS : Cert.Route.SortedPerm (eidx m c) (sperm m c))
  (hV45 : ∀ i : Fin 8192, V m c main_v45 (ix1 i) = BitVec.ofNat 32 (Cert.Route.dest 256 (eidx m c) (sperm m c) i))
include hS hV45

/-- Column of the scatter of the sources: word e is the padded row of sorted position e. -/
theorem v60_read (e : Fin 8192) :
    V m c main_v60 (ix2 e 0) = BitVec.ofNat 32 (Cert.Route.dest 256 (eidx m c) (sperm m c) e) := by
  have h1 : V m c main_v60 (ix2 e 0) = V m c main_v59 (ix1 e) := by
    rw [V_main_v60]
    exact bcast_col_read _ _ e
  have h2 : V m c main_v59 (ix1 e) = Scalar.select (IntOp.cmpi .slt (V m c main_v45 (ix1 e)) 0#32)
      (IntOp.addi (V m c main_v45 (ix1 e)) 10240#32) (V m c main_v45 (ix1 e)) := by
    rw [V_main_v59, V_main_v56, V_main_v55, V_main_c_17, V_main_v58, V_main_v57, V_main_c_18]
    rfl
  rw [h1, h2, hV45]
  exact fixup_small _ (dest_small m c hS e) _

/-- Column of the scatter of the row marks: the same padded rows. -/
theorem v68_read (e : Fin 8192) :
    V m c main_v68 (ix2 e 0) = BitVec.ofNat 32 (Cert.Route.dest 256 (eidx m c) (sperm m c) e) := by
  have h1 : V m c main_v68 (ix2 e 0) = V m c main_v67 (ix1 e) := by
    rw [V_main_v68]
    exact bcast_col_read _ _ e
  have h2 : V m c main_v67 (ix1 e) = Scalar.select (IntOp.cmpi .slt (V m c main_v45 (ix1 e)) 0#32)
      (IntOp.addi (V m c main_v45 (ix1 e)) 10240#32) (V m c main_v45 (ix1 e)) := by
    rw [V_main_v67, V_main_v64, V_main_v63, V_main_c_20, V_main_v66, V_main_v65, V_main_c_21]
    rfl
  rw [h1, h2, hV45]
  exact fixup_small _ (dest_small m c hS e) _

end Dest

/-! ## The three scatters and the padded activations -/

theorem tdest_word (hS : Cert.Route.SortedPerm (eidx m c) (sperm m c))
    (hV1 : ∀ i : Fin 8192, V m c main_v1 (ix1 i) = BitVec.ofNat 32 (sperm m c i).val)
    (hV45 : ∀ i : Fin 8192, V m c main_v45 (ix1 i) = BitVec.ofNat 32 (Cert.Route.dest 256 (eidx m c) (sperm m c) i))
    (i : Fin 8192) :
    V m c main_v53 (ix1 (sperm m c i)) = BitVec.ofNat 32 (Cert.Route.dest 256 (eidx m c) (sperm m c) i) := by
  have hsm : ∀ e : Fin 8192, (sperm m c e).val < 2 ^ 31 := fun e => by have := (sperm m c e).isLt; omega
  rw [V_main_v53]
  refine (Cert.HostRead.scatter_set_vec_hit scatter_S8192_S8192x1_S8192_n_0_0_1 rfl rfl rfl rfl (V m c main_v46)
    (V m c main_v52) (V m c main_v45) (sperm m c i) i ?_ ?_).trans (hV45 i)
  · rw [v52_read m c hV1, StableHlo.Predicate.toInt_ofNat_small _ (hsm i)]
  · -- two sorted positions holding the same token are the same position
    intro e' he'
    rw [v52_read m c hV1, StableHlo.Predicate.toInt_ofNat_small _ (hsm e')] at he'
    exact hS.bij.1 (Fin.ext (Int.ofNat.inj he'))

theorem src_word (hS : Cert.Route.SortedPerm (eidx m c) (sperm m c))
    (hV1 : ∀ i : Fin 8192, V m c main_v1 (ix1 i) = BitVec.ofNat 32 (sperm m c i).val)
    (hV45 : ∀ i : Fin 8192, V m c main_v45 (ix1 i) = BitVec.ofNat 32 (Cert.Route.dest 256 (eidx m c) (sperm m c) i))
    (i : Fin 8192) (r : Fin 10240) (hr : r.val = Cert.Route.dest 256 (eidx m c) (sperm m c) i) :
    V m c main_v61 (ix1 r) = BitVec.ofNat 32 (sperm m c i).val := by
  rw [V_main_v61]
  refine (Cert.HostRead.scatter_set_vec_hit scatter_S10240_S8192x1_S8192_n_0_0_1 rfl rfl rfl rfl (V m c main_v54)
    (V m c main_v60) (V m c main_v1) r i ?_ ?_).trans (hV1 i)
  · rw [v60_read m c hS hV45, StableHlo.Predicate.toInt_ofNat_small _ (dest_small m c hS i), hr]
  · -- two sorted positions sent to the same padded row are the same position
    intro e' he'
    rw [v60_read m c hS hV45, StableHlo.Predicate.toInt_ofNat_small _ (dest_small m c hS e'), hr] at he'
    exact Cert.Route.dest_inj hS (by decide) (Int.ofNat.inj he')

theorem vrow_word (hS : Cert.Route.SortedPerm (eidx m c) (sperm m c))
    (hV45 : ∀ i : Fin 8192, V m c main_v45 (ix1 i) = BitVec.ofNat 32 (Cert.Route.dest 256 (eidx m c) (sperm m c) i))
    (i : Fin 8192) (r : Fin 10240) (hr : r.val = Cert.Route.dest 256 (eidx m c) (sperm m c) i) :
    V m c main_v70 (ix1 r) = 1#1 := by
  rw [V_main_v70]
  refine (Cert.HostRead.scatter_set_vec_hit scatter_S10240_S8192x1_S8192_n_0_0_1 rfl rfl rfl rfl (V m c main_v62)
    (V m c main_v68) (V m c main_v69) r i ?_ ?_).trans ?_
  · rw [v68_read m c hS hV45, StableHlo.Predicate.toInt_ofNat_small _ (dest_small m c hS i), hr]
  · intro e' he'
    rw [v68_read m c hS hV45, StableHlo.Predicate.toInt_ofNat_small _ (dest_small m c hS e'), hr] at he'
    exact Cert.Route.dest_inj hS (by decide) (Int.ofNat.inj he')
  · rw [V_main_v69, V_main_c_22]
    rfl

theorem xpad_row (hS : Cert.Route.SortedPerm (eidx m c) (sperm m c))
    (hV1 : ∀ i : Fin 8192, V m c main_v1 (ix1 i) = BitVec.ofNat 32 (sperm m c i).val)
    (hV45 : ∀ i : Fin 8192, V m c main_v45 (ix1 i) = BitVec.ofNat 32 (Cert.Route.dest 256 (eidx m c) (sperm m c) i))
    (i : Fin 8192) (r : Fin 10240) (hr : r.val = Cert.Route.dest 256 (eidx m c) (sperm m c) i) (k : Fin 2048) :
    V m c main_v80 (ix2 r k) = V m c main_v71 (ix2 (sperm m c i) k) := by
  have hsm : (sperm m c i).val < 2 ^ 31 := by have := (sperm m c i).isLt; omega
  -- the row is marked as holding a token
  have hsel : V m c main_call5_v0 (ix2 r k) = 1#1 := by
    rw [V_main_call5_v0]
    refine (bcast_of_col_read _ _ r k).trans ?_
    rw [V_main_v72]
    exact (bcast_col_read _ _ r).trans (vrow_word m c hS hV45 i r hr)
  -- the gather's start index for the row is its source token (the fix-up never fires)
  have hidx : V m c main_v78 (ix2 r 0) = BitVec.ofNat 32 (sperm m c i).val := by
    have h1 : V m c main_v78 (ix2 r 0) = V m c main_v77 (ix1 r) := by
      rw [V_main_v78]
      exact bcast_col_read _ _ r
    have h2 : V m c main_v77 (ix1 r) = Scalar.select (IntOp.cmpi .slt (V m c main_v61 (ix1 r)) 0#32)
        (IntOp.addi (V m c main_v61 (ix1 r)) 8192#32) (V m c main_v61 (ix1 r)) := by
      rw [V_main_v77, V_main_v74, V_main_v73, V_main_c_23, V_main_v76, V_main_v75, V_main_c_24]
      rfl
    rw [h1, h2, src_word m c hS hV1 hV45 i r hr]
    exact fixup_small _ hsm _
  have h80 : V m c main_v80 (ix2 r k) = Scalar.select (V m c main_call5_v0 (ix2 r k)) (V m c main_v79 (ix2 r k))
      (V m c main_call5_v1 (ix2 r k)) := by
    rw [V_main_v80]
    rfl
  rw [h80, hsel, select_one, V_main_v79]
  exact Cert.Sage.IndexRead.gather_rows gather_S8192x2048_S10240x1_S10240x2048_1_0_n_n_0_1_12048 rfl rfl rfl rfl rfl rfl
    rfl (V m c main_v71) (V m c main_v78) r k (sperm m c i)
    (by rw [hidx, StableHlo.Predicate.toInt_ofNat_small _ hsm])

/-! ## The two per-tile tables -/

/-- Tile t starts at row 256 t. -/
theorem v83_read (t : Fin 40) : V m c main_v83 (ix1 t) = BitVec.ofNat 32 (t.val * 256) := by
  rw [V_main_v83, V_main_v81, V_main_v82, V_main_c_25]
  exact BitVec.ofNat_mul_ofNat t.val 256

/-- The padded offsets are small numbers. -/
theorem poff_small (e : ℕ) (he : e ≤ 8) : Cert.Route.poff 256 (eidx m c) e < 2 ^ 31 := by
  have h1 := Cert.Route.poff_le' 256 (eidx m c) e he
  have h2 := Cert.Route.poff_le (T := 256) (by decide) (eidx m c)
  omega

section Tiles
variable (hP : ∀ e : Fin 9, V m c main_v28 (ix1 e) = BitVec.ofNat 32 (Cert.Route.poff 256 (eidx m c) e.val))
include hP

/-- Entry (t, e) of the compared offsets is the padded offset at which expert e's rows end. -/
theorem v87_read (t : Fin 40) (e : Fin 8) :
    V m c main_v87 (ix2 t e) = BitVec.ofNat 32 (Cert.Route.poff 256 (eidx m c) (e.val + 1)) := by
  rw [V_main_v87]
  refine (bcast_of_row_read _ _ t e).trans ?_
  rw [V_main_v85]
  refine (bcast_row_read _ _ e).trans ?_
  rw [V_main_v84]
  refine (Cert.HostRead.slice_vec 1 slices_S9_S8_1 (V m c main_v28) e (by have := e.isLt; omega)).trans ?_
  exact (hP ⟨1 + e.val, by have := e.isLt; omega⟩).trans
    (congrArg (fun k => BitVec.ofNat 32 (Cert.Route.poff 256 (eidx m c) k)) (Nat.add_comm 1 e.val))

/-- Entry (t, e) of the compared tile starts is tile t's first row. -/
theorem v88_read (t : Fin 40) (e : Fin 8) : V m c main_v88 (ix2 t e) = BitVec.ofNat 32 (t.val * 256) := by
  rw [V_main_v88]
  refine (bcast_of_col_read _ _ t e).trans ?_
  rw [V_main_v86]
  exact (bcast_col_read _ _ t).trans (v83_read m c t)

/-- The mask bit (t, e) is set exactly when expert e's rows end at or before tile t's first row. -/
theorem v89_iff (t : Fin 40) (e : Fin 8) :
    V m c main_v89 (ix2 t e) = 1#1 ↔ Cert.Route.poff 256 (eidx m c) (e.val + 1) ≤ t.val * 256 := by
  have h : V m c main_v89 (ix2 t e) = IntOp.cmpi .sle (V m c main_v87 (ix2 t e)) (V m c main_v88 (ix2 t e)) := by
    rw [V_main_v89]
    rfl
  have hp := poff_small m c (e.val + 1) (by have := e.isLt; omega)
  have ht := t.isLt
  rw [h, v87_read m c hP, v88_read m c hP,
    StableHlo.Predicate.sle_iff_toNat (by rw [toNat_ofNat_lt _ (by omega)]; exact hp)
      (by rw [toNat_ofNat_lt _ (by omega)]; omega),
    toNat_ofNat_lt _ (by omega), toNat_ofNat_lt _ (by omega)]

/-- The per-tile count: the number of experts whose rows end at or before the tile's first row. -/
theorem v91_toNat (t : Fin 40) :
    (V m c main_v91 (ix1 t)).toNat
      = ((Finset.range 8).filter fun e => Cert.Route.poff 256 (eidx m c) (e + 1) ≤ t.val * 256).card := by
  rw [V_main_v91]
  refine (congrArg BitVec.toNat (Cert.HostRead.reduce_rows_add reducesTo_S40x8_S40_d1 h_S_ (V m c main_v90)
    (V m c main_c_26) (fun i => by rw [V_main_c_26]; rfl) t)).trans ?_
  refine (Cert.HostRead.sum_mask_toNat (by decide) (V m c main_v90) (fun t e => V m c main_v89 (ix2 t e)) t
    (fun e => by rw [V_main_v90]; rfl)).trans ?_
  rw [← card_fin_filter_eq_range 8 (fun e => Cert.Route.poff 256 (eidx m c) (e + 1) ≤ t.val * 256)]
  exact congrArg Finset.card (Finset.filter_congr fun e _ => v89_iff m c hP t e)

/-- The total of the padded rows, broadcast against the tile starts. -/
theorem v95_read (t : Fin 40) : V m c main_v95 (ix1 t) = BitVec.ofNat 32 (Cert.Route.poff 256 (eidx m c) 8) := by
  rw [V_main_v95]
  refine (bcast_scalar_read _ _ _).trans ?_
  rw [V_main_v94]
  refine (shapeCast_one_read _ _ _).trans ?_
  rw [V_main_v93]
  exact (Cert.HostRead.slice_vec 8 slices_S9_S1_8 (V m c main_v28) 0 (by decide)).trans (hP ⟨8, by decide⟩)

end Tiles

theorem tid_word (hS : Cert.Route.SortedPerm (eidx m c) (sperm m c))
    (hP : ∀ e : Fin 9, V m c main_v28 (ix1 e) = BitVec.ofNat 32 (Cert.Route.poff 256 (eidx m c) e.val))
    (i : Fin 8192) (t : Fin 40) (ht : t.val = Cert.Route.dest 256 (eidx m c) (sperm m c) i / 256) :
    V m c main_v92 (ix1 t) = BitVec.ofNat 32 (eidx m c (sperm m c i)).val := by
  have hcount := v91_toNat m c hP t
  rw [ht, Cert.Route.tile_count hS (by decide) i] at hcount
  rw [v92_read, eq_ofNat_of_toNat hcount]
  exact clip7_id _ (eidx m c (sperm m c i)).isLt

theorem tvalid_word (hS : Cert.Route.SortedPerm (eidx m c) (sperm m c))
    (hP : ∀ e : Fin 9, V m c main_v28 (ix1 e) = BitVec.ofNat 32 (Cert.Route.poff 256 (eidx m c) e.val))
    (i : Fin 8192) (t : Fin 40) (ht : t.val = Cert.Route.dest 256 (eidx m c) (sperm m c) i / 256) :
    V m c main_v97 (ix1 t) = 1#32 := by
  have hlt : t.val * 256 < Cert.Route.poff 256 (eidx m c) 8 := by
    rw [ht]
    exact Cert.Route.tile_valid hS (by decide) i
  have hp := poff_small m c 8 (le_refl 8)
  have htl := t.isLt
  have h96 : V m c main_v96 (ix1 t) = 1#1 := by
    have h : V m c main_v96 (ix1 t) = IntOp.cmpi .slt (V m c main_v83 (ix1 t)) (V m c main_v95 (ix1 t)) := by
      rw [V_main_v96]
      rfl
    rw [h, v83_read, v95_read m c hP]
    refine (StableHlo.Predicate.slt_iff_toNat (by rw [toNat_ofNat_lt _ (by omega)]; omega)
      (by rw [toNat_ofNat_lt _ (by omega)]; exact hp)).mpr ?_
    rw [toNat_ofNat_lt _ (by omega), toNat_ofNat_lt _ (by omega)]
    exact hlt
  have h97 : V m c main_v97 (ix1 t) = (V m c main_v96 (ix1 t)).setWidth 32 := by
    rw [V_main_v97]
    rfl
  rw [h97, h96]
  rfl

end Cert.KernelIdeal.Hand

end
-- ==== Proof.KernelValue.lean ====
/-
  The value of the padded output after the one pallas_call, index by index, at the ideal instance. Point
  (column tile i0, row tile i1) of the grid [8, 40] reads rows i1·256 … i1·256 + 255 of x_pad, the block
  (tile_expert_id[i1], all rows, columns i0·1024 … i0·1024 + 1023) of the weight, and writes rows i1·256 …, columns
  i0·1024 … of the output: where tile_valid[i1] ≠ 0 the product of the two blocks (the weight block rounded to bf16,
  which at the ideal instance is the identity, the sum started from zero), else zeros. Every output block is written
  back, the blocks tile the array, and each is the block of ONE function of x_pad, the weight and the two tables; so
  the array ends holding that function.
-/
import proofs.«416672_j52793738003186_2_alg».proof.Proof.Body
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-! ## The matmul of the payload at an index -/

theorem lhs_pay_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_pay_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_pay_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_pay_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The matmul into the zero accumulator, read at an index: the sum over the contracted axis. -/
theorem matmul_pay_apply (y0 : FVec Ideal S256x2048 .bf16) (y1 : FVec Ideal S2048x1024 .bf16) (i : S256x1024.Idx) :
    matmul (F := Ideal) dot_S256x2048_S2048x1024_S256x1024_1_0_0_1_n_n none y0 y1 (constant S256x1024 .f32 0x00000000#32) i
      = ∑ k : Fin 2048, y0 (ix2 ⟨(i 0).val, (i 0).isLt⟩ k) * y1 (ix2 k ⟨(i 1).val, (i 1).isLt⟩) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx i ((ValueIdx.contrEquiv1 dot_S256x2048_S2048x1024_S256x1024_1_0_0_1_n_n 2048 rfl rfl).symm k) = ix2 ⟨(i 0).val, (i 0).isLt⟩ k := funext fun a => Fin.ext (by
    match a with
    | ⟨0, _⟩ => exact lhs_pay_0 _ _
    | ⟨1, _⟩ => exact (lhs_pay_1 _ _).trans hk)
  have er : dot_S256x2048_S2048x1024_S256x1024_1_0_0_1_n_n.rhsIdx i ((ValueIdx.contrEquiv1 dot_S256x2048_S2048x1024_S256x1024_1_0_0_1_n_n 2048 rfl rfl).symm k) = ix2 k ⟨(i 1).val, (i 1).isLt⟩ := funext fun a => Fin.ext (by
    match a with
    | ⟨0, _⟩ => exact (rhs_pay_0 _ _).trans hk
    | ⟨1, _⟩ => exact rhs_pay_1 _ _)
  rw [el, er]
  rfl

/-- The weight block [1, 2048, 1024] recast to [2048, 1024], read at an index. -/
theorem wcast_apply {α : Type} (wb : S1x2048x1024.Idx → α) (k : Fin 2048) (q : Fin 1024) :
    shapeCast S2048x1024 wb shapeCasts_S1x2048x1024_S2048x1024 (ix2 k q) = wb (ix3 (0 : Fin 1) k q) := by
  refine shapeCast_apply wb shapeCasts_S1x2048x1024_S2048x1024 (ix2 k q) (ix3 (0 : Fin 1) k q) ?_
  rewrite [Shape.rowMajor_val_three, Shape.rowMajor_val_two]
  show (0 * 2048 + k.val) * 1024 + q.val = k.val * 1024 + q.val
  omega

/-- The payload of a row tile that holds tokens, at an index of its block: the row of the x block
    against the column of the weight block. -/
theorem pay1_apply (wb : Vec Ideal S1x2048x1024 .f32) (xb : Vec Ideal S256x2048 .bf16) (p : Fin 256) (q : Fin 1024) :
    k0_pay1 (F := Ideal) wb xb (ix2 p q) = ∑ k : Fin 2048, (xb (ix2 p k) : EReal) * (wb (ix3 (0 : Fin 1) k q) : EReal) := by
  unfold k0_pay1
  refine (matmul_pay_apply _ _ (ix2 p q)).trans ?_
  refine Finset.sum_congr rfl fun k _ => ?_
  rw [shapeCast_self, truncf_apply, wcast_apply]

/-- The payload of an empty row tile is zero everywhere. -/
theorem pay2_apply (y : S256x1024.Idx) : k0_pay2 (F := Ideal) y = (0 : EReal) := by
  unfold k0_pay2
  exact Ideal.ofBits_zero_f32

variable {F : FTy → Type} [FloatOps F]

/-! ## The grid, and the index maps at a point (the tables' contents a variable) -/

theorem ofNat_toNat_lt (n : Nat) (h : n < 4294967296) : (BitVec.ofNat 32 n).toNat = n := by
  rw [BitVec.toNat_ofNat]; exact Nat.mod_eq_of_lt h

/-- The column tile and the row tile of point `t`. -/
theorem coords_0 (t : Fin grid0.N) : (grid0.coords t 0).val = t.val / 40 % 8 := rfl
theorem coords_1 (t : Fin grid0.N) : (grid0.coords t 1).val = t.val / 1 % 40 := rfl

/-- The x window's block index: (row tile, 0). -/
theorem tr0_eq (i : grid0.Coords) : cc0_transform_0 i = ![(i 1).val, 0] := by
  have h1 : (i 1).val < 40 := (i 1).isLt
  funext a
  match a with
  | ⟨0, _⟩ => show (BitVec.ofNat 32 (i 1).val).toNat = (i 1).val; exact ofNat_toNat_lt _ (by omega)
  | ⟨1, _⟩ => rfl

/-- The output window's block index: (row tile, column tile). -/
theorem tr2_eq (i : grid0.Coords) : cc0_transform_2 i = ![(i 1).val, (i 0).val] := by
  have h0 : (i 0).val < 8 := (i 0).isLt
  have h1 : (i 1).val < 40 := (i 1).isLt
  funext a
  match a with
  | ⟨0, _⟩ => show (BitVec.ofNat 32 (i 1).val).toNat = (i 1).val; exact ofNat_toNat_lt _ (by omega)
  | ⟨1, _⟩ => show (BitVec.ofNat 32 (i 0).val).toNat = (i 0).val; exact ofNat_toNat_lt _ (by omega)

/-- The offset at which a row tile reads either table: its own number. -/
theorem k0_off1_eq (i : grid0.Coords) : k0_off1 i = ![(i 1).val] := by
  have h1 : (i 1).val < 40 := (i 1).isLt
  funext a
  match a with
  | ⟨0, _⟩ => show (BitVec.ofNat 32 (i 1).val).toNat = (i 1).val; exact ofNat_toNat_lt _ (by omega)

/-- The word of the second table the body reads at a point of row tile `i1`. -/
theorem atD1_off1 (pf : pre0.Contents (Elt F)) (i : grid0.Coords) (i1 : Fin 40) (h : i1.val = (i 1).val) :
    (pf.atD 1 (k0_off1 i) : BitVec 32) = (pf 1 : IVec S40 32) (ix1 i1) := by
  have h1' : ∀ a : Fin 1, k0_off1 i a + 1 ≤ S40.size a := Fin.forall_fin_one.mpr (k0_off1_inb i 0)
  have hb : ∀ a : Fin (pre0.ref 1).ty.shape.rank, k0_off1 i a + 1 ≤ (pre0.ref 1).ty.shape.size a := h1'
  unfold Pipeline.Prefetch.Contents.atD
  rw [dif_pos hb]
  refine congrArg (pf 1 : IVec S40 32) ?_
  funext a
  match a with
  | ⟨0, _⟩ => apply Fin.ext; show (k0_off1 i) 0 = i1.val; rw [k0_off1_eq, h]; rfl

/-- The weight window's block index: (the expert of the row tile, 0, column tile). -/
theorem tr1_eq (pf : pre0.Contents (Elt F)) (i : grid0.Coords) (i1 : Fin 40) (h : i1.val = (i 1).val) :
    cc0_transform_1 k0_off1_inb numel1_S1 pf i = ![((pf 0 : IVec S40 32) (ix1 i1)).toNat, 0, (i 0).val] := by
  have h0 : (i 0).val < 8 := (i 0).isLt
  have h1 : (i 1).val < 40 := (i 1).isLt
  funext a
  match a with
  | ⟨0, _⟩ =>
    show ((pf 0 : IVec S40 32) ((Rect.unit (s := S40) ![(Scalar.indexCast (BitVec.ofNat 32 (i 1).val)).toNat] S1.size (k0_off1_inb i)).emb (Shape.Idx.first (numel1_S1.symm ▸ Nat.one_pos)))).toNat = _
    refine congrArg (fun j => ((pf 0 : IVec S40 32) j).toNat) ?_
    funext b
    match b with
    | ⟨0, _⟩ => apply Fin.ext; rw [Rect.emb_apply]; show (BitVec.ofNat 32 (i 1).val).toNat + 1 * 0 = i1.val; rw [ofNat_toNat_lt _ (by omega), h]; omega
  | ⟨1, _⟩ => rfl
  | ⟨2, _⟩ => show (BitVec.ofNat 32 (i 0).val).toNat = (i 0).val; exact ofNat_toNat_lt _ (by omega)

/-! ## The three blocks at a point, read at an index (the tables' contents a variable) -/

/-- The x block at point `t`, at (p, k): row (row tile)·256 + p of x_pad. -/
theorem xblk_read (a : (pcfg0 (F := F)).Adm) (X : S10240x2048.Idx → Elt F .bf16) (t : Fin (cfg0 a).N) (p : Fin 256) (k : Fin 2048)
    (r : Fin 10240) (hr : r.val = (grid0.coords t 1).val * 256 + p.val) :
    ((((cfg0 a).win 0).blk t).view.read (Elt F) X : S256x2048.Idx → Elt F .bf16) (ix2 p k) = X (ix2 r k) := by
  show X ((((cfg0 a).win 0).blk t).view.emb (ix2 p k)) = X (ix2 r k)
  refine congrArg X ?_
  funext b; apply Fin.ext
  match b with
  | ⟨0, _⟩ => show cc0_transform_0 (grid0.coords t) 0 * 256 + 1 * p.val = r.val; rw [tr0_eq]; show (grid0.coords t 1).val * 256 + 1 * p.val = r.val; omega
  | ⟨1, _⟩ => show cc0_transform_0 (grid0.coords t) 1 * 2048 + 1 * k.val = k.val; rw [tr0_eq]; show 0 * 2048 + 1 * k.val = k.val; omega

/-- The weight block at point `t`, at (0, k, q): expert (first table at the row tile), row k, column (column tile)·1024 + q. -/
theorem wblk_read (a : (pcfg0 (F := F)).Adm) (W : S8x2048x8192.Idx → Elt F .f32) (t : Fin (cfg0 a).N) (k : Fin 2048) (q : Fin 1024)
    (i1 : Fin 40) (hi1 : i1.val = (grid0.coords t 1).val) (e : Fin 8) (he : e.val = ((a.1 0 : IVec S40 32) (ix1 i1)).toNat)
    (j : Fin 8192) (hj : j.val = (grid0.coords t 0).val * 1024 + q.val) :
    ((((cfg0 a).win 1).blk t).view.read (Elt F) W : S1x2048x1024.Idx → Elt F .f32) (ix3 (0 : Fin 1) k q) = W (ix3 e k j) := by
  show W ((((cfg0 a).win 1).blk t).view.emb (ix3 (0 : Fin 1) k q)) = W (ix3 e k j)
  refine congrArg W ?_
  funext b; apply Fin.ext
  match b with
  | ⟨0, _⟩ => show cc0_transform_1 k0_off1_inb numel1_S1 a.1 (grid0.coords t) 0 * 1 + 1 * 0 = e.val; rw [tr1_eq a.1 _ i1 hi1]; show ((a.1 0 : IVec S40 32) (ix1 i1)).toNat * 1 + 1 * 0 = e.val; omega
  | ⟨1, _⟩ => show cc0_transform_1 k0_off1_inb numel1_S1 a.1 (grid0.coords t) 1 * 2048 + 1 * k.val = k.val; rw [tr1_eq a.1 _ i1 hi1]; show 0 * 2048 + 1 * k.val = k.val; omega
  | ⟨2, _⟩ => show cc0_transform_1 k0_off1_inb numel1_S1 a.1 (grid0.coords t) 2 * 1024 + 1 * q.val = j.val; rw [tr1_eq a.1 _ i1 hi1]; show (grid0.coords t 0).val * 1024 + 1 * q.val = j.val; omega

/-- The output block at point `t`, at (p, q): row (row tile)·256 + p, column (column tile)·1024 + q of the array. -/
theorem oblk_read (a : (pcfg0 (F := F)).Adm) (Y : S10240x8192.Idx → Elt F .f32) (t : Fin (cfg0 a).N) (p : Fin 256) (q : Fin 1024)
    (r : Fin 10240) (hr : r.val = (grid0.coords t 1).val * 256 + p.val) (j : Fin 8192) (hj : j.val = (grid0.coords t 0).val * 1024 + q.val) :
    ((((cfg0 a).win 2).blk t).view.read (Elt F) Y : S256x1024.Idx → Elt F .f32) (ix2 p q) = Y (ix2 r j) := by
  show Y ((((cfg0 a).win 2).blk t).view.emb (ix2 p q)) = Y (ix2 r j)
  refine congrArg Y ?_
  funext b; apply Fin.ext
  match b with
  | ⟨0, _⟩ => show cc0_transform_2 (grid0.coords t) 0 * 256 + 1 * p.val = r.val; rw [tr2_eq]; show (grid0.coords t 1).val * 256 + 1 * p.val = r.val; omega
  | ⟨1, _⟩ => show cc0_transform_2 (grid0.coords t) 1 * 1024 + 1 * q.val = j.val; rw [tr2_eq]; show (grid0.coords t 0).val * 1024 + 1 * q.val = j.val; omega

/-! ## The padded output as one function of x_pad, the weight and the two tables -/

/-- The row tile of a row of the padded output. -/
def rowTile (r : Fin 10240) : Fin 40 := ⟨r.val / 256, by have := r.isLt; omega⟩

/-- Entry (r, j) of the padded output: where the row tile of r holds tokens, row r of x_pad against column j of the
    weight of that tile's expert; zero where it holds none. -/
def Gat (x : FVec Ideal S10240x2048 .bf16) (w : FVec Ideal S8x2048x8192 .f32) (tid tv : IVec S40 32)
    (htid : ∀ t : Fin 40, (tid (ix1 t)).toNat < 8) (r : Fin 10240) (j : Fin 8192) : EReal :=
  if tv (ix1 (rowTile r)) ≠ 0#32 then ∑ k : Fin 2048, x (ix2 r k) * w (ix3 ⟨(tid (ix1 (rowTile r))).toNat, htid _⟩ k j) else 0

/-- The padded output. -/
def G (x : FVec Ideal S10240x2048 .bf16) (w : FVec Ideal S8x2048x8192 .f32) (tid tv : IVec S40 32)
    (htid : ∀ t : Fin 40, (tid (ix1 t)).toNat < 8) : FVec Ideal S10240x8192 .f32 := fun i => Gat x w tid tv htid (i 0) (i 1)

theorem G_apply (x : FVec Ideal S10240x2048 .bf16) (w : FVec Ideal S8x2048x8192 .f32) (tid tv : IVec S40 32)
    (htid : ∀ t : Fin 40, (tid (ix1 t)).toNat < 8) (r : Fin 10240) (j : Fin 8192) :
    G x w tid tv htid (ix2 r j) = Gat x w tid tv htid r j := rfl

/-- Entry (r, j) with the row tile named. -/
theorem Gat_eq (x : FVec Ideal S10240x2048 .bf16) (w : FVec Ideal S8x2048x8192 .f32) (tid tv : IVec S40 32)
    (htid : ∀ t : Fin 40, (tid (ix1 t)).toNat < 8) (r : Fin 10240) (j : Fin 8192) (t1 : Fin 40) (ht1 : t1.val = r.val / 256) :
    Gat x w tid tv htid r j
      = if tv (ix1 t1) ≠ 0#32 then ∑ k : Fin 2048, x (ix2 r k) * w (ix3 ⟨(tid (ix1 t1)).toNat, htid t1⟩ k j) else 0 := by
  obtain rfl : t1 = rowTile r := Fin.ext ht1
  rfl

/-! ## What a point writes back is its block of the padded output -/

/-- At point `t` of row tile `i1`, whatever the admissible tables: the block the body leaves (it branches on the word `v` of
    the second table at `i1`), read at (p, q), is the padded output's block. -/
theorem flushed_core (a : (pcfg0 (F := Ideal)).Adm) (x : FVec Ideal S10240x2048 .bf16) (w : FVec Ideal S8x2048x8192 .f32)
    (htid : ∀ t : Fin 40, ((a.1 0 : IVec S40 32) (ix1 t)).toNat < 8) (t : Fin (cfg0 a).N) (p : Fin 256) (q : Fin 1024)
    (i1 : Fin 40) (hi1 : i1.val = (grid0.coords t 1).val) (v : BitVec 32) (e1 : v = (a.1 1 : IVec S40 32) (ix1 i1)) :
    (if v ≠ 0 then
        k0_pay1 (F := Ideal) ((((cfg0 a).win 1).blk t).view.read (Elt Ideal) w) ((((cfg0 a).win 0).blk t).view.read (Elt Ideal) x)
      else k0_pay2 (F := Ideal)) (ix2 p q)
      = ((((cfg0 a).win 2).blk t).view.read (Elt Ideal) (G x w (a.1 0) (a.1 1) htid) : S256x1024.Idx → EReal) (ix2 p q) := by
  have h0 : (grid0.coords t 0).val < 8 := (grid0.coords t 0).isLt
  have h1 : i1.val < 40 := i1.isLt
  have hp : p.val < 256 := p.isLt
  have hq : q.val < 1024 := q.isLt
  refine Eq.trans ?_ (oblk_read a (G x w (a.1 0) (a.1 1) htid) t p q ⟨(grid0.coords t 1).val * 256 + p.val, by omega⟩ rfl ⟨(grid0.coords t 0).val * 1024 + q.val, by omega⟩ rfl).symm
  refine Eq.trans ?_ (Gat_eq x w (a.1 0) (a.1 1) htid ⟨(grid0.coords t 1).val * 256 + p.val, by omega⟩ ⟨(grid0.coords t 0).val * 1024 + q.val, by omega⟩
    i1 (by show i1.val = ((grid0.coords t 1).val * 256 + p.val) / 256; omega)).symm
  by_cases hv : (a.1 1 : IVec S40 32) (ix1 i1) = 0#32
  · have c1 : ¬ (v ≠ 0) := not_not.mpr (e1.trans hv)
    have c2 : ¬ ((a.1 1 : IVec S40 32) (ix1 i1) ≠ 0#32) := not_not.mpr hv
    rw [if_neg c1]
    exact (pay2_apply _).trans (if_neg c2).symm
  · have c1 : v ≠ 0 := fun h => hv (e1.symm.trans h)
    have c2 : (a.1 1 : IVec S40 32) (ix1 i1) ≠ 0#32 := hv
    rw [if_pos c1]
    refine Eq.trans ?_ (if_pos c2).symm
    refine (pay1_apply _ _ p q).trans ?_
    refine Finset.sum_congr rfl fun k _ => ?_
    exact congrArg₂ (fun (u v : EReal) => u * v)
      (xblk_read a x t p k ⟨(grid0.coords t 1).val * 256 + p.val, by omega⟩ rfl)
      (wblk_read a w t k q i1 hi1 ⟨_, htid i1⟩ rfl ⟨(grid0.coords t 0).val * 1024 + q.val, by omega⟩ rfl)

/-- The same with the tables' contents and their admissibility named apart. -/
theorem flushed_at (pf : pre0.Contents (Elt Ideal)) (hok : ok0 pf) (x : FVec Ideal S10240x2048 .bf16) (w : FVec Ideal S8x2048x8192 .f32)
    (htid : ∀ t : Fin 40, ((pf 0 : IVec S40 32) (ix1 t)).toNat < 8) (t : Fin (cfg0 (F := Ideal) ⟨pf, hok⟩).N) (p : Fin 256) (q : Fin 1024)
    (i1 : Fin 40) (hi1 : i1.val = (grid0.coords t 1).val) (v : BitVec 32) (e1 : v = (pf 1 : IVec S40 32) (ix1 i1)) :
    (if v ≠ 0 then
        k0_pay1 (F := Ideal) ((((cfg0 (F := Ideal) ⟨pf, hok⟩).win 1).blk t).view.read (Elt Ideal) w) ((((cfg0 (F := Ideal) ⟨pf, hok⟩).win 0).blk t).view.read (Elt Ideal) x)
      else k0_pay2 (F := Ideal)) (ix2 p q)
      = ((((cfg0 (F := Ideal) ⟨pf, hok⟩).win 2).blk t).view.read (Elt Ideal) (G x w (pf 0) (pf 1) htid) : S256x1024.Idx → EReal) (ix2 p q) :=
  flushed_core ⟨pf, hok⟩ x w htid t p q i1 hi1 v e1

/-! ## The output's blocks cover the array -/

/-- An index of the array is in point `t`'s block iff each coordinate is in the block's range on its axis. -/
theorem mem_oblk (a : (pcfg0 (F := F)).Adm) (t : Fin (cfg0 a).N) (i : S10240x8192.Idx) :
    i ∈ (((cfg0 a).win 2).blk t).view.set ↔ ∀ b : Fin 2, ((cfg0 a).win 2).index t b * S256x1024.size b ≤ (i b).val ∧ (i b).val < ((cfg0 a).win 2).index t b * S256x1024.size b + S256x1024.size b := by
  have e : (((cfg0 a).win 2).blk t).view.set = (((cfg0 a).win 2).rect t).set := View.set_slice_whole main_v98 (((cfg0 a).win 2).rect t)
  rw [e]
  exact Rect.mem_set_unit

/-- Entry (r, j) lies in the block of the point (column tile j / 1024, row tile r / 256), which is written back. -/
theorem cover (a : (pcfg0 (F := F)).Adm) (i : S10240x8192.Idx) :
    ∃ t : Fin (cfg0 a).N, ((cfg0 a).win 2).flush t = true ∧ i ∈ (((cfg0 a).win 2).blk t).view.set := by
  have h0 : (i 0).val < 10240 := (i 0).isLt
  have h1 : (i 1).val < 8192 := (i 1).isLt
  have hN : (cfg0 a).N = 320 := N_0
  refine ⟨⟨(i 1).val / 1024 * 40 + (i 0).val / 256, by rw [hN]; omega⟩, flush0_2 a _, ?_⟩
  rw [mem_oblk]
  intro b
  match b with
  | ⟨0, _⟩ =>
    show cc0_transform_2 (grid0.coords _) 0 * 256 ≤ (i 0).val ∧ (i 0).val < cc0_transform_2 (grid0.coords _) 0 * 256 + 256
    rw [tr2_eq]
    show ((i 1).val / 1024 * 40 + (i 0).val / 256) / 1 % 40 * 256 ≤ (i 0).val ∧ (i 0).val < ((i 1).val / 1024 * 40 + (i 0).val / 256) / 1 % 40 * 256 + 256
    omega
  | ⟨1, _⟩ =>
    show cc0_transform_2 (grid0.coords _) 1 * 1024 ≤ (i 1).val ∧ (i 1).val < cc0_transform_2 (grid0.coords _) 1 * 1024 + 1024
    rw [tr2_eq]
    show ((i 1).val / 1024 * 40 + (i 0).val / 256) / 40 % 8 * 1024 ≤ (i 1).val ∧ (i 1).val < ((i 1).val / 1024 * 40 + (i 0).val / 256) / 40 % 8 * 1024 + 1024
    omega

/-! ## The word a point branches on -/

/-- The word of the second table the body reads at point `t` is the table's word at the point's row tile. -/
theorem vword_eq (m : (ℓ : Loc nD τ sig) → Buf (Elt F) ℓ) (hO : Ok m) (t : Fin (cfgM m hO).N) (i1 : Fin 40)
    (h : i1.val = (grid0.coords t 1).val) : vword m hO t = (tbl m 1 : IVec S40 32) (ix1 i1) := by
  unfold vword
  exact atD1_off1 (tbl m) _ i1 h

/-! ## The array after the run -/

section Final

variable (m : (ℓ : Loc nD τ sig) → Buf (Elt Ideal) ℓ)

/-- x_pad and the weight as the region finds them, at their literal types. -/
abbrev xpad (c : Dev nD) : FVec Ideal S10240x2048 .bf16 := V m c main_v80
abbrev wgt (c : Dev nD) : FVec Ideal S8x2048x8192 .f32 := V m c main_arg1
/-- The two prefetched tables at their literal type: the expert of each row tile, and whether the tile holds tokens. -/
abbrev tidT : IVec S40 32 := tbl m 0
abbrev tvalT : IVec S40 32 := tbl m 1

/-- WHAT POINT `t` WRITES BACK is block `t` of the padded output. -/
theorem flushed_eq (hO : Ok m) (htid : ∀ t : Fin 40, (tidT m (ix1 t)).toNat < 8) (c : Dev nD) (t : Fin (cfgM m hO).N) :
    (dats m hO 0 c).flushed 2 t
      = (((cfgM m hO).win 2).blk t).view.read (Elt Ideal) (G (xpad m c) (wgt m c) (tidT m) (tvalT m) htid) := by
  show ((cfgM m hO).win 2).cut ((cfgM m hO).grid.coords t) ((dats m hO 0 c).after 2 t) = _
  rw [after0_2]
  refine @funext S256x1024.Idx (fun _ => EReal) _ _ fun y => ?_
  obtain ⟨p, q, rfl⟩ : ∃ (p : Fin 256) (q : Fin 1024), y = ix2 p q := ⟨y 0, y 1, eq_ix2 y⟩
  show outAt0 m hO c t (ix2 p q) = _
  unfold outAt0 xblk wblk iblk
  exact flushed_at (tbl m) hO (xpad m c) (wgt m c) htid t p q ⟨(grid0.coords t 1).val, (grid0.coords t 1).isLt⟩ rfl
    (vword m hO t) (vword_eq m hO t _ rfl)

/-- THE ARRAY after the run is the padded output. -/
theorem outpad_eq (hO : Ok m) (htid : ∀ t : Fin 40, (tidT m (ix1 t)).toNat < 8) (c : Dev nD) :
    (dats m hO 0 c).arrAt 2 (cfgM m hO).N = G (xpad m c) (wgt m c) (tidT m) (tvalT m) htid :=
  (dats m hO 0 c).arrAt_eq_of_cover 2 (G (xpad m c) (wgt m c) (tidT m) (tvalT m) htid)
    (fun t _ => flushed_eq m hO htid c t) (fun i => cover (adm m hO) i)

/-- Entry (r, j) of the array after the run, with r's row tile named `t1`. -/
theorem outpad_apply (hO : Ok m) (htid : ∀ t : Fin 40, (tidT m (ix1 t)).toNat < 8) (c : Dev nD)
    (r : Fin 10240) (j : Fin 8192) (t1 : Fin 40) (ht1 : t1.val = r.val / 256) :
    (dats m hO 0 c).arrAt 2 (cfgM m hO).N (ix2 r j)
      = if tvalT m (ix1 t1) ≠ 0#32 then
          ∑ k : Fin 2048, xpad m c (ix2 r k) * wgt m c (ix3 ⟨(tidT m (ix1 t1)).toNat, htid t1⟩ k j)
        else 0 :=
  (congrFun (outpad_eq m hO htid c) (ix2 r j)).trans (Gat_eq (xpad m c) (wgt m c) (tidT m) (tvalT m) htid r j t1 ht1)

end Final

end Cert.KernelIdeal.Hand

end
-- ==== Proof.Bridge.lean ====
/-
  The kernel's result read at one entry. Token n, of expert s, sits at some sorted position i and is routed to the
  padded row d = poff s + (i - uoff s), which lies in row tile d / 256. That tile is marked as holding tokens and its
  expert is s, so row d of the padded output is row d of x_pad times the weight of expert s; row d of x_pad is row n
  of x (rounded to bf16, the identity on extended reals); and the final gather reads row d back for token n, since
  the word holding d reads nonnegative and the wrap of negative indices leaves it. Hence entry (n, j) of the result
  is the sum over k of x[n, k] · w[s, k, j].
-/
import proofs.«416672_j52793738003186_2_alg».proof.Proof.Run
import proofs.«416672_j52793738003186_2_alg».proof.Proof.OkAll
import proofs.«416672_j52793738003186_2_alg».proof.Proof.DecodeCounts
import proofs.«416672_j52793738003186_2_alg».proof.Proof.DecodeSort
import proofs.«416672_j52793738003186_2_alg».proof.Proof.DecodeTables
import proofs.«416672_j52793738003186_2_alg».proof.Proof.KernelValue
import proofs.«416672_j52793738003186_2_alg».proof.Proof.LibIndexRead
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ)

/-- The launched x and weight on core `c`, at their literal types. -/
abbrev xArg (c : Dev nD) : FVec Ideal S8192x2048 .f32 := m ((c : Thread nD τ).loc main_arg0)
abbrev wArg (c : Dev nD) : FVec Ideal S8x2048x8192 .f32 := m ((c : Thread nD τ).loc main_arg1)
/-- The result buffer after the run, at its literal type: the final gather of the padded output's rows. -/
abbrev outArr (hO : Ok m) (c : Dev nD) : FVec Ideal S8192x8192 .f32 :=
  Host.gather gather_S10240x8192_S8192x1_S8192x8192_1_0_n_n_0_1_18192 ((dats m hO 0 c).arrAt 2 (cfgM m hO).N) (outIdx m c)

/-! ## The row the final gather takes for a token -/

/-- Where the token-to-row table holds a small row number `d` for token `p`, the gather's index for `p` is `d`: the
    word reads nonnegative, so the wrap of negative indices leaves it. -/
theorem outIdx_word (c : Dev nD) (p : Fin 8192) (d : ℕ) (hd : d < 2 ^ 31)
    (hw : V m c main_v53 (ix1 p) = BitVec.ofNat 32 d) : outIdx m c (ix2 p 0) = BitVec.ofNat 32 d := by
  unfold outIdx
  rw [bcast_col, fixup_vec _ _ _ p rfl (by rw [hw, toInt_ofNat_small hd]; exact Int.natCast_nonneg d)]
  exact hw

/-! ## The kernel's result at one entry -/

/-- Entry (n, j) of the kernel's result is row n of x times column j of the weight of token n's expert. -/
theorem kernel_entry (c : Dev nD) (hR : InRange m c) (n : Fin 8192) (j : Fin 8192) :
    outArr m (ok m) c (ix2 n j) = ∑ k : Fin 2048, xArg m c (ix2 n k) * wArg m c (ix3 (eidx m c n) k j) := by
  obtain rfl : c = 0 := Subsingleton.elim _ _
  have hI : ∀ n, idxArr m 0 (ix1 n) = BitVec.ofNat 32 (eidx m 0 n).val := fun n => idx_word m 0 hR n
  have hK : ∀ n, keysArr m 0 (ix1 n) = idxArr m 0 (ix1 n) := fun n => keys_eq m 0 hR n
  have hU : ∀ e : Fin 9, V m 0 main_v19 (ix1 e) = BitVec.ofNat 32 (Cert.Route.uoff (eidx m 0) e.val) := fun e => uoff_word m 0 hR e
  have hP : ∀ e : Fin 9, V m 0 main_v28 (ix1 e) = BitVec.ofNat 32 (Cert.Route.poff 256 (eidx m 0) e.val) := fun e => poff_word m 0 hR e
  have hS : Cert.Route.SortedPerm (eidx m 0) (sperm m 0) := sperm_sorted m 0 hK hI
  have hV1 : ∀ i : Fin 8192, V m 0 main_v1 (ix1 i) = BitVec.ofNat 32 (sperm m 0 i).val := fun i => v1_word m 0 i
  have hV45 : ∀ i : Fin 8192, V m 0 main_v45 (ix1 i) = BitVec.ofNat 32 (Cert.Route.dest 256 (eidx m 0) (sperm m 0) i) :=
    fun i => v45_word m 0 hR hK hI hU hP i
  obtain ⟨i, rfl⟩ := hS.bij.surjective n
  have hd : Cert.Route.dest 256 (eidx m 0) (sperm m 0) i < 10240 := by
    have := Cert.Route.dest_lt_bound hS (by decide : 0 < 256) i
    omega
  have hw := tdest_word m 0 hS hV1 hV45 i
  have hx := fun (r : Fin 10240) hr k => xpad_row m 0 hS hV1 hV45 i r hr k
  have htw := fun (t : Fin 40) ht => tid_word m 0 hS hP i t ht
  have hvw := fun (t : Fin 40) ht => tvalid_word m 0 hS hP i t ht
  generalize Cert.Route.dest 256 (eidx m 0) (sperm m 0) i = d at hd hw hx htw hvw
  -- the gather reads row d of the padded output
  have hidx : outIdx m 0 (ix2 (sperm m 0 i) 0) = BitVec.ofNat 32 d := outIdx_word m 0 _ d (by omega) hw
  have hg := Cert.Sage.IndexRead.gather_rows gather_S10240x8192_S8192x1_S8192x8192_1_0_n_n_0_1_18192 rfl rfl rfl rfl rfl rfl rfl
    ((dats m (ok m) 0 0).arrAt 2 (cfgM m (ok m)).N) (outIdx m 0) (sperm m 0 i) j (⟨d, hd⟩ : Fin 10240)
    (by rw [hidx]; exact toInt_ofNat_small (by omega))
  refine Eq.trans hg ?_
  -- row d of the padded output, in row tile d / 256
  have htid : ∀ t : Fin 40, (tidT m (ix1 t)).toNat < 8 := fun t => tid_lt m 0 t
  rw [outpad_apply m (ok m) htid 0 ⟨d, hd⟩ j ⟨d / 256, by omega⟩ rfl]
  have hv : tvalT m (ix1 (⟨d / 256, by omega⟩ : Fin 40)) = 1#32 := hvw ⟨d / 256, by omega⟩ rfl
  rw [if_pos (by rw [hv]; decide)]
  have he : (⟨(tidT m (ix1 (⟨d / 256, by omega⟩ : Fin 40))).toNat, htid ⟨d / 256, by omega⟩⟩ : Fin 8) = eidx m 0 (sperm m 0 i) :=
    Fin.ext (by
      show (tidT m (ix1 (⟨d / 256, by omega⟩ : Fin 40))).toNat = _
      rw [show tidT m (ix1 (⟨d / 256, by omega⟩ : Fin 40)) = BitVec.ofNat 32 (eidx m 0 (sperm m 0 i)).val from htw ⟨d / 256, by omega⟩ rfl]
      exact toNat_ofNat_lt _ (by have := (eidx m 0 (sperm m 0 i)).isLt; omega))
  rw [he]
  refine Finset.sum_congr rfl fun k _ => ?_
  have h1 : xpad m 0 (ix2 (⟨d, hd⟩ : Fin 10240) k) = xArg m 0 (ix2 (sperm m 0 i) k) := by
    show V m 0 main_v80 (ix2 (⟨d, hd⟩ : Fin 10240) k) = _
    rw [hx ⟨d, hd⟩ rfl k, V_main_v71, Vkept_arg0]
    rfl
  have h2 : wgt m 0 = wArg m 0 := Vkept_arg1 m 0
  rw [h1, h2]

end Cert.KernelIdeal.Hand

end
-- ==== Proof.RefGen.lean ====
/-
  The reference's generated run and its read-at-an-index lemmas, gathered under one name for the modules that
  read the reference's value.
-/
import proofs.«416672_j52793738003186_2_alg».proof.Proof.Gen.ReferenceIdeal.Run
import proofs.«416672_j52793738003186_2_alg».proof.Proof.Gen.ReferenceIdeal.Read
-- ==== Proof.RefValue.lean ====
/-
  The reference program's value at an index, at the ideal instance (a float an extended real, every operation exact).
  The reference is out = 0 + Σ_{e<8} sel_e · weight[e], where row n of sel_e is row n of x when indices[n] = e and the
  float zero otherwise. At a token n routed to expert s, every term with e ≠ s is a sum of products 0 · w = 0 (true of every
  extended real, so no finiteness of the inputs is needed), and what is left is the one product row: out[n, j] = Σ_k x[n, k] · weight[s, k, j].
-/
import proofs.«416672_j52793738003186_2_alg».proof.Proof.RefGen
import Idealize.ShloMosaic.Lib.ValueIdx
import Idealize.ShloMosaic.PureOps.Ideal.Laws
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-! ## Words and sums -/

/-- The integer zero that the select takes for a token not routed to the expert, converted to a float, is the real zero. -/
theorem sitofp_zero : FloatOps.sitofp (F := Ideal) .f32 (0#32 : BitVec 32) = (0 : EReal) := by
  show ((((0#32 : BitVec 32).toInt : ℤ) : ℝ) : EReal) = 0
  rw [BitVec.toInt_zero, Int.cast_zero, EReal.coe_zero]

/-- Two expert numbers below 8, compared as 32-bit words, compare as numbers. -/
theorem cmp_expert (a b : Nat) (ha : a < 8) (hb : b < 8) :
    IntOp.cmpi .eq (BitVec.ofNat 32 a) (BitVec.ofNat 32 b) = if a = b then 1#1 else 0#1 := by
  by_cases h : a = b
  · rw [if_pos h, StableHlo.Predicate.cmpi_eq_iff, h]
  · rw [if_neg h]
    refine eq_zero_of_ne_one fun h1 => h ?_
    have h2 := congrArg BitVec.toNat (StableHlo.Predicate.cmpi_eq_iff.mp h1)
    simp only [BitVec.toNat_ofNat] at h2
    omega

/-- A masked row times a column: the mask's bit chooses between the row's product with the column and zero, since
    0 · a = 0 for every extended real a. -/
theorem masked_dot (c : BitVec 1) (f g : Fin 2048 → EReal) :
    ∑ k, Scalar.select c (f k) 0 * g k = Scalar.select c (∑ k, f k * g k) 0 := by
  rcases BitVec.eq_zero_or_eq_one c with h | h
  · subst h; simp only [select_zero, zero_mul, Finset.sum_const_zero]
  · subst h; simp only [select_one]

/-! ## One expert's term at an index

For expert e the reference forms where(indices = e, x, 0) @ weight[e]. Read at (n, j) through the generated stage
lemmas: the contraction's sum over k of the selected x[n, k] times weight[e, k, j] (the slice [e:e+1] reshaped to
[2048, 8192] reads weight at (e, k, j): (k·8192 + j) / 8192 mod 2048 = k and (k·8192 + j) mod 8192 = j). The tactic below is that
reading, the same for the eight experts; its arguments are the expert's stage lemmas and index functions. -/

set_option hygiene false in
local macro "expert_term" dotA:ident selA:ident m1A:ident b3A:ident cmpA:ident bcA:ident cA:ident z2A:ident z0A:ident zcA:ident
    rsA:ident slA:ident lidx:ident ridx:ident i3:ident i1:ident i5:ident i6:ident e:term : tactic => `(tactic| (
  rw [$dotA:ident]
  refine Finset.sum_congr rfl fun k _ => ?_
  have el : $lidx (ix2 n j) k = ix2 n k := funext fun a => Fin.ext (by match a with | ⟨0, _⟩ => rfl | ⟨1, _⟩ => rfl)
  have er : $ridx (ix2 n j) k = ix2 k j := funext fun a => Fin.ext (by match a with | ⟨0, _⟩ => rfl | ⟨1, _⟩ => rfl)
  have ec : $i3 ($i1 (ix2 n k)) = ix1 n := funext fun a => Fin.ext (by match a with | ⟨0, _⟩ => rfl)
  have ew : $i5 ($i6 (ix2 k j)) = ix3 ($e : Fin 8) k j := funext fun a => Fin.ext (by
    match a with
    | ⟨0, _⟩ => rfl
    | ⟨1, _⟩ => show (k.val * 8192 + j.val) / 8192 % 2048 = k.val; omega
    | ⟨2, _⟩ => show (k.val * 8192 + j.val) % 8192 = j.val; omega)
  rw [el, er, $selA:ident, $m1A:ident, $b3A:ident, $cmpA:ident, $bcA:ident, $cA:ident, $z2A:ident, $z0A:ident, $zcA:ident,
    $rsA:ident, $slA:ident, ec, ew, sitofp_zero]))

theorem term0 (x : FVec Ideal S8192x2048 .f32) (w : FVec Ideal S8x2048x8192 .f32) (idx : IVec S8192 32) (n j : Fin 8192) :
    Read.val_main_v7 (F := Ideal) x w idx (ix2 n j)
      = ∑ k : Fin 2048, Scalar.select (IntOp.cmpi .eq (idx (ix1 n)) 0#32) (x (ix2 n k)) 0 * w (ix3 (⟨0, by decide⟩ : Fin 8) k j) := by
  expert_term Read.val_main_v7_apply Read.val_main_v4_apply Read.val_main_call0_v1_apply Read.val_main_v3_apply
    Read.val_main_v2_apply Read.val_main_v1_apply Read.val_main_c_apply Read.val_main_call0_v2_apply Read.val_main_call0_v0_apply
    Read.val_main_c_0_apply Read.val_main_v6_apply Read.val_main_v5_apply Read.lidx_main_v7 Read.ridx_main_v7 Read.idx_main_v3
    Read.idx_main_call0_v1 Read.idx_main_v5 Read.idx_main_v6 ⟨0, by decide⟩

theorem term1 (x : FVec Ideal S8192x2048 .f32) (w : FVec Ideal S8x2048x8192 .f32) (idx : IVec S8192 32) (n j : Fin 8192) :
    Read.val_main_v15 (F := Ideal) x w idx (ix2 n j)
      = ∑ k : Fin 2048, Scalar.select (IntOp.cmpi .eq (idx (ix1 n)) 1#32) (x (ix2 n k)) 0 * w (ix3 (⟨1, by decide⟩ : Fin 8) k j) := by
  expert_term Read.val_main_v15_apply Read.val_main_v12_apply Read.val_main_call1_v1_apply Read.val_main_v11_apply
    Read.val_main_v10_apply Read.val_main_v9_apply Read.val_main_c_1_apply Read.val_main_call1_v2_apply Read.val_main_call1_v0_apply
    Read.val_main_c_2_apply Read.val_main_v14_apply Read.val_main_v13_apply Read.lidx_main_v15 Read.ridx_main_v15 Read.idx_main_v11
    Read.idx_main_call1_v1 Read.idx_main_v13 Read.idx_main_v14 ⟨1, by decide⟩

theorem term2 (x : FVec Ideal S8192x2048 .f32) (w : FVec Ideal S8x2048x8192 .f32) (idx : IVec S8192 32) (n j : Fin 8192) :
    Read.val_main_v23 (F := Ideal) x w idx (ix2 n j)
      = ∑ k : Fin 2048, Scalar.select (IntOp.cmpi .eq (idx (ix1 n)) 2#32) (x (ix2 n k)) 0 * w (ix3 (⟨2, by decide⟩ : Fin 8) k j) := by
  expert_term Read.val_main_v23_apply Read.val_main_v20_apply Read.val_main_call2_v1_apply Read.val_main_v19_apply
    Read.val_main_v18_apply Read.val_main_v17_apply Read.val_main_c_3_apply Read.val_main_call2_v2_apply Read.val_main_call2_v0_apply
    Read.val_main_c_4_apply Read.val_main_v22_apply Read.val_main_v21_apply Read.lidx_main_v23 Read.ridx_main_v23 Read.idx_main_v19
    Read.idx_main_call2_v1 Read.idx_main_v21 Read.idx_main_v22 ⟨2, by decide⟩

theorem term3 (x : FVec Ideal S8192x2048 .f32) (w : FVec Ideal S8x2048x8192 .f32) (idx : IVec S8192 32) (n j : Fin 8192) :
    Read.val_main_v31 (F := Ideal) x w idx (ix2 n j)
      = ∑ k : Fin 2048, Scalar.select (IntOp.cmpi .eq (idx (ix1 n)) 3#32) (x (ix2 n k)) 0 * w (ix3 (⟨3, by decide⟩ : Fin 8) k j) := by
  expert_term Read.val_main_v31_apply Read.val_main_v28_apply Read.val_main_call3_v1_apply Read.val_main_v27_apply
    Read.val_main_v26_apply Read.val_main_v25_apply Read.val_main_c_5_apply Read.val_main_call3_v2_apply Read.val_main_call3_v0_apply
    Read.val_main_c_6_apply Read.val_main_v30_apply Read.val_main_v29_apply Read.lidx_main_v31 Read.ridx_main_v31 Read.idx_main_v27
    Read.idx_main_call3_v1 Read.idx_main_v29 Read.idx_main_v30 ⟨3, by decide⟩

theorem term4 (x : FVec Ideal S8192x2048 .f32) (w : FVec Ideal S8x2048x8192 .f32) (idx : IVec S8192 32) (n j : Fin 8192) :
    Read.val_main_v39 (F := Ideal) x w idx (ix2 n j)
      = ∑ k : Fin 2048, Scalar.select (IntOp.cmpi .eq (idx (ix1 n)) 4#32) (x (ix2 n k)) 0 * w (ix3 (⟨4, by decide⟩ : Fin 8) k j) := by
  expert_term Read.val_main_v39_apply Read.val_main_v36_apply Read.val_main_call4_v1_apply Read.val_main_v35_apply
    Read.val_main_v34_apply Read.val_main_v33_apply Read.val_main_c_7_apply Read.val_main_call4_v2_apply Read.val_main_call4_v0_apply
    Read.val_main_c_8_apply Read.val_main_v38_apply Read.val_main_v37_apply Read.lidx_main_v39 Read.ridx_main_v39 Read.idx_main_v35
    Read.idx_main_call4_v1 Read.idx_main_v37 Read.idx_main_v38 ⟨4, by decide⟩

theorem term5 (x : FVec Ideal S8192x2048 .f32) (w : FVec Ideal S8x2048x8192 .f32) (idx : IVec S8192 32) (n j : Fin 8192) :
    Read.val_main_v47 (F := Ideal) x w idx (ix2 n j)
      = ∑ k : Fin 2048, Scalar.select (IntOp.cmpi .eq (idx (ix1 n)) 5#32) (x (ix2 n k)) 0 * w (ix3 (⟨5, by decide⟩ : Fin 8) k j) := by
  expert_term Read.val_main_v47_apply Read.val_main_v44_apply Read.val_main_call5_v1_apply Read.val_main_v43_apply
    Read.val_main_v42_apply Read.val_main_v41_apply Read.val_main_c_9_apply Read.val_main_call5_v2_apply Read.val_main_call5_v0_apply
    Read.val_main_c_10_apply Read.val_main_v46_apply Read.val_main_v45_apply Read.lidx_main_v47 Read.ridx_main_v47 Read.idx_main_v43
    Read.idx_main_call5_v1 Read.idx_main_v45 Read.idx_main_v46 ⟨5, by decide⟩

theorem term6 (x : FVec Ideal S8192x2048 .f32) (w : FVec Ideal S8x2048x8192 .f32) (idx : IVec S8192 32) (n j : Fin 8192) :
    Read.val_main_v55 (F := Ideal) x w idx (ix2 n j)
      = ∑ k : Fin 2048, Scalar.select (IntOp.cmpi .eq (idx (ix1 n)) 6#32) (x (ix2 n k)) 0 * w (ix3 (⟨6, by decide⟩ : Fin 8) k j) := by
  expert_term Read.val_main_v55_apply Read.val_main_v52_apply Read.val_main_call6_v1_apply Read.val_main_v51_apply
    Read.val_main_v50_apply Read.val_main_v49_apply Read.val_main_c_11_apply Read.val_main_call6_v2_apply Read.val_main_call6_v0_apply
    Read.val_main_c_12_apply Read.val_main_v54_apply Read.val_main_v53_apply Read.lidx_main_v55 Read.ridx_main_v55 Read.idx_main_v51
    Read.idx_main_call6_v1 Read.idx_main_v53 Read.idx_main_v54 ⟨6, by decide⟩

theorem term7 (x : FVec Ideal S8192x2048 .f32) (w : FVec Ideal S8x2048x8192 .f32) (idx : IVec S8192 32) (n j : Fin 8192) :
    Read.val_main_v63 (F := Ideal) x w idx (ix2 n j)
      = ∑ k : Fin 2048, Scalar.select (IntOp.cmpi .eq (idx (ix1 n)) 7#32) (x (ix2 n k)) 0 * w (ix3 (⟨7, by decide⟩ : Fin 8) k j) := by
  expert_term Read.val_main_v63_apply Read.val_main_v60_apply Read.val_main_call7_v1_apply Read.val_main_v59_apply
    Read.val_main_v58_apply Read.val_main_v57_apply Read.val_main_c_13_apply Read.val_main_call7_v2_apply Read.val_main_call7_v0_apply
    Read.val_main_c_14_apply Read.val_main_v62_apply Read.val_main_v61_apply Read.lidx_main_v63 Read.ridx_main_v63 Read.idx_main_v59
    Read.idx_main_call7_v1 Read.idx_main_v61 Read.idx_main_v62 ⟨7, by decide⟩

/-! ## The eight terms added up -/

/-- A select on a decided bit is the `if`. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

/-- Of eight terms of which only the one numbered s is kept, zero plus their sum (added in order) is that term:
    0 + a = a and a + 0 = a for every extended real a. -/
theorem pick (s : Fin 8) (T : Fin 8 → EReal) :
    0 + (if s.val = 0 then T ⟨0, by decide⟩ else 0) + (if s.val = 1 then T ⟨1, by decide⟩ else 0)
      + (if s.val = 2 then T ⟨2, by decide⟩ else 0) + (if s.val = 3 then T ⟨3, by decide⟩ else 0)
      + (if s.val = 4 then T ⟨4, by decide⟩ else 0) + (if s.val = 5 then T ⟨5, by decide⟩ else 0)
      + (if s.val = 6 then T ⟨6, by decide⟩ else 0) + (if s.val = 7 then T ⟨7, by decide⟩ else 0) = T s := by
  obtain ⟨sv, hsv⟩ := s
  interval_cases sv <;> simp

/-- The reference's result at token n and column j, for a token routed to expert s: row n of x times column j of
    weight[s]. The result is 0 plus the eight experts' terms in order; the term of expert e is the masked row's product with
    column j of weight[e], which is the row's product when e = s and 0 otherwise. -/
theorem ref_apply (x : FVec Ideal S8192x2048 .f32) (w : FVec Ideal S8x2048x8192 .f32) (idx : IVec S8192 32)
    (n : Fin 8192) (s : Fin 8) (hs : idx (ix1 n) = BitVec.ofNat 32 s.val) (j : Fin 8192) :
    Read.val_main_v64 (F := Ideal) x w idx (ix2 n j) = ∑ k : Fin 2048, x (ix2 n k) * w (ix3 s k j) := by
  rw [Read.val_main_v64_apply, Read.val_main_v56_apply, Read.val_main_v48_apply, Read.val_main_v40_apply, Read.val_main_v32_apply,
    Read.val_main_v24_apply, Read.val_main_v16_apply, Read.val_main_v8_apply, Read.val_main_v0_apply, Read.val_main_cst_apply,
    term0, term1, term2, term3, term4, term5, term6, term7]
  simp only [masked_dot]
  simp only [hs, cmp_expert _ _ s.isLt (by decide : (0 : ℕ) < 8), cmp_expert _ _ s.isLt (by decide : (1 : ℕ) < 8),
    cmp_expert _ _ s.isLt (by decide : (2 : ℕ) < 8), cmp_expert _ _ s.isLt (by decide : (3 : ℕ) < 8),
    cmp_expert _ _ s.isLt (by decide : (4 : ℕ) < 8), cmp_expert _ _ s.isLt (by decide : (5 : ℕ) < 8),
    cmp_expert _ _ s.isLt (by decide : (6 : ℕ) < 8), cmp_expert _ _ s.isLt (by decide : (7 : ℕ) < 8),
    select_ite, Ideal.addf_def, Ideal.ofBits_def, Ideal.ofBits_zero_f32]
  exact pick s fun e => ∑ k : Fin 2048, x (ix2 n k) * w (ix3 e k j)

/-- The run's result term is that value of the three arguments' launch contents. -/
theorem run_value (m : (ℓ : Loc nD τ sig) → Buf (Elt Ideal) ℓ) (c : Dev nD) :
    Cert.ReferenceIdeal.Value.res_main_v64 (F := Ideal) m c
      = Read.val_main_v64 (F := Ideal) (m ((c.tc : Thread nD τ).loc main_arg0)) (m ((c.tc : Thread nD τ).loc main_arg1))
          (m ((c.tc : Thread nD τ).loc main_arg2)) :=
  Read.val_main_v64_eq m c

end Cert.ReferenceIdeal.RefValue

end
-- ==== Proof.PreDecode.lean ====
/-
  The precondition read back. The printed predicate is the conjunction of three reductions by `and`:
  |x| < +∞ over every entry of the activations, the same over every entry of the weights, and
  0 ≤ idx ∧ idx < 8 (read signed) over every index word. From its being 1 everywhere: every float
  entry is a real number (at the extended reals), and every index word is one of 0, …, 7.
-/
import proofs.«416672_j52793738003186_2_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal

namespace Cert.PreDecode

open Idealize.ShloMosaic Cert.Pre_finite_inputs

local instance : Subsingleton S_.Idx := ⟨fun a b => funext fun d => d.elim0⟩

/-- An extended real whose absolute value lies strictly below the pattern of +∞ is a real number. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- The predicate split into its three element-wise facts, at any float instance. -/
theorem pre_split {F : FTy → Type} [FloatOps F] (x : FVec F S8192x2048 .f32) (w : FVec F S8x2048x8192 .f32) (idx : IVec S8192 32)
    (h : Cert.Pre_finite_inputs.fn (F := F) x w idx = fun _ => 1#1) :
    (∀ i, FloatOps.cmpf .olt (FloatOps.hostAbsf (x i)) (FloatOps.ofBits .f32 0x7F800000#32) = 1#1)
    ∧ (∀ i, FloatOps.cmpf .olt (FloatOps.hostAbsf (w i)) (FloatOps.ofBits .f32 0x7F800000#32) = 1#1)
    ∧ (∀ i, IntOp.cmpi .sge (idx i) 0#32 = 1#1 ∧ IntOp.cmpi .slt (idx i) 8#32 = 1#1) := by
  have h0 := congrFun h ValueIdx.ix0
  dsimp only [fn] at h0
  obtain ⟨h8, h14⟩ := IntOp.andi_eq_one.1 h0
  obtain ⟨h3, h7⟩ := IntOp.andi_eq_one.1 h8
  refine ⟨fun i => ?_, fun i => ?_, fun i => ?_⟩
  · exact Host.reduce_andi_all _ _ _ _ _ h3 i
  · exact Host.reduce_andi_all _ _ _ _ _ h7 i
  · exact IntOp.andi_eq_one.1 (Host.reduce_andi_all _ _ _ _ _ h14 i)

theorem finite_of_pre (x : FVec Ideal S8192x2048 .f32) (w : FVec Ideal S8x2048x8192 .f32) (idx : IVec S8192 32)
    (h : Cert.Pre_finite_inputs.fn (F := Ideal) x w idx = fun _ => 1#1) :
    (∀ i, ∃ r : ℝ, x i = (r : EReal)) ∧ (∀ i, ∃ r : ℝ, w i = (r : EReal)) := by
  obtain ⟨hx, hw, -⟩ := pre_split x w idx h
  exact ⟨fun i => real_of_abs_lt_inf (x i) (hx i), fun i => real_of_abs_lt_inf (w i) (hw i)⟩

theorem range_of_pre {F : FTy → Type} [FloatOps F] (x : FVec F S8192x2048 .f32) (w : FVec F S8x2048x8192 .f32) (idx : IVec S8192 32)
    (h : Cert.Pre_finite_inputs.fn (F := F) x w idx = fun _ => 1#1) :
    ∀ n : Fin 8192, 0 ≤ (idx (ValueIdx.ix1 n)).toInt ∧ (idx (ValueIdx.ix1 n)).toInt < 8 := by
  obtain ⟨-, -, hi⟩ := pre_split x w idx h
  intro n
  obtain ⟨hge, hlt⟩ := hi (ValueIdx.ix1 n)
  have h0 : (0#32 : BitVec 32).toInt = 0 := by decide
  have h8 : (8#32 : BitVec 32).toInt = 8 := by decide
  exact ⟨h0 ▸ IntOp.cmpi_sge.1 hge, h8 ▸ IntOp.cmpi_slt.1 hlt⟩

theorem word_of_pre {F : FTy → Type} [FloatOps F] (x : FVec F S8192x2048 .f32) (w : FVec F S8x2048x8192 .f32) (idx : IVec S8192 32)
    (h : Cert.Pre_finite_inputs.fn (F := F) x w idx = fun _ => 1#1) :
    ∀ n : Fin 8192, ∃ s : Fin 8, idx (ValueIdx.ix1 n) = BitVec.ofNat 32 s.val := by
  intro n
  obtain ⟨h0, h8⟩ := range_of_pre x w idx h n
  have hnat : (idx (ValueIdx.ix1 n)).toInt = ((idx (ValueIdx.ix1 n)).toInt.toNat : Int) := (Int.toNat_of_nonneg h0).symm
  refine ⟨⟨(idx (ValueIdx.ix1 n)).toInt.toNat, by omega⟩, ?_⟩
  apply BitVec.eq_of_toInt_eq
  rw [StableHlo.Predicate.toInt_ofNat_small _ (by omega)]
  exact hnat

end Cert.PreDecode
-- ==== Proof.lean ====
/-
  A grouped matmul for expert routing against its masked reference.

  The kernel routes 8192 tokens to 8 experts: it sorts the tokens by expert, pads every expert's run up to a
  multiple of the 256-row tile, scatters the tokens' rows into the padded layout, multiplies each row tile by the
  weight of the one expert the tile belongs to (a table of tile experts and a table of tile validity are read by
  the pipeline and the body), writes zeros on the tiles past the padded extent, and gathers each token's row back.
  The reference adds, over the 8 experts, the product of the token rows masked to that expert with the expert's
  weight.

  At the ideal instance both are, entry by entry, the sum over `k` of `x (n, k) * w (expert n, k, j)`:
  • reference: the masked rows are zero for every expert but the token's own, `0 * a = 0` and `0 + a = a` on the
    extended reals, so of the eight products one survives (no finiteness is needed);
  • kernel: the token at sorted position `i` lands on padded row `poff e + (i - uoff e)` of its expert `e`, which
    lies in `[poff e, poff (e + 1))` (the positions of expert `e` in the sorted order are exactly
    `[uoff e, uoff e + cnt e)`, and `cnt e` is at most the padded count), so the row's tile counts exactly `e`
    padded offsets at or below its start — the tile's expert is `e` — and starts below the padded extent — the tile is
    valid —; the padded rows of distinct tokens are distinct, so the row holds that token's `x` row and the final
    gather reads it back; the casts to bf16 are the identity at the ideal instance and the matmul into a zero
    accumulator is the plain sum.
  This needs every index to be an expert, `0 ≤ indices < 8` (the reference's own `weight[indices[n]]`): outside it
  the kernel clips the index while the reference's masks all miss.

  The frames of the two kernel programs hold of every launch memory: the host clips the tile-expert table into
  `[0, 7]` before the region reads it, so every weight block the pipeline fetches lies inside the weight array; the
  body's two branches on the tile-validity word are complementary, each storing the whole output block.
-/
import proofs.«416672_j52793738003186_2_alg».proof.Defs
import proofs.«416672_j52793738003186_2_alg».proof.Proof.Gen.Kernel
import proofs.«416672_j52793738003186_2_alg».proof.Proof.Gen.KernelIdeal
import proofs.«416672_j52793738003186_2_alg».proof.Proof.Gen.ReferenceIdeal
import proofs.«416672_j52793738003186_2_alg».proof.Proof.Gen.Pre_finite_inputs
import proofs.«416672_j52793738003186_2_alg».proof.Proof.RunK
import proofs.«416672_j52793738003186_2_alg».proof.Proof.OkAllK
import proofs.«416672_j52793738003186_2_alg».proof.Proof.Run
import proofs.«416672_j52793738003186_2_alg».proof.Proof.OkAll
import proofs.«416672_j52793738003186_2_alg».proof.Proof.Bridge
import proofs.«416672_j52793738003186_2_alg».proof.Proof.DecodeCounts
import proofs.«416672_j52793738003186_2_alg».proof.Proof.RefValue
import proofs.«416672_j52793738003186_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and leaves its arguments as launched, from any memory. -/
theorem frame_k : Cert.frame_Kernel := fun m ρ _ => Cert.Kernel.Hand.frame m ρ (Cert.Kernel.Hand.ok m)

/-- So does the idealized kernel program. -/
theorem frame_ki : Cert.frame_KernelIdeal := fun m ρ _ => Cert.KernelIdeal.Hand.frame m ρ (Cert.KernelIdeal.Hand.ok m)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Under the precondition every launched index is an expert. -/
theorem in_range (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Hand.InRange m c := by
  intro n
  unfold Cert.KernelIdeal.Hand.idxArr
  rw [Cert.KernelIdeal.Hand.V_main_arg2]
  exact Cert.PreDecode.range_of_pre _ _ _ (hpre c) n

/-- The index array as launched, at its literal type. -/
abbrev idxArg (m : (ℓ : Loc Cert.KernelIdeal.nD Cert.KernelIdeal.τ Cert.KernelIdeal.sig) → Buf (Elt Ideal) ℓ) (c : Dev Cert.KernelIdeal.nD) :
    IVec Cert.KernelIdeal.S8192 32 := m ((c.tc : Thread Cert.KernelIdeal.nD Cert.KernelIdeal.τ).loc Cert.KernelIdeal.main_arg2)

/-- The kernel's result array is the reference's value of the same arguments: entry `(n, j)` of both is the sum over `k`
    of `x (n, k) * w (expert n, k, j)`. -/
theorem kernel_eq_ref (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Hand.outArr m (Cert.KernelIdeal.Hand.ok m) c
      = Cert.ReferenceIdeal.Read.val_main_v64 (F := Ideal) (Cert.KernelIdeal.Hand.xArg m c) (Cert.KernelIdeal.Hand.wArg m c) (idxArg m c) := by
  have hR := in_range m hpre c
  funext i
  obtain ⟨n, j, rfl⟩ : ∃ (n : Fin 8192) (j : Fin 8192), i = ix2 n j := ⟨i 0, i 1, eq_ix2 i⟩
  refine (Cert.KernelIdeal.Hand.kernel_entry m c hR n j).trans ?_
  have hs : idxArg m c (ix1 n) = BitVec.ofNat 32 (Cert.KernelIdeal.Hand.eidx m c n).val := by
    have h := Cert.KernelIdeal.Hand.idx_word m c hR n
    unfold Cert.KernelIdeal.Hand.idxArr at h
    rw [Cert.KernelIdeal.Hand.V_main_arg2] at h
    exact h
  exact (Cert.ReferenceIdeal.RefValue.ref_apply _ _ _ n (Cert.KernelIdeal.Hand.eidx m c n) hs j).symm

/-- Both idealized programs, from memories agreeing on the arguments, end at that array. -/
theorem algebraic : Cert.algebraic_KernelIdeal_ReferenceIdeal := by
  intro m ρ m' ρ' hpre hagree
  refine ⟨fun c => Cert.ReferenceIdeal.Read.val_main_v64 (F := Ideal) (Cert.KernelIdeal.Hand.xArg m c) (Cert.KernelIdeal.Hand.wArg m c) (idxArg m c), ?_, ?_⟩
  · exact (θ_run Cert.KernelIdeal.defs _ _).mono (fun r h c => ⟨(h c).1.trans (kernel_eq_ref m hpre c), (h c).2⟩)
      (Cert.KernelIdeal.Hand.run_out m ρ (Cert.KernelIdeal.Hand.ok m))
  · refine (θ_run Cert.ReferenceIdeal.defs _ _).mono (fun _ h c => ⟨(h c).1.trans ?_, (h c).2⟩)
      (Cert.ReferenceIdeal.Value.run (F := Ideal) m' ρ')
    rw [Cert.ReferenceIdeal.RefValue.run_value, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
